-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S1024x128 : Shape := ⟨2, ![1024, 128]⟩
abbrev S128 : Shape := ⟨1, ![128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg2 : IVec S8192 32) (main_arg3 : IVec S8192 32) (main_v33 : IVec S_ 1) : IVec S_ 1 :=
  let main_c_12 : IVec S_ 32 := constantI S_ 32 0#32
  let main_v34 : IVec S8192 32 := broadcastInDim S8192 ![] bcast_S_S8192 main_c_12
  let main_v35 : IVec S8192 1 := cmpi .sge main_arg2 main_v34
  let main_c_13 : IVec S_ 32 := constantI S_ 32 80#32
  let main_v36 : IVec S8192 32 := broadcastInDim S8192 ![] bcast_S_S8192 main_c_13
  let main_v37 : IVec S8192 1 := cmpi .slt main_arg2 main_v36
  let main_v38 : IVec S8192 1 := andi main_v35 main_v37
  let main_c_14 : IVec S_ 1 := constantI S_ 1 1#1
  let main_v39 : IVec S_ 1 := (fun x v => Host.reduce IntOp.andi x v reducesTo_S8192_S_d0 h_S_) main_v38 main_c_14
  let main_v40 : IVec S_ 1 := andi main_v33 main_v39
  let main_c_15 : IVec S_ 32 := constantI S_ 32 0#32
  let main_v41 : IVec S8192 32 := broadcastInDim S8192 ![] bcast_S_S8192 main_c_15
  let main_v42 : IVec S8192 1 := cmpi .sge main_arg3 main_v41
  let main_c_16 : IVec S_ 32 := constantI S_ 32 80#32
  let main_v43 : IVec S8192 32 := broadcastInDim S8192 ![] bcast_S_S8192 main_c_16
  let main_v44 : IVec S8192 1 := cmpi .slt main_arg3 main_v43
  let main_v45 : IVec S8192 1 := andi main_v42 main_v44
  let main_c_17 : IVec S_ 1 := constantI S_ 1 1#1
  let main_v46 : IVec S_ 1 := (fun x v => Host.reduce IntOp.andi x v reducesTo_S8192_S_d0 h_S_) main_v45 main_c_17
  let main_v47 : IVec S_ 1 := andi main_v40 main_v46
  main_v47

def fn_part1 {F : FTy → Type} [FloatOps F] (main_arg2 : IVec S8192 32) (main_arg3 : IVec S8192 32) (main_arg6 : FVec F S1024x128 .f32) (main_arg7 : FVec F S128 .f32) (main_arg8 : FVec F S1024x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1024x128 .f32 := Host.absf main_arg6
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1024x128 .f32 := Host.absf main_arg8
  let main_cst_10 : FVec F S_ .f32 := constant S_ .f32 0x7F800000#32
  let main_v30 : FVec F S1024x128 .f32 := broadcastInDim S1024x128 ![] bcast_S_S1024x128 main_cst_10
  let main_v31 : IVec S1024x128 1 := cmpf .olt main_v29 main_v30
  let main_c_11 : IVec S_ 1 := constantI S_ 1 1#1
  let main_v32 : IVec S_ 1 := (fun x v => Host.reduce IntOp.andi x v reducesTo_S1024x128_S_d0_1 h_S_) main_v31 main_c_11
  let main_v33 : IVec S_ 1 := andi main_v28 main_v32
  fn_part2 (F := F) main_arg2 main_arg3 main_v33

def fn {F : FTy → Type} [FloatOps F] (main_arg0 : FVec F S8192x1024 .f32) (main_arg1 : FVec F S8192x1024 .f32) (main_arg2 : IVec S8192 32) (main_arg3 : IVec S8192 32) (main_arg4 : FVec F S1024x128 .f32) (main_arg5 : FVec F S128 .f32) (main_arg6 : FVec F S1024x128 .f32) (main_arg7 : FVec F S128 .f32) (main_arg8 : FVec F S1024x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x128 .f32 := Host.absf main_arg4
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_v13 main_v16
-- ==== Kernel.lean ====
abbrev S8192x1024 : Shape := ⟨2, ![8192, 1024]⟩
abbrev S8192 : Shape := ⟨1, ![8192]⟩
abbrev S1024x128 : Shape := ⟨2, ![1024, 128]⟩
abbrev S128 : Shape := ⟨1, ![128]⟩
abbrev S1x128 : Shape := ⟨2, ![1, 128]⟩
abbrev S8192x128 : Shape := ⟨2, ![8192, 128]⟩
abbrev S1024x1024 : Shape := ⟨2, ![1024, 1024]⟩
abbrev S80 : Shape := ⟨1, ![80]⟩
abbrev S8192x1 : Shape := ⟨2, ![8192, 1]⟩
abbrev S1x80 : Shape := ⟨2, ![1, 80]⟩
abbrev S8192x80 : Shape := ⟨2, ![8192, 80]⟩
abbrev S_ : Shape := ⟨0, ![]⟩
abbrev S1 : Shape := ⟨1, ![1]⟩
abbrev S79 : Shape := ⟨1, ![79]⟩
abbrev S1x1 : Shape := ⟨2, ![1, 1]⟩
abbrev S128x1024 : Shape := ⟨2, ![128, 1024]⟩
abbrev S8x8x128 : Shape := ⟨3, ![8, 8, 128]⟩
abbrev S1024x1 : Shape := ⟨2, ![1024, 1]⟩
abbrev S1x8x128 : Shape := ⟨3, ![1, 8, 128]⟩
abbrev S1024 : Shape := ⟨1, ![1024]⟩
abbrev S8x128 : Shape := ⟨2, ![8, 128]⟩
abbrev S8x1x1 : Shape := ⟨3, ![8, 1, 1]⟩
abbrev S8 : Shape := ⟨1, ![8]⟩

abbrev nBuf : Space → Nat
  | .hbm => 148
  | .vmem => 17
  | .smem => 0
  | _ => 0

abbrev hbmTy0_0 (i : Nat) : BufTy := match i % 128 with
  | 0 => ⟨S8192x1024, .f32⟩
  | 1 => ⟨S8192x1024, .f32⟩
  | 2 => ⟨S8192, .i32⟩
  | 3 => ⟨S8192, .i32⟩
  | 4 => ⟨S1024x128, .f32⟩
  | 5 => ⟨S128, .f32⟩
  | 6 => ⟨S1024x128, .f32⟩
  | 7 => ⟨S128, .f32⟩
  | 8 => ⟨S1024x128, .f32⟩
  | 9 => ⟨S1x128, .f32⟩
  | 10 => ⟨S8192x128, .f32⟩
  | 11 => ⟨S80, .i32⟩
  | 12 => ⟨S8192x1, .i32⟩
  | 13 => ⟨S1x80, .i32⟩
  | 14 => ⟨S8192x80, .i32⟩
  | 15 => ⟨S8192x80, .i32⟩
  | 16 => ⟨S8192x80, .i1⟩
  | 17 => ⟨S8192x80, .i32⟩
  | 18 => ⟨S8192x1, .i32⟩
  | 19 => ⟨S1x80, .i32⟩
  | 20 => ⟨S8192x80, .i32⟩
  | 21 => ⟨S8192x80, .i32⟩
  | 22 => ⟨S8192x80, .i1⟩
  | 23 => ⟨S8192x80, .i32⟩
  | 24 => ⟨S_, .i32⟩
  | 25 => ⟨S80, .i32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S8192, .i32⟩
  | 35 => ⟨S_, .i32⟩
  | 36 => ⟨S8192, .i32⟩
  | 37 => ⟨S8192, .i1⟩
  | 38 => ⟨S_, .i32⟩
  | 39 => ⟨S_, .i32⟩
  | 40 => ⟨S8192x80, .i32⟩
  | 41 => ⟨S8192x80, .i32⟩
  | 42 => ⟨S8192x80, .i32⟩
  | 43 => ⟨S_, .i32⟩
  | 44 => ⟨S8192, .i32⟩
  | 45 => ⟨S_, .i32⟩
  | 46 => ⟨S8192, .i32⟩
  | 47 => ⟨S8192, .i32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S_, .i32⟩
  | 56 => ⟨S8192, .i32⟩
  | 57 => ⟨S8192, .i1⟩
  | 58 => ⟨S_, .i32⟩
  | 59 => ⟨S8192, .i32⟩
  | 60 => ⟨S8192, .i1⟩
  | 61 => ⟨S_, .i32⟩
  | 62 => ⟨S8192, .i32⟩
  | 63 => ⟨S8192, .i1⟩
  | 64 => ⟨S8192, .i1⟩
  | 65 => ⟨S8192, .i1⟩
  | 66 => ⟨S8192, .i32⟩
  | 67 => ⟨S8192, .i32⟩
  | 68 => ⟨S8192, .i32⟩
  | 69 => ⟨S8192, .i32⟩
  | 70 => ⟨S8192, .i32⟩
  | 71 => ⟨S_, .i32⟩
  | 72 => ⟨S1, .i32⟩
  | 73 => ⟨S_, .i32⟩
  | 74 => ⟨S_, .i32⟩
  | 75 => ⟨S80, .i32⟩
  | 76 => ⟨S79, .i32⟩
  | 77 => ⟨S80, .i32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192, .i32⟩
  | 87 => ⟨S8192, .i32⟩
  | 88 => ⟨S_, .i32⟩
  | 89 => ⟨S_, .i32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S8192, .i32⟩
  | 105 => ⟨S_, .i32⟩
  | 106 => ⟨S_, .i32⟩
  | 107 => ⟨S8192, .i32⟩
  | 108 => ⟨S8192, .i32⟩
  | 109 => ⟨S_, .i32⟩
  | 110 => ⟨S8192, .i32⟩
  | 111 => ⟨S8192, .i1⟩
  | 112 => ⟨S_, .i32⟩
  | 113 => ⟨S8192, .i32⟩
  | 114 => ⟨S8192, .i32⟩
  | 115 => ⟨S8192, .i32⟩
  | 116 => ⟨S8192x1, .i32⟩
  | 117 => ⟨S1, .i32⟩
  | 118 => ⟨S_, .i32⟩
  | 119 => ⟨S8192x1, .i32⟩
  | 120 => ⟨S8192x1, .i1⟩
  | 121 => ⟨S1x1, .i32⟩
  | 122 => ⟨S8192x1, .i32⟩
  | 123 => ⟨S8192x1, .i1⟩
  | 124 => ⟨S8192x1, .i1⟩
  | 125 => ⟨S_, .i1⟩
  | 126 => ⟨S8192, .i1⟩
  | 127 => ⟨S8192x128, .f32⟩
  | _ => ⟨S8192x1024, .f32⟩

abbrev hbmTy0_1 (i : Nat) : BufTy := match i % 128 with
  | 0 => ⟨S8192x128, .i1⟩
  | 1 => ⟨S_, .f32⟩
  | 2 => ⟨S8192x128, .f32⟩
  | 3 => ⟨S8192x128, .f32⟩
  | 4 => ⟨S8192, .f32⟩
  | 5 => ⟨S8192x1, .f32⟩
  | 6 => ⟨S128x1024, .f32⟩
  | 7 => ⟨S1x128, .f32⟩
  | 8 => ⟨S8x8x128, .f32⟩
  | 9 => ⟨S8x1x1, .f32⟩
  | 10 => ⟨S8, .f32⟩
  | 11 => ⟨S_, .f32⟩
  | 12 => ⟨S_, .f32⟩
  | 13 => ⟨S8x1x1, .f32⟩
  | 14 => ⟨S8, .f32⟩
  | 15 => ⟨S_, .f32⟩
  | 16 => ⟨S_, .f32⟩
  | 17 => ⟨S_, .f32⟩
  | 18 => ⟨S_, .f32⟩
  | 19 => ⟨S_, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x1024, .f32⟩
  | .local _ .vmem, ⟨7, _⟩ => ⟨S1024x1024, .f32⟩
  | .local _ .vmem, ⟨8, _⟩ => ⟨S1024x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S128x1024, .f32⟩
  | .local _ .vmem, ⟨13, _⟩ => ⟨S1024x1, .f32⟩
  | .local _ .vmem, ⟨14, _⟩ => ⟨S1024x1, .f32⟩
  | .local _ .vmem, ⟨15, _⟩ => ⟨S1x8x128, .f32⟩
  | .local _ .vmem, ⟨16, _⟩ => ⟨S1x8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_c_0 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_call0_call0_c : Ref sig .tc := ⟨.hbm, 38, rfl⟩
abbrev main_call0_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_v31 : Ref sig .tc := ⟨.hbm, 67, rfl⟩
abbrev main_call2_v0 : Ref sig .tc := ⟨.hbm, 68, rfl⟩
abbrev main_call2_v1_0 : Ref sig .tc := ⟨.hbm, 69, rfl⟩
abbrev main_v32 : Ref sig .tc := ⟨.hbm, 70, rfl⟩
abbrev main_c_5 : Ref sig .tc := ⟨.hbm, 71, rfl⟩
abbrev main_v33 : Ref sig .tc := ⟨.hbm, 72, rfl⟩
abbrev main_call3_call0_c : Ref sig .tc := ⟨.hbm, 73, rfl⟩
abbrev main_call3_call0_v0 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_c_6 : Ref sig .tc := ⟨.hbm, 78, rfl⟩
abbrev main_v37 : Ref sig .tc := ⟨.hbm, 79, rfl⟩
abbrev main_v38 : Ref sig .tc := ⟨.hbm, 80, rfl⟩
abbrev main_c_7 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_c_8 : Ref sig .tc := ⟨.hbm, 88, rfl⟩
abbrev main_c_9 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_v45 : Ref sig .tc := ⟨.hbm, 95, rfl⟩
abbrev main_c_10 : Ref sig .tc := ⟨.hbm, 96, rfl⟩
abbrev main_v46 : Ref sig .tc := ⟨.hbm, 97, rfl⟩
abbrev main_v47 : Ref sig .tc := ⟨.hbm, 98, rfl⟩
abbrev main_c_11 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_c_12 : Ref sig .tc := ⟨.hbm, 105, rfl⟩
abbrev main_call5_v0 : Ref sig .tc := ⟨.hbm, 106, rfl⟩
abbrev main_call5_v1 : Ref sig .tc := ⟨.hbm, 107, rfl⟩
abbrev main_v53 : Ref sig .tc := ⟨.hbm, 108, rfl⟩
abbrev main_call6_c : Ref sig .tc := ⟨.hbm, 109, rfl⟩
abbrev main_call6_v0 : Ref sig .tc := ⟨.hbm, 110, rfl⟩
abbrev main_call6_v1 : Ref sig .tc := ⟨.hbm, 111, rfl⟩
abbrev main_call6_c_0 : Ref sig .tc := ⟨.hbm, 112, rfl⟩
abbrev main_call6_v2 : Ref sig .tc := ⟨.hbm, 113, rfl⟩
abbrev main_call6_v3 : Ref sig .tc := ⟨.hbm, 114, rfl⟩
abbrev main_call6_v4 : Ref sig .tc := ⟨.hbm, 115, rfl⟩
abbrev main_call6_v5 : Ref sig .tc := ⟨.hbm, 116, rfl⟩
abbrev main_call6_c_1 : Ref sig .tc := ⟨.hbm, 117, rfl⟩
abbrev main_call6_c_2 : Ref sig .tc := ⟨.hbm, 118, rfl⟩
abbrev main_call6_v6 : Ref sig .tc := ⟨.hbm, 119, rfl⟩
abbrev main_call6_v7 : Ref sig .tc := ⟨.hbm, 120, rfl⟩
abbrev main_call6_v8 : Ref sig .tc := ⟨.hbm, 121, rfl⟩
abbrev main_call6_v9 : Ref sig .tc := ⟨.hbm, 122, rfl⟩
abbrev main_call6_v10 : Ref sig .tc := ⟨.hbm, 123, rfl⟩
abbrev main_call6_v11 : Ref sig .tc := ⟨.hbm, 124, rfl⟩
abbrev main_call6_c_3 : Ref sig .tc := ⟨.hbm, 125, rfl⟩
abbrev main_call6_v12 : Ref sig .tc := ⟨.hbm, 126, rfl⟩
abbrev main_call6_v13 : Ref sig .tc := ⟨.hbm, 127, rfl⟩
abbrev main_call6_v14 : Ref sig .tc := ⟨.hbm, 128, rfl⟩
abbrev main_call6_cst : Ref sig .tc := ⟨.hbm, 129, rfl⟩
abbrev main_call6_v15 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_cst : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_cst_13 : Ref sig .tc := ⟨.hbm, 143, rfl⟩
abbrev main_v65 : Ref sig .tc := ⟨.hbm, 144, rfl⟩
abbrev main_cst_14 : Ref sig .tc := ⟨.hbm, 145, rfl⟩
abbrev main_v66 : Ref sig .tc := ⟨.hbm, 146, rfl⟩
abbrev main_v67 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S128_S1x128 : S128.ShapeCasts S1x128
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  bcast_S8192_S8192x1_0 : S8192.BroadcastsInDim S8192x1 (![0] : Fin 1 → Fin S8192x1.rank)
  bcast_S80_S1x80_1 : S80.BroadcastsInDim S1x80 (![1] : Fin 1 → Fin S1x80.rank)
  bcast_S8192x1_S8192x80_0_1 : S8192x1.BroadcastsInDim S8192x80 (![0, 1] : Fin 2 → Fin S8192x80.rank)
  bcast_S1x80_S8192x80_0_1 : S1x80.BroadcastsInDim S8192x80 (![0, 1] : Fin 2 → Fin S8192x80.rank)
  natLt_1_32 : 1 < 32
  reducesTo_S8192x80_S80_d0 : S8192x80.ReducesTo [0] S80
  h_S_ : 0 < S_.numel
  bcast_S_S8192 : S_.BroadcastsInDim S8192 (![] : Fin 0 → Fin S8192.rank)
  bcast_S_S_ : S_.BroadcastsInDim S_ (![] : Fin 0 → Fin S_.rank)
  reduceWindows_S8192x80_S8192x80_w8192s1p8191_0_w1s1p0_0 : S8192x80.ReduceWindows (![8192, 1] : Fin 2 → Nat) ![1, 1] ![8191, 0] ![0, 0] S8192x80
  reducesTo_S8192x80_S8192_d1 : S8192x80.ReducesTo [1] S8192
  bcast_S_S1 : S_.BroadcastsInDim S1 (![] : Fin 0 → Fin S1.rank)
  reduceWindows_S80_S80_w80s1p79_0 : S80.ReduceWindows (![80] : Fin 1 → Nat) ![1] ![79] ![0] S80
  slices_S80_S79_0 : S80.Slices ![0] S79
  concatenates_S1_S79_S80_d0 : Shape.Concatenates [S1, S79] S80 0
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x128_0 : S8192.BroadcastsInDim S8192x128 (![0] : Fin 1 → Fin S8192x128.rank)
  bcast_S_S8192x128 : S_.BroadcastsInDim S8192x128 (![] : Fin 0 → Fin S8192x128.rank)
  shapeCasts_S8192_S8192x1 : S8192.ShapeCasts S8192x1
  shapeCasts_S1024x128_S128x1024 : S1024x128.ShapeCasts S128x1024
  shapeCasts_S1024x128_S1024x128 : S1024x128.ShapeCasts S1024x128
  reduces_S1024x128_S1024 : S1024x128.Reduces [1] S1024
  shapeCasts_S1024_S1024x1 : S1024.ShapeCasts S1024x1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  reduces_S1024x1024_S1024 : S1024x1024.Reduces [1] S1024
  broadcasts_S1024x1_S1024x1024 : S1024x1.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1_S1 : S1024x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S8x8x128_S8x1x1_0_0_0 : S8x8x128.Slices ![0, 0, 0] S8x1x1
  shapeCasts_S8x1x1_S8 : S8x1x1.ShapeCasts S8
  reducesTo_S8_S_d0 : S8.ReducesTo [0] S_
  slices_S8x8x128_S8x1x1_0_1_0 : S8x8x128.Slices ![0, 1, 0] S8x1x1
  dot_S1024x1024_S1024x128_S1024x128_1_0_0_1_n_n_wf : DotDims.WF S1024x1024 S1024x128 S1024x128 [1] [0] [0] [1] [] []
  gather_S80_S8192x1_S8192_n_0_n_n_0_1_1_wf : GatherDims.WF S80 S8192x1 S8192 [] [0] [] [0] [] 1 ![1]
  gather_S8192_S8192x1_S8192_n_0_n_n_0_1_1_wf : GatherDims.WF S8192 S8192x1 S8192 [] [0] [] [0] [] 1 ![1]
  gather_S8192x128_S8192x1_S8192x128_1_0_n_n_0_1_1128_wf : GatherDims.WF S8192x128 S8192x1 S8192x128 [1] [0] [] [0] [] 1 ![1, 128]
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1024.size a ≤ S128x1024.size a
  hwx1_4 : ∀ i : grid1.Coords, EltTy.bits .f32 = 32 ∨ (Rect.block (s := S128x1024) S128x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x8x128.size a ≤ S8x8x128.size a
  hwx1_6 : ∀ i : grid1.Coords, EltTy.bits .f32 = 32 ∨ (Rect.block (s := S8x8x128) S1x8x128.size (cc1_transform_6 i) (hinb1_6 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def gather_S80_S8192x1_S8192_n_0_n_n_0_1_1 : GatherDims S80 S8192x1 S8192 where
  offsetDims := []
  collapsedSliceDims := [0]
  operandBatchingDims := []
  startIndicesBatchingDims := []
  startIndexMap := [0]
  indexVectorDim := 1
  sliceSizes := ![1]
  wf := gather_S80_S8192x1_S8192_n_0_n_n_0_1_1_wf
def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def gather_S8192x128_S8192x1_S8192x128_1_0_n_n_0_1_1128 : GatherDims S8192x128 S8192x1 S8192x128 where
  offsetDims := [1]
  collapsedSliceDims := [0]
  operandBatchingDims := []
  startIndicesBatchingDims := []
  startIndexMap := [0]
  indexVectorDim := 1
  sliceSizes := ![1, 128]
  wf := gather_S8192x128_S8192x1_S8192x128_1_0_n_n_0_1_1128_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v57) S128x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S1024x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v59) S1x8x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192 : Shape := ⟨1, ![8192]⟩
abbrev S1024x128 : Shape := ⟨2, ![1024, 128]⟩
abbrev S128 : Shape := ⟨1, ![128]⟩
abbrev S8192x128 : Shape := ⟨2, ![8192, 128]⟩
abbrev S1x128 : Shape := ⟨2, ![1, 128]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S128x1024 : Shape := ⟨2, ![128, 1024]⟩
abbrev S8192x1025 : Shape := ⟨2, ![8192, 1025]⟩

abbrev nBuf : Space → Nat
  | .hbm => 139
  | .vmem => 0
  | .smem => 0
  | _ => 0

abbrev hbmTy0_0 (i : Nat) : BufTy := match i % 128 with
  | 0 => ⟨S8192x1024, .f32⟩
  | 1 => ⟨S8192x1024, .f32⟩
  | 2 => ⟨S8192, .i32⟩
  | 3 => ⟨S8192, .i32⟩
  | 4 => ⟨S1024x128, .f32⟩
  | 5 => ⟨S128, .f32⟩
  | 6 => ⟨S1024x128, .f32⟩
  | 7 => ⟨S128, .f32⟩
  | 8 => ⟨S1024x128, .f32⟩
  | 9 => ⟨S8192x128, .f32⟩
  | 10 => ⟨S1x128, .f32⟩
  | 11 => ⟨S8192x128, .f32⟩
  | 12 => ⟨S8192x128, .f32⟩
  | 13 => ⟨S8192x128, .f32⟩
  | 14 => ⟨S1x128, .f32⟩
  | 15 => ⟨S8192x128, .f32⟩
  | 16 => ⟨S8192x128, .f32⟩
  | 17 => ⟨S8192x1, .i32⟩
  | 18 => ⟨S1x8192, .i32⟩
  | 19 => ⟨S8192x8192, .i32⟩
  | 20 => ⟨S8192x8192, .i32⟩
  | 21 => ⟨S8192x8192, .i1⟩
  | 22 => ⟨S8192x8192, .i32⟩
  | 23 => ⟨S_, .i32⟩
  | 24 => ⟨S8192, .i32⟩
  | 25 => ⟨S_, .i32⟩
  | 26 => ⟨S8192, .i32⟩
  | 27 => ⟨S8192, .i1⟩
  | 28 => ⟨S8192x1, .i32⟩
  | 29 => ⟨S1x8192, .i32⟩
  | 30 => ⟨S8192x8192, .i32⟩
  | 31 => ⟨S8192x8192, .i32⟩
  | 32 => ⟨S8192x8192, .i1⟩
  | 33 => ⟨S8192x8192, .i32⟩
  | 34 => ⟨S8192x8192, .i32⟩
  | 35 => ⟨S_, .i32⟩
  | 36 => ⟨S8192x8192, .i32⟩
  | 37 => ⟨S8192x8192, .i32⟩
  | 38 => ⟨S8192x8192, .i32⟩
  | 39 => ⟨S8192x8192, .i1⟩
  | 40 => ⟨S_, .i32⟩
  | 41 => ⟨S8192x8192, .i32⟩
  | 42 => ⟨S8192x8192, .i32⟩
  | 43 => ⟨S_, .i32⟩
  | 44 => ⟨S8192, .i32⟩
  | 45 => ⟨S_, .i32⟩
  | 46 => ⟨S8192, .i32⟩
  | 47 => ⟨S8192, .i32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S_, .i32⟩
  | 56 => ⟨S8192, .i32⟩
  | 57 => ⟨S8192, .i1⟩
  | 58 => ⟨S_, .i32⟩
  | 59 => ⟨S8192, .i32⟩
  | 60 => ⟨S8192, .i1⟩
  | 61 => ⟨S_, .i32⟩
  | 62 => ⟨S8192, .i32⟩
  | 63 => ⟨S8192, .i1⟩
  | 64 => ⟨S8192, .i1⟩
  | 65 => ⟨S8192, .i1⟩
  | 66 => ⟨S8192, .i32⟩
  | 67 => ⟨S8192, .i32⟩
  | 68 => ⟨S8192x1, .i32⟩
  | 69 => ⟨S1x8192, .i32⟩
  | 70 => ⟨S8192x8192, .i32⟩
  | 71 => ⟨S8192x8192, .i32⟩
  | 72 => ⟨S8192x8192, .i1⟩
  | 73 => ⟨S8192x8192, .i32⟩
  | 74 => ⟨S8192x8192, .i32⟩
  | 75 => ⟨S_, .i32⟩
  | 76 => ⟨S8192x8192, .i32⟩
  | 77 => ⟨S8192x8192, .i32⟩
  | 78 => ⟨S8192x8192, .i32⟩
  | 79 => ⟨S8192x8192, .i1⟩
  | 80 => ⟨S_, .i32⟩
  | 81 => ⟨S8192x8192, .i32⟩
  | 82 => ⟨S8192x8192, .i32⟩
  | 83 => ⟨S_, .i32⟩
  | 84 => ⟨S8192, .i32⟩
  | 85 => ⟨S1x8192, .i32⟩
  | 86 => ⟨S8192x1, .i32⟩
  | 87 => ⟨S8192x8192, .i32⟩
  | 88 => ⟨S8192x8192, .i32⟩
  | 89 => ⟨S8192x8192, .i1⟩
  | 90 => ⟨S8192x8192, .i1⟩
  | 91 => ⟨S8192x8192, .i32⟩
  | 92 => ⟨S_, .i1⟩
  | 93 => ⟨S_, .i32⟩
  | 94 => ⟨S8192, .i1⟩
  | 95 => ⟨S8192, .i32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S8192x128, .f32⟩
  | 105 => ⟨S8192x128, .f32⟩
  | 106 => ⟨S_, .f32⟩
  | 107 => ⟨S8192, .f32⟩
  | 108 => ⟨S8192x1, .f32⟩
  | 109 => ⟨S128x1024, .f32⟩
  | 110 => ⟨S8192x1024, .f32⟩
  | 111 => ⟨S8192x1025, .f32⟩
  | 112 => ⟨S_, .f32⟩
  | 113 => ⟨S8192, .f32⟩
  | 114 => ⟨S_, .f32⟩
  | 115 => ⟨S8192, .f32⟩
  | 116 => ⟨S8192, .f32⟩
  | 117 => ⟨S8192x1, .f32⟩
  | 118 => ⟨S8192x1025, .f32⟩
  | 119 => ⟨S8192x1025, .f32⟩
  | 120 => ⟨S8192x1025, .f32⟩
  | 121 => ⟨S_, .f32⟩
  | 122 => ⟨S8192, .f32⟩
  | 123 => ⟨S8192x1, .f32⟩
  | 124 => ⟨S8192x1, .f32⟩
  | 125 => ⟨S8192x1025, .f32⟩
  | 126 => ⟨S8192x1025, .f32⟩
  | 127 => ⟨S8192x1, .f32⟩
  | _ => ⟨S8192x1024, .f32⟩

abbrev hbmTy0_1 (i : Nat) : BufTy := match i % 128 with
  | 0 => ⟨S8192, .f32⟩
  | 1 => ⟨S8192, .f32⟩
  | 2 => ⟨S8192, .f32⟩
  | 3 => ⟨S8192, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_c_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_0 : Ref sig .tc := ⟨.hbm, 40, rfl⟩
abbrev main_call0_v5 : Ref sig .tc := ⟨.hbm, 41, rfl⟩
abbrev main_v23 : Ref sig .tc := ⟨.hbm, 42, rfl⟩
abbrev main_c_1 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_v26 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_call2_v0 : Ref sig .tc := ⟨.hbm, 74, rfl⟩
abbrev main_call2_c : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_c_0 : Ref sig .tc := ⟨.hbm, 80, rfl⟩
abbrev main_call2_v5 : Ref sig .tc := ⟨.hbm, 81, rfl⟩
abbrev main_v34 : Ref sig .tc := ⟨.hbm, 82, rfl⟩
abbrev main_c_3 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_call3_v0 : Ref sig .tc := ⟨.hbm, 91, rfl⟩
abbrev main_call3_c : Ref sig .tc := ⟨.hbm, 92, rfl⟩
abbrev main_call3_c_0 : Ref sig .tc := ⟨.hbm, 93, rfl⟩
abbrev main_call3_v1_0 : Ref sig .tc := ⟨.hbm, 94, rfl⟩
abbrev main_v42 : Ref sig .tc := ⟨.hbm, 95, rfl⟩
abbrev main_c_4 : Ref sig .tc := ⟨.hbm, 96, rfl⟩
abbrev main_v43 : Ref sig .tc := ⟨.hbm, 97, rfl⟩
abbrev main_v44 : Ref sig .tc := ⟨.hbm, 98, rfl⟩
abbrev main_c_5 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_cst : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_call4_cst : Ref sig .tc := ⟨.hbm, 112, rfl⟩
abbrev main_call4_v0 : Ref sig .tc := ⟨.hbm, 113, rfl⟩
abbrev main_call4_cst_0 : Ref sig .tc := ⟨.hbm, 114, rfl⟩
abbrev main_call4_v1 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_v6 : Ref sig .tc := ⟨.hbm, 120, rfl⟩
abbrev main_call4_cst_1 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_cst_6 : Ref sig .tc := ⟨.hbm, 132, rfl⟩
abbrev main_v62 : Ref sig .tc := ⟨.hbm, 133, rfl⟩
abbrev main_cst_7 : Ref sig .tc := ⟨.hbm, 134, rfl⟩
abbrev main_v63 : Ref sig .tc := ⟨.hbm, 135, rfl⟩
abbrev main_cst_8 : Ref sig .tc := ⟨.hbm, 136, rfl⟩
abbrev main_v64 : Ref sig .tc := ⟨.hbm, 137, rfl⟩
abbrev main_v65 : Ref sig .tc := ⟨.hbm, 138, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  natLt_1_32 : 1 < 32
  reducesTo_S8192x8192_S8192_d1 : S8192x8192.ReducesTo [1] S8192
  h_S_ : 0 < S_.numel
  bcast_S_S8192 : S_.BroadcastsInDim S8192 (![] : Fin 0 → Fin S8192.rank)
  bcast_S_S8192x8192 : S_.BroadcastsInDim S8192x8192 (![] : Fin 0 → Fin S8192x8192.rank)
  reducesTo_S8192x128_S8192_d1 : S8192x128.ReducesTo [1] S8192
  shapeCasts_S1024x128_S128x1024 : S1024x128.ShapeCasts S128x1024
  concatenates_S8192x1_S8192x1024_S8192x1025_d1 : Shape.Concatenates [S8192x1, S8192x1024] S8192x1025 1
  reducesTo_S8192x1025_S8192_d1 : S8192x1025.ReducesTo [1] S8192
  bcast_S8192x1_S8192x1025_0_1 : S8192x1.BroadcastsInDim S8192x1025 (![0, 1] : Fin 2 → Fin S8192x1025.rank)
  slices_S8192x1025_S8192x1_0_0 : S8192x1025.Slices ![0, 0] S8192x1
  shapeCasts_S8192x1_S8192 : S8192x1.ShapeCasts S8192
  reducesTo_S8192_S_d0 : S8192.ReducesTo [0] S_
  dot_S8192x1024_S1024x128_S8192x128_1_0_0_1_n_n_wf : DotDims.WF S8192x1024 S1024x128 S8192x128 [1] [0] [0] [1] [] []
  gather_S8192x128_S8192x1_S8192x128_1_0_n_n_0_1_1128_wf : GatherDims.WF S8192x128 S8192x1 S8192x128 [1] [0] [] [0] [] 1 ![1, 128]
  dot_S8192x128_S128x1024_S8192x1024_1_0_0_1_n_n_wf : DotDims.WF S8192x128 S128x1024 S8192x1024 [1] [0] [0] [1] [] []

variable [Facts₀]

def dot_S8192x1024_S1024x128_S8192x128_1_0_0_1_n_n : DotDims S8192x1024 S1024x128 S8192x128 where
  lhsContracting := [1]
  rhsContracting := [0]
  lhsNonContracting := [0]
  rhsNonContracting := [1]
  lhsBatch := []
  rhsBatch := []
  wf := dot_S8192x1024_S1024x128_S8192x128_1_0_0_1_n_n_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S8192x128_S8192x1_S8192x128_1_0_n_n_0_1_1128 : GatherDims S8192x128 S8192x1 S8192x128 where
  offsetDims := [1]
  collapsedSliceDims := [0]
  operandBatchingDims := []
  startIndicesBatchingDims := []
  startIndexMap := [0]
  indexVectorDim := 1
  sliceSizes := ![1, 128]
  wf := gather_S8192x128_S8192x1_S8192x128_1_0_n_n_0_1_1128_wf
def dot_S8192x128_S128x1024_S8192x1024_1_0_0_1_n_n : DotDims S8192x128 S128x1024 S8192x1024 where
  lhsContracting := [1]
  rhsContracting := [0]
  lhsNonContracting := [0]
  rhsNonContracting := [1]
  lhsBatch := []
  rhsBatch := []
  wf := dot_S8192x128_S128x1024_S8192x1024_1_0_0_1_n_n_wf

class Facts : Prop extends Facts₀ where

variable [Facts]
-- ==== Proof.KTerms.lean ====
/-
  The host arithmetic of the kernel's @main, written as pure functions of the argument arrays: one definition per
  intermediate array that matters (the class histogram, the per-row count, the validity bit, the rank among equal
  weak labels, the selection offset, the stable argsort, the class starts, the picked strong row), then the row
  gather with its out-of-range fill, and the closing scalar arithmetic on the per-tile partial sums.
  `a2` is the strong-label array, `a3` the weak-label array.
-/
import proofs.«427062_j43121471652524_2_alg».proof.KernelIdeal

noncomputable section

namespace Cert.KernelIdeal.T

open Idealize.ShloMosaic Cert.KernelIdeal

variable {F : FTy → Type} [FloatOps F] [Facts]
open Facts₀ Facts

/-- a rank-0 i32 constant broadcast along the rows -/
def splat (v : BitVec 32) : IVec S8192 32 := broadcastInDim S8192 ![] bcast_S_S8192 (constantI S_ 32 v)

/-- one-hot of a label array against the classes 0..79, as i32 -/
def oneHot (a : IVec S8192 32) : IVec S8192x80 32 :=
  extui 32 (cmpi .eq
    (broadcastInDim S8192x80 ![0, 1] bcast_S8192x1_S8192x80_0_1 (broadcastInDim S8192x1 ![0] bcast_S8192_S8192x1_0 a))
    (broadcastInDim S8192x80 ![0, 1] bcast_S1x80_S8192x80_0_1 (broadcastInDim S1x80 ![1] bcast_S80_S1x80_1 (iotaInDim S80 32 0))))
    natLt_1_32

/-- the strong labels' class histogram -/
def hist (a2 : IVec S8192 32) : IVec S80 32 :=
  Host.reduce IntOp.addi (oneHot a2) (constantI S_ 32 0#32) reducesTo_S8192x80_S80_d0 h_S_

/-- a negative label wrapped by 80 (the index normalisation in front of a gather from an 80-table) -/
def wrap80 (a3 : IVec S8192 32) : IVec S8192 32 :=
  select (cmpi .slt a3 (splat 0#32)) (addi a3 (splat 80#32)) a3

/-- a table of 80 words read at the (wrapped) weak label of every row -/
def at80 (tbl : IVec S80 32) (a3 : IVec S8192 32) : IVec S8192 32 :=
  Host.gather gather_S80_S8192x1_S8192_n_0_n_n_0_1_1 tbl (broadcastInDim S8192x1 ![0] bcast_S8192_S8192x1_0 (wrap80 a3))

/-- per weak row: how many strong rows carry its label -/
def cnt (a2 a3 : IVec S8192 32) : IVec S8192 32 := at80 (hist a2) a3

def valid (a2 a3 : IVec S8192 32) : IVec S8192 1 := cmpi .sgt (cnt a2 a3) (splat 0#32)

/-- inclusive running sum of the weak one-hot down the rows -/
def cumW (a3 : IVec S8192 32) : IVec S8192x80 32 :=
  Host.reduceWindow IntOp.addi ![8192, 1] ![1, 1] ![8191, 0] ![0, 0] (oneHot a3)
    (broadcastInDim S_ ![] bcast_S_S_ (constantI S_ 32 0#32)) reduceWindows_S8192x80_S8192x80_w8192s1p8191_0_w1s1p0_0 h_S_

/-- per weak row: how many earlier weak rows carry its label -/
def rank (a3 : IVec S8192 32) : IVec S8192 32 :=
  Host.reduce IntOp.addi (muli (oneHot a3) (subi (cumW a3) (oneHot a3))) (constantI S_ 32 0#32) reducesTo_S8192x80_S8192_d1 h_S_

/-- jnp's integer remainder (the sign of the divisor), as the outlined function computes it -/
def remainder (x y : IVec S8192 32) : IVec S8192 32 :=
  let d : IVec S8192 32 := select (cmpi .eq y (splat 0#32)) (splat 1#32) y
  let r : IVec S8192 32 := Host.remsi x d
  select (andi (cmpi .ne (cmpi .slt r (splat 0#32)) (cmpi .slt d (splat 0#32))) (cmpi .ne r (splat 0#32))) (addi r d) r

def sel (a2 a3 : IVec S8192 32) : IVec S8192 32 := remainder (rank a3) (maxsi (cnt a2 a3) (splat 1#32))

/-- the stable argsort of the strong labels -/
def sorted (a2 : IVec S8192 32) : IVec S8192 32 := (Host.sort2 S8192 0 comparator_i32_i32_d0 a2 (iotaInDim S8192 32 0)).2

/-- inclusive running sum of the histogram -/
def cumH (a2 : IVec S8192 32) : IVec S80 32 :=
  Host.reduceWindow IntOp.addi ![80] ![1] ![79] ![0] (hist a2)
    (broadcastInDim S_ ![] bcast_S_S_ (constantI S_ 32 0#32)) reduceWindows_S80_S80_w80s1p79_0 h_S_

/-- the exclusive running sum: where each class starts in sorted order -/
def start (a2 : IVec S8192 32) : IVec S80 32 :=
  concatenate S80 0 [⟨S1, (broadcastInDim S1 ![] bcast_S_S1 (constantI S_ 32 0#32) : IVec S1 32)⟩,
    ⟨S79, (extractStridedSlice S79 ![0] (cumH a2) slices_S80_S79_0 : IVec S79 32)⟩] concatenates_S1_S79_S80_d0

def pos (a2 a3 : IVec S8192 32) : IVec S8192 32 := addi (at80 (start a2) a3) (sel a2 a3)

def clipPos (a2 a3 : IVec S8192 32) : IVec S8192 32 := minsi (splat 8191#32) (maxsi (splat 0#32) (pos a2 a3))

def wrapPos (a2 a3 : IVec S8192 32) : IVec S8192 32 :=
  select (cmpi .slt (clipPos a2 a3) (splat 0#32)) (addi (clipPos a2 a3) (splat 8192#32)) (clipPos a2 a3)

def picked (a2 a3 : IVec S8192 32) : IVec S8192 32 :=
  Host.gather gather_S8192_S8192x1_S8192_n_0_n_n_0_1_1 (sorted a2) (broadcastInDim S8192x1 ![0] bcast_S8192_S8192x1_0 (wrapPos a2 a3))

/-- the strong row each weak row is paired with (0 where no strong row carries its label) -/
def idx (a2 a3 : IVec S8192 32) : IVec S8192 32 := select (valid a2 a3) (picked a2 a3) (splat 0#32)

/-- rows of `k` taken at `ix`, with the out-of-range fill of jnp.take -/
def take (k : FVec F S8192x128 .f32) (ix : IVec S8192 32) : FVec F S8192x128 .f32 :=
  let w : IVec S8192 32 := select (cmpi .slt ix (splat 0#32)) (addi ix (splat 8192#32)) ix
  let w2 : IVec S8192x1 32 := broadcastInDim S8192x1 ![0] bcast_S8192_S8192x1_0 w
  let ge : IVec S8192x1 1 := cmpi .sge w2 (broadcastInDim S8192x1 ![] bcast_S_S8192x1 (constantI S_ 32 0#32))
  let le : IVec S8192x1 1 := cmpi .sle w2 (broadcastInDim S8192x1 ![0, 1] bcast_S1x1_S8192x1_0_1 (broadcastInDim S1x1 ![1] bcast_S1_S1x1_1 (constantI S1 32 8191#32)))
  let ok : IVec S8192 1 := Host.reduce IntOp.andi (andi ge le) (constantI S_ 1 1#1) reducesTo_S8192x1_S8192_d1 h_S_
  select (broadcastInDim S8192x128 ![0] bcast_S8192_S8192x128_0 ok)
    (Host.gather gather_S8192x128_S8192x1_S8192x128_1_0_n_n_0_1_1128 k w2)
    (broadcastInDim S8192x128 ![] bcast_S_S8192x128 (constant S_ .f32 0x7FC00000#32))

/-- the validity bit as a float column -/
def validF (a2 a3 : IVec S8192 32) : FVec F S8192x1 .f32 :=
  shapeCast S8192x1 (uitofp .f32 (valid a2 a3) : FVec F S8192 .f32) shapeCasts_S8192_S8192x1

def queueR (q : FVec F S1024x128 .f32) : FVec F S128x1024 .f32 := shapeCast S128x1024 q shapeCasts_S1024x128_S128x1024

def row128 (b : FVec F S128 .f32) : FVec F S1x128 .f32 := shapeCast S1x128 b shapeCasts_S128_S1x128

/-- the closing arithmetic on the per-tile partial sums `o` ([tile, 0, 0] the weighted losses, [tile, 1, 0] the counts) -/
def tail (o : FVec F S8x8x128 .f32) : FVec F S_ .f32 :=
  let ce : FVec F S_ .f32 := Host.reduceAdd (shapeCast S8 (extractStridedSlice S8x1x1 ![0, 0, 0] o slices_S8x8x128_S8x1x1_0_0_0 : FVec F S8x1x1 .f32) shapeCasts_S8x1x1_S8 : FVec F S8 .f32)
    (constant S_ .f32 0x00000000#32) reducesTo_S8_S_d0 h_S_
  let nv : FVec F S_ .f32 := Host.reduceAdd (shapeCast S8 (extractStridedSlice S8x1x1 ![0, 1, 0] o slices_S8x8x128_S8x1x1_0_1_0 : FVec F S8x1x1 .f32) shapeCasts_S8x1x1_S8 : FVec F S8 .f32)
    (constant S_ .f32 0x00000000#32) reducesTo_S8_S_d0 h_S_
  Host.divf ce (maximumf nv (constant S_ .f32 0x3F800000#32))

end Cert.KernelIdeal.T

end
-- ==== Proof.Spec.lean ====
/-
  The mathematics both programs compute, stated once over plain index types.

  Labels. For strong labels `s` and weak labels `w` (as naturals): `cnt s w i` is the number of strong rows carrying weak
  row i's label; `before a i` the number of earlier rows of `a` carrying row i's label; `sel` the selection offset
  `before w i mod max (cnt) 1`; strong row j is a HIT for weak row i when it carries i's label and is the `sel`-th of that
  label. `IsPick s w i r` says r is the first hit of row i, or 0 when row i has none.

  Floats, on the extended reals. `encE` is the linear encoder x·W + b; `lpE` and `lnE` the positive logit and the negative
  logits against the re-laid queue; `rowK` and `rowR` the two arrangements of the cross-entropy of target 0 over the
  1 + 1024 logits (max + log-sum-exp − positive, against −(shifted positive − log-sum-exp of the shifted logits));
  `totalK` and `totalR` the mean over the valid rows, summed tile by tile or all at once.
-/
import Idealize.ShloMosaic.PureOps.Ideal
import Idealize.ShloMosaic.Lib.ValueIdx

noncomputable section

namespace Cert.Spec

open Finset Idealize.ShloMosaic

/-! ## Labels -/

section Labels
variable (s w : Fin 8192 → ℕ)

/-- how many strong rows carry weak row `i`'s label -/
def cnt (i : Fin 8192) : ℕ := (univ.filter fun j : Fin 8192 => s j = w i).card

/-- how many earlier rows of `a` carry row `i`'s label -/
def before (a : Fin 8192 → ℕ) (i : Fin 8192) : ℕ := (univ.filter fun i' : Fin 8192 => i' < i ∧ a i' = a i).card

/-- the selection offset of weak row `i` -/
def sel (i : Fin 8192) : ℕ := before w i % max (cnt s w i) 1

/-- strong row `j` carries weak row `i`'s label and is the `sel`-th row of that label -/
def Hit (i j : Fin 8192) : Prop := s j = w i ∧ before s j = sel s w i

/-- `r` is the first hit of weak row `i`, or 0 when it has none -/
def IsPick (i : Fin 8192) (r : ℕ) : Prop :=
  (∃ j : Fin 8192, j.val = r ∧ Hit s w i j ∧ ∀ j', Hit s w i j' → j ≤ j') ∨ ((∀ j, ¬ Hit s w i j) ∧ r = 0)

end Labels

/-! ## Floats -/

/-- a validity bit as a number -/
def vf (b : Bool) : EReal := if b then 1 else 0

/-- the word 1.0, kept unevaluated (it appears on both sides) -/
def one : EReal := Ideal.ofBits .f32 0x3F800000#32

def encE (X : Fin 8192 → Fin 1024 → EReal) (W : Fin 1024 → Fin 128 → EReal) (b : Fin 128 → EReal)
    (i : Fin 8192) (e : Fin 128) : EReal := (∑ k, X i k * W k e) + b e

/-- the queue [1024, 128] re-laid row-major as [128, 1024] -/
def relay (queue : Fin 1024 → Fin 128 → EReal) (e : Fin 128) (n : Fin 1024) : EReal :=
  queue ⟨(e.val * 1024 + n.val) / 128, by have := e.isLt; have := n.isLt; omega⟩
        ⟨(e.val * 1024 + n.val) % 128, Nat.mod_lt _ (by decide)⟩

def lpE (q kg : Fin 128 → EReal) : EReal := ∑ e, q e * kg e

def lnE (q : Fin 128 → EReal) (Qr : Fin 128 → Fin 1024 → EReal) (n : Fin 1024) : EReal := ∑ e, q e * Qr e n

/-- the row loss as the kernel arranges it -/
def rowK (p : EReal) (g : Fin 1024 → EReal) : EReal :=
  (max p (univ.sup g) + Ideal.log (Ideal.exp (p - max p (univ.sup g)) + ∑ n, Ideal.exp (g n - max p (univ.sup g)))) - p

/-- the row loss as the reference arranges it, over the concatenated logits -/
def rowR (p : EReal) (g : Fin 1024 → EReal) : EReal :=
  -((p - univ.sup (Fin.cons p g : Fin 1025 → EReal))
      - Ideal.log (∑ k : Fin 1025, Ideal.exp ((Fin.cons p g : Fin 1025 → EReal) k - univ.sup (Fin.cons p g : Fin 1025 → EReal))))

/-- row `r` of tile `t` -/
def tileRow (t : Fin 8) (r : Fin 1024) : Fin 8192 := ⟨t.val * 1024 + r.val, by have := t.isLt; have := r.isLt; omega⟩

def totalK (ce : Fin 8192 → EReal) (v : Fin 8192 → Bool) : EReal :=
  Ideal.div (∑ t : Fin 8, ∑ r : Fin 1024, ce (tileRow t r) * vf (v (tileRow t r)))
    (max (∑ t : Fin 8, ∑ r : Fin 1024, vf (v (tileRow t r))) one)

def totalR (ce : Fin 8192 → EReal) (v : Fin 8192 → Bool) : EReal :=
  Ideal.div (∑ i, ce i * vf (v i)) (max (∑ i, vf (v i)) one)

/-- an extended real that is a real -/
def Fin' (x : EReal) : Prop := x ≠ ⊤ ∧ x ≠ ⊥

end Cert.Spec

end
-- ==== Proof.Comb.lean ====
/-
  Counting facts about labelled rows.

  For labels `s` on the rows `Fin 8192`, the rows carrying label `c` fill, in order of row number, the slots
  `[smaller s c, smaller s c + #{j | s j = c})` of the stable sorted order. From this: the slot
  `smaller s (w i) + sel s w i` holds the first (indeed the only) hit of weak row `i` whenever its label occurs.
-/
import proofs.«427062_j43121471652524_2_alg».proof.Proof.Spec
import Mathlib.Data.Finset.Card
import Mathlib.Data.Finset.Basic
import Mathlib.Data.Finset.Filter
import Mathlib.Data.Fintype.Card
import Mathlib.Order.Basic

namespace Cert.Spec

open Finset

/-- how many rows carry a label smaller than `c` -/
def smaller (s : Fin 8192 → ℕ) (c : ℕ) : ℕ := (univ.filter fun j : Fin 8192 => s j < c).card

/-- how many rows carry the label `c` -/
private def same (s : Fin 8192 → ℕ) (c : ℕ) : ℕ := (univ.filter fun j : Fin 8192 => s j = c).card

private theorem cnt_eq_same (s w : Fin 8192 → ℕ) (i : Fin 8192) : cnt s w i = same s (w i) := rfl

/-- a row has fewer earlier rows of its label than there are rows of its label (it is one of them itself) -/
private theorem before_lt_same (s : Fin 8192 → ℕ) (j : Fin 8192) : before s j < same s (s j) := by
  unfold before same
  apply Finset.card_lt_card
  rw [Finset.ssubset_iff_of_subset]
  · refine ⟨j, ?_, ?_⟩
    · simp
    · simp
  · intro x hx
    simp only [Finset.mem_filter, Finset.mem_univ, true_and] at hx ⊢
    exact hx.2

/-- the rows with label below `a` and those with label `a` are disjoint sets of rows -/
private theorem disjoint_lt_eq (s : Fin 8192 → ℕ) (a : ℕ) :
    Disjoint (univ.filter fun j : Fin 8192 => s j < a) (univ.filter fun j : Fin 8192 => s j = a) := by
  rw [Finset.disjoint_filter]
  intro x _ h1 h2
  omega

/-- for `a < b`, the rows with label below `a` and the rows with label `a` all have label below `b` -/
private theorem smaller_add_same_le (s : Fin 8192 → ℕ) {a b : ℕ} (hab : a < b) :
    smaller s a + same s a ≤ smaller s b := by
  unfold smaller same
  rw [← Finset.card_union_of_disjoint (disjoint_lt_eq s a)]
  apply Finset.card_le_card
  intro x hx
  simp only [Finset.mem_union, Finset.mem_filter, Finset.mem_univ, true_and] at hx ⊢
  omega

/-- the rows with label below `c` and the rows with label `c` are at most all the rows -/
private theorem smaller_add_same_le_card (s : Fin 8192 → ℕ) (c : ℕ) : smaller s c + same s c ≤ 8192 := by
  unfold smaller same
  rw [← Finset.card_union_of_disjoint (disjoint_lt_eq s c)]
  calc _ ≤ (univ : Finset (Fin 8192)).card := Finset.card_le_card (Finset.subset_univ _)
    _ = 8192 := by rw [Finset.card_univ, Fintype.card_fin]

/-- the first hit is determined: two first hits bound each other -/
theorem IsPick.unique {s w : Fin 8192 → ℕ} {i : Fin 8192} {r r' : ℕ}
    (h : IsPick s w i r) (h' : IsPick s w i r') : r = r' := by
  rcases h with ⟨j, hj, hit, hmin⟩ | ⟨hno, h0⟩
  · rcases h' with ⟨j', hj', hit', hmin'⟩ | ⟨hno', _⟩
    · have h1 : j ≤ j' := hmin j' hit'
      have h2 : j' ≤ j := hmin' j hit
      have : j = j' := le_antisymm h1 h2
      rw [← hj, ← hj', this]
    · exact absurd hit (hno' j)
  · rcases h' with ⟨j', _, hit', _⟩ | ⟨_, h0'⟩
    · exact absurd hit' (hno j')
    · rw [h0, h0']

/-- a pick is a row number -/
theorem IsPick.lt {s w : Fin 8192 → ℕ} {i : Fin 8192} {r : ℕ} (h : IsPick s w i r) : r < 8192 := by
  rcases h with ⟨j, hj, _, _⟩ | ⟨_, h0⟩
  · rw [← hj]; exact j.isLt
  · rw [h0]; exact Nat.succ_pos _

/-- when no row carries the label there is no hit, and the pick is 0 -/
theorem isPick_zero_of_cnt_eq_zero {s w : Fin 8192 → ℕ} {i : Fin 8192} (h : cnt s w i = 0) :
    IsPick s w i 0 := by
  right
  refine ⟨?_, rfl⟩
  intro j hj
  have hmem : j ∈ univ.filter fun j : Fin 8192 => s j = w i := by
    simp only [Finset.mem_filter, Finset.mem_univ, true_and]
    exact hj.1
  have hempty : (univ.filter fun j : Fin 8192 => s j = w i) = ∅ := Finset.card_eq_zero.mp h
  rw [hempty] at hmem
  exact absurd hmem (Finset.notMem_empty j)

/-- the selection offset is below the count when the label occurs -/
theorem sel_lt_cnt {s w : Fin 8192 → ℕ} {i : Fin 8192} (h : 0 < cnt s w i) : sel s w i < cnt s w i := by
  unfold sel
  have hmax : max (cnt s w i) 1 = cnt s w i := max_eq_left h
  rw [hmax]
  exact Nat.mod_lt _ h

/-- the selected slot is a slot -/
theorem smaller_add_sel_lt {s w : Fin 8192 → ℕ} {i : Fin 8192} (h : 0 < cnt s w i) :
    smaller s (w i) + sel s w i < 8192 := by
  have h1 := sel_lt_cnt h
  have h2 := smaller_add_same_le_card s (w i)
  rw [cnt_eq_same] at h1
  omega

/-- in the stable sorted order `σ`, the slot `smaller s (w i) + sel s w i` holds the first hit of weak row `i` -/
theorem isPick_of_sorted {s w : Fin 8192 → ℕ} (σ : Fin 8192 → Fin 8192)
    (hσ : ∀ p j : Fin 8192, σ p = j ↔ p.val = smaller s (s j) + before s j)
    (i : Fin 8192) (h : 0 < cnt s w i) (p : Fin 8192) (hp : p.val = smaller s (w i) + sel s w i) :
    IsPick s w i (σ p).val := by
  -- the slot of the row found at p
  have hj : p.val = smaller s (s (σ p)) + before s (σ p) := (hσ p (σ p)).1 rfl
  have hsel : sel s w i < same s (w i) := by
    have := sel_lt_cnt h
    rwa [cnt_eq_same] at this
  have hbl : before s (σ p) < same s (s (σ p)) := before_lt_same s (σ p)
  -- its label is the label of row i: a smaller label sits in a lower slot, a larger label in a higher one
  have hlab : s (σ p) = w i := by
    rcases Nat.lt_trichotomy (s (σ p)) (w i) with hlt | heq | hgt
    · have := smaller_add_same_le s hlt
      omega
    · exact heq
    · have := smaller_add_same_le s hgt
      omega
  have hbef : before s (σ p) = sel s w i := by
    rw [hlab] at hj
    omega
  left
  refine ⟨σ p, rfl, ⟨hlab, hbef⟩, ?_⟩
  -- any hit has the same slot, hence is the same row
  intro j' hj'
  have hslot : p.val = smaller s (s j') + before s j' := by
    rw [hj'.1, hj'.2]
    exact hp
  have : σ p = j' := (hσ p j').2 hslot
  rw [this]

end Cert.Spec
-- ==== Proof.KReadEnds.lean ====
/-
  What the boundary contents hold at four buffers: after the first stretch of host operations the reshaped bias row
  and two untouched arguments, and after the last stretch the result scalar as the closing arithmetic of the
  per-tile partial sums left by the second region.
-/
import proofs.«427062_j43121471652524_2_alg».proof.Proof.Gen.KernelIdeal.Frame
import proofs.«427062_j43121471652524_2_alg».proof.Proof.KTerms

noncomputable section

namespace Cert.KernelIdeal.KRead

open Idealize.ShloMosaic Idealize.ShloMosaic.TcCoe
open Cert.KernelIdeal Cert.KernelIdeal.Gen

variable {F : FTy → Type} [FloatOps F] [Cert.KernelIdeal.Facts]

variable (m : (ℓ : Loc nD τ sig) → Buf (Elt F) ℓ) (ρ : Dev nD → PrngReg)

/-- After the first stretch the row buffer holds the bias argument reshaped to one row. -/
theorem W1_v0 (c : Dev nD) : Gen.W1 m ρ c (Proc.devRef .tc main_v0) = T.row128 (m ((c : Thread nD τ).loc main_arg7)) := by
  dsimp only [Gen.W1]
  simp only [Gen.hostOps0]
  after_results
  rfl

/-- The first stretch writes only the row buffer: the first argument is as launched. -/
theorem W1_arg0 (c : Dev nD) : Gen.W1 m ρ c (Proc.devRef .tc main_arg0) = m ((c : Thread nD τ).loc main_arg0) := by
  dsimp only [Gen.W1]
  simp only [Gen.hostOps0]
  after_results

/-- The first stretch writes only the row buffer: the seventh argument is as launched. -/
theorem W1_arg6 (c : Dev nD) : Gen.W1 m ρ c (Proc.devRef .tc main_arg6) = m ((c : Thread nD τ).loc main_arg6) := by
  dsimp only [Gen.W1]
  simp only [Gen.hostOps0]
  after_results

/-- After the last stretch the result scalar is the closing arithmetic of the partial sums the second region left. -/
theorem W17_v67 (c : Dev nD) : Gen.W17 m ρ c (Proc.devRef .tc main_v67) = T.tail (Gen.W16 m ρ c (Proc.devRef .tc main_v59)) := by
  dsimp only [Gen.W17]
  simp only [Gen.hostOps2]
  after_results
  rfl

end Cert.KernelIdeal.KRead

end
-- ==== Proof.KReadMid.lean ====
/-
  What the second region finds in its arrays. Between the two regions the kernel's @main runs thirteen stretches of host
  operations on the label arrays: the class histogram of the strong labels and each weak row's count in it, the rank of a
  weak row among the earlier rows of its label, that rank modulo the count, the stable argsort of the strong labels and
  the class starts in it, the position picked there (clipped, wrapped, and zero where no strong row carries the label),
  and the gather of the first region's output rows at those positions. Each stretch is read once, over any contents on
  entry and any values of the buffers it reads; the contents at the stretch boundaries then follow one boundary at a
  time, a buffer no operation of a stretch writes being carried across it unchanged.
-/
import proofs.«427062_j43121471652524_2_alg».proof.Proof.Gen.KernelIdeal.Frame
import proofs.«427062_j43121471652524_2_alg».proof.Proof.KTerms

set_option maxRecDepth 16384

noncomputable section

namespace Cert.KernelIdeal.KRead

open Idealize.ShloMosaic Idealize.ShloMosaic.TcCoe
open Idealize.SL.Sem
open Cert.KernelIdeal Cert.KernelIdeal.Gen

variable {F : FTy → Type} [FloatOps F] [Facts]

/-- A buffer that no operation of a stretch writes holds after the stretch what it held before it. -/
local macro "keep_at " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- The same across several stretches, the latest first. -/
local syntax "keep_thru " "[" ident,* "]" : tactic
macro_rules
  | `(tactic| keep_thru []) => `(tactic| skip)
  | `(tactic| keep_thru [$o:ident]) => `(tactic| refine Eq.trans (by keep_at $o) ?_)
  | `(tactic| keep_thru [$o:ident, $os:ident,*]) => `(tactic| (refine Eq.trans (by keep_at $o) ?_; keep_thru [$os,*]))

/-- A stretch's operations read at one buffer: each operation's result at its own buffer is its function of its
    operands' contents, and a callee's typed references are the buffers themselves. -/
local macro "read_ops " ops:ident : tactic =>
  `(tactic| (simp only [$ops:ident]
             after_results_simp
             try dsimp only [StableHlo.TRef.ofBuf, StableHlo.TRef.toBuf]
             try simp only [cast_eq]))

/-! ## The stretches, one at a time, over any contents `V` on entry and any values of the buffers they read -/

section Stretches

variable (V : Valuation τ sig (Elt F))

theorem ops1_v8 (x3 : IVec S8192 32) (h3 : V (Proc.devRef .tc main_arg3) = x3) :
    StableHlo.after hostOps1 V (Proc.devRef .tc main_v8) = T.oneHot x3 := by
  read_ops hostOps1
  rw [h3]
  rfl

theorem ops1_v15 (x2 : IVec S8192 32) (h2 : V (Proc.devRef .tc main_arg2) = x2) :
    StableHlo.after hostOps1 V (Proc.devRef .tc main_v15) = T.hist x2 := by
  read_ops hostOps1
  rw [h2]
  rfl

theorem ops1_v22 (x2 x3 : IVec S8192 32) (h2 : V (Proc.devRef .tc main_arg2) = x2) (h3 : V (Proc.devRef .tc main_arg3) = x3) :
    StableHlo.after hostOps1 V (Proc.devRef .tc main_v22) = T.cnt x2 x3 := by
  read_ops hostOps1
  rw [h2, h3]
  rfl

theorem ops1_v24 (x2 x3 : IVec S8192 32) (h2 : V (Proc.devRef .tc main_arg2) = x2) (h3 : V (Proc.devRef .tc main_arg3) = x3) :
    StableHlo.after hostOps1 V (Proc.devRef .tc main_v24) = T.valid x2 x3 := by
  read_ops hostOps1
  rw [h2, h3]
  rfl

/-- The running sum down the rows of a one-hot `o`. -/
theorem ops1_1_v25 (o : IVec S8192x80 32) (h8 : V (Proc.devRef .tc main_v8) = o) :
    StableHlo.after hostOps1_1 V (Proc.devRef .tc main_v25)
      = Host.reduceWindow IntOp.addi ![8192, 1] ![1, 1] ![8191, 0] ![0, 0] o
          (broadcastInDim S_ ![] bcast_S_S_ (constantI S_ 32 0#32)) reduceWindows_S8192x80_S8192x80_w8192s1p8191_0_w1s1p0_0 h_S_ := by
  read_ops hostOps1_1
  rw [h8]

/-- The row sums of a one-hot `o` times its running sum over the strictly earlier rows (`w` the inclusive one). -/
theorem ops1_2_v28 (o w : IVec S8192x80 32) (h8 : V (Proc.devRef .tc main_v8) = o) (h25 : V (Proc.devRef .tc main_v25) = w) :
    StableHlo.after hostOps1_2 V (Proc.devRef .tc main_v28)
      = Host.reduce IntOp.addi (muli o (subi w o)) (constantI S_ 32 0#32) reducesTo_S8192x80_S8192_d1 h_S_ := by
  read_ops hostOps1_2
  rw [h8, h25]

theorem ops1_2_v30 (n : IVec S8192 32) (h22 : V (Proc.devRef .tc main_v22) = n) :
    StableHlo.after hostOps1_2 V (Proc.devRef .tc main_v30) = maxsi n (T.splat 1#32) := by
  read_ops hostOps1_2
  rw [h22]
  rfl

theorem ops1_3_v31 (x y : IVec S8192 32) (hx : V (Proc.devRef .tc main_v28) = x) (hy : V (Proc.devRef .tc main_v30) = y) :
    StableHlo.after hostOps1_3 V (Proc.devRef .tc main_v31) = T.remainder x y := by
  read_ops hostOps1_3
  rw [hx, hy]
  rfl

theorem ops1_4_v32 (x2 : IVec S8192 32) (h2 : V (Proc.devRef .tc main_arg2) = x2) :
    StableHlo.after hostOps1_4 V (Proc.devRef .tc main_v32) = T.sorted x2 := by
  read_ops hostOps1_4
  rw [h2]
  rfl

theorem ops1_5_v33 :
    StableHlo.after hostOps1_5 V (Proc.devRef .tc main_v33) = (broadcastInDim S1 ![] bcast_S_S1 (constantI S_ 32 0#32) : IVec S1 32) := by
  read_ops hostOps1_5

/-- The running sum of a histogram `h`. -/
theorem ops1_6_v34 (h : IVec S80 32) (h15 : V (Proc.devRef .tc main_v15) = h) :
    StableHlo.after hostOps1_6 V (Proc.devRef .tc main_v34)
      = Host.reduceWindow IntOp.addi ![80] ![1] ![79] ![0] h
          (broadcastInDim S_ ![] bcast_S_S_ (constantI S_ 32 0#32)) reduceWindows_S80_S80_w80s1p79_0 h_S_ := by
  read_ops hostOps1_6
  rw [h15]

/-- The class start (a zero in front of the running sum `ch` less its last entry) read at the wrapped weak label,
    plus the offset `s`. -/
theorem ops1_7_v44 (ch : IVec S80 32) (x3 s : IVec S8192 32) (h34 : V (Proc.devRef .tc main_v34) = ch)
    (h33 : V (Proc.devRef .tc main_v33) = (broadcastInDim S1 ![] bcast_S_S1 (constantI S_ 32 0#32) : IVec S1 32))
    (h3 : V (Proc.devRef .tc main_arg3) = x3) (h31 : V (Proc.devRef .tc main_v31) = s) :
    StableHlo.after hostOps1_7 V (Proc.devRef .tc main_v44)
      = addi (T.at80 (concatenate S80 0 [⟨S1, (broadcastInDim S1 ![] bcast_S_S1 (constantI S_ 32 0#32) : IVec S1 32)⟩,
          ⟨S79, (extractStridedSlice S79 ![0] ch slices_S80_S79_0 : IVec S79 32)⟩] concatenates_S1_S79_S80_d0) x3) s := by
  read_ops hostOps1_7
  -- the two pieces of the concatenation: the slice's own result, and the zero the slice leaves alone
  rw [StableHlo.unary_result]
  rw [StableHlo.unary_result_ne]; rotate_left; decide
  rw [h34, h33, h3, h31]
  rfl

theorem ops1_7_c8 : StableHlo.after hostOps1_7 V (Proc.devRef .tc main_c_8) = (constantI S_ 32 0#32 : IVec S_ 32) := by
  read_ops hostOps1_7

theorem ops1_7_c9 : StableHlo.after hostOps1_7 V (Proc.devRef .tc main_c_9) = (constantI S_ 32 8191#32 : IVec S_ 32) := by
  read_ops hostOps1_7

theorem ops1_8_v45 (p : IVec S8192 32) (h44 : V (Proc.devRef .tc main_v44) = p)
    (h8 : V (Proc.devRef .tc main_c_8) = (constantI S_ 32 0#32 : IVec S_ 32))
    (h9 : V (Proc.devRef .tc main_c_9) = (constantI S_ 32 8191#32 : IVec S_ 32)) :
    StableHlo.after hostOps1_8 V (Proc.devRef .tc main_v45) = minsi (T.splat 8191#32) (maxsi (T.splat 0#32) p) := by
  read_ops hostOps1_8
  rw [h44, h8, h9]
  rfl

/-- The sorted order `so` read at the clipped position `q`, wrapped. -/
theorem ops1_9_v52 (q so : IVec S8192 32) (h45 : V (Proc.devRef .tc main_v45) = q) (h32 : V (Proc.devRef .tc main_v32) = so) :
    StableHlo.after hostOps1_9 V (Proc.devRef .tc main_v52)
      = Host.gather gather_S8192_S8192x1_S8192_n_0_n_n_0_1_1 so (broadcastInDim S8192x1 ![0] bcast_S8192_S8192x1_0
          (select (cmpi .slt q (T.splat 0#32)) (addi q (T.splat 8192#32)) q)) := by
  read_ops hostOps1_9
  rw [h45, h32]
  rfl

theorem ops1_9_c12 : StableHlo.after hostOps1_9 V (Proc.devRef .tc main_c_12) = (constantI S_ 32 0#32 : IVec S_ 32) := by
  read_ops hostOps1_9

theorem ops1_10_v53 (vb : IVec S8192 1) (pk : IVec S8192 32) (h24 : V (Proc.devRef .tc main_v24) = vb)
    (h52 : V (Proc.devRef .tc main_v52) = pk) (h12 : V (Proc.devRef .tc main_c_12) = (constantI S_ 32 0#32 : IVec S_ 32)) :
    StableHlo.after hostOps1_10 V (Proc.devRef .tc main_v53) = select vb pk (T.splat 0#32) := by
  read_ops hostOps1_10
  rw [h24, h52, h12]
  rfl

theorem ops1_11_v54 (k : FVec F S8192x128 .f32) (ix : IVec S8192 32) (h1 : V (Proc.devRef .tc main_v1) = k)
    (h53 : V (Proc.devRef .tc main_v53) = ix) :
    StableHlo.after hostOps1_11 V (Proc.devRef .tc main_v54) = T.take k ix := by
  read_ops hostOps1_11
  rw [h1, h53]
  rfl

theorem ops1_12_v56 (vb : IVec S8192 1) (h24 : V (Proc.devRef .tc main_v24) = vb) :
    StableHlo.after hostOps1_12 V (Proc.devRef .tc main_v56)
      = (shapeCast S8192x1 (uitofp .f32 vb : FVec F S8192 .f32) shapeCasts_S8192_S8192x1 : FVec F S8192x1 .f32) := by
  read_ops hostOps1_12
  rw [h24]
  rfl

theorem ops1_12_v57 (q : FVec F S1024x128 .f32) (h8 : V (Proc.devRef .tc main_arg8) = q) :
    StableHlo.after hostOps1_12 V (Proc.devRef .tc main_v57) = T.queueR q := by
  read_ops hostOps1_12
  rw [h8]
  rfl

theorem ops1_12_v58 (b : FVec F S128 .f32) (h5 : V (Proc.devRef .tc main_arg5) = b) :
    StableHlo.after hostOps1_12 V (Proc.devRef .tc main_v58) = T.row128 b := by
  read_ops hostOps1_12
  rw [h5]
  rfl

end Stretches

/-! ## The contents at the stretch boundaries -/

variable (m : (ℓ : Loc nD τ sig) → Buf (Elt F) ℓ) (ρ : Dev nD → PrngReg)

/-- the strong labels as launched -/
abbrev a2 (c : Dev nD) : IVec S8192 32 := m ((c : Thread nD τ).loc main_arg2)
/-- the weak labels as launched -/
abbrev a3 (c : Dev nD) : IVec S8192 32 := m ((c : Thread nD τ).loc main_arg3)

/-! ### The label arrays reach the host arithmetic as launched -/

theorem W2_arg2 (c : Dev nD) : Gen.W2 m ρ c (Proc.devRef .tc main_arg2) = a2 m c :=
  (W2_of_ne m ρ c main_arg2 (by decide)).trans (by keep_at hostOps0)

theorem W2_arg3 (c : Dev nD) : Gen.W2 m ρ c (Proc.devRef .tc main_arg3) = a3 m c :=
  (W2_of_ne m ρ c main_arg3 (by decide)).trans (by keep_at hostOps0)

/-! ### The one-hots, the histogram, the per-row count and the validity bit -/

theorem W3_v8 (c : Dev nD) : Gen.W3 m ρ c (Proc.devRef .tc main_v8) = T.oneHot (a3 m c) :=
  ops1_v8 (Gen.W2 m ρ c) (a3 m c) (W2_arg3 m ρ c)

theorem W3_v15 (c : Dev nD) : Gen.W3 m ρ c (Proc.devRef .tc main_v15) = T.hist (a2 m c) :=
  ops1_v15 (Gen.W2 m ρ c) (a2 m c) (W2_arg2 m ρ c)

theorem W3_v22 (c : Dev nD) : Gen.W3 m ρ c (Proc.devRef .tc main_v22) = T.cnt (a2 m c) (a3 m c) :=
  ops1_v22 (Gen.W2 m ρ c) (a2 m c) (a3 m c) (W2_arg2 m ρ c) (W2_arg3 m ρ c)

theorem W3_v24 (c : Dev nD) : Gen.W3 m ρ c (Proc.devRef .tc main_v24) = T.valid (a2 m c) (a3 m c) :=
  ops1_v24 (Gen.W2 m ρ c) (a2 m c) (a3 m c) (W2_arg2 m ρ c) (W2_arg3 m ρ c)

/-! ### The running sum of the weak one-hot -/

theorem W4_v8 (c : Dev nD) : Gen.W4 m ρ c (Proc.devRef .tc main_v8) = T.oneHot (a3 m c) := by
  keep_thru [hostOps1_1]
  exact W3_v8 m ρ c

theorem W4_v22 (c : Dev nD) : Gen.W4 m ρ c (Proc.devRef .tc main_v22) = T.cnt (a2 m c) (a3 m c) := by
  keep_thru [hostOps1_1]
  exact W3_v22 m ρ c

theorem W4_v25 (c : Dev nD) : Gen.W4 m ρ c (Proc.devRef .tc main_v25) = T.cumW (a3 m c) :=
  ops1_1_v25 (Gen.W3 m ρ c) (T.oneHot (a3 m c)) (W3_v8 m ρ c)

/-! ### The rank among equal weak labels, and the count floored at one -/

theorem W5_v28 (c : Dev nD) : Gen.W5 m ρ c (Proc.devRef .tc main_v28) = T.rank (a3 m c) :=
  ops1_2_v28 (Gen.W4 m ρ c) (T.oneHot (a3 m c)) (T.cumW (a3 m c)) (W4_v8 m ρ c) (W4_v25 m ρ c)

theorem W5_v30 (c : Dev nD) :
    Gen.W5 m ρ c (Proc.devRef .tc main_v30) = maxsi (T.cnt (a2 m c) (a3 m c)) (T.splat 1#32) :=
  ops1_2_v30 (Gen.W4 m ρ c) (T.cnt (a2 m c) (a3 m c)) (W4_v22 m ρ c)

/-! ### The selection offset: the rank modulo the count -/

theorem W6_v31 (c : Dev nD) : Gen.W6 m ρ c (Proc.devRef .tc main_v31) = T.sel (a2 m c) (a3 m c) :=
  ops1_3_v31 (Gen.W5 m ρ c) (T.rank (a3 m c)) (maxsi (T.cnt (a2 m c) (a3 m c)) (T.splat 1#32)) (W5_v28 m ρ c) (W5_v30 m ρ c)

/-! ### The stable argsort of the strong labels -/

theorem W6_arg2 (c : Dev nD) : Gen.W6 m ρ c (Proc.devRef .tc main_arg2) = a2 m c := by
  keep_thru [hostOps1_3, hostOps1_2, hostOps1_1, hostOps1]
  exact W2_arg2 m ρ c

theorem W7_v32 (c : Dev nD) : Gen.W7 m ρ c (Proc.devRef .tc main_v32) = T.sorted (a2 m c) :=
  ops1_4_v32 (Gen.W6 m ρ c) (a2 m c) (W6_arg2 m ρ c)

/-! ### The class starts: the running sum of the histogram, shifted by one class -/

theorem W8_v33 (c : Dev nD) :
    Gen.W8 m ρ c (Proc.devRef .tc main_v33) = (broadcastInDim S1 ![] bcast_S_S1 (constantI S_ 32 0#32) : IVec S1 32) :=
  ops1_5_v33 (Gen.W7 m ρ c)

theorem W8_v15 (c : Dev nD) : Gen.W8 m ρ c (Proc.devRef .tc main_v15) = T.hist (a2 m c) := by
  keep_thru [hostOps1_5, hostOps1_4, hostOps1_3, hostOps1_2, hostOps1_1]
  exact W3_v15 m ρ c

theorem W9_v34 (c : Dev nD) : Gen.W9 m ρ c (Proc.devRef .tc main_v34) = T.cumH (a2 m c) :=
  ops1_6_v34 (Gen.W8 m ρ c) (T.hist (a2 m c)) (W8_v15 m ρ c)

theorem W9_v33 (c : Dev nD) :
    Gen.W9 m ρ c (Proc.devRef .tc main_v33) = (broadcastInDim S1 ![] bcast_S_S1 (constantI S_ 32 0#32) : IVec S1 32) := by
  keep_thru [hostOps1_6]
  exact W8_v33 m ρ c

theorem W9_v31 (c : Dev nD) : Gen.W9 m ρ c (Proc.devRef .tc main_v31) = T.sel (a2 m c) (a3 m c) := by
  keep_thru [hostOps1_6, hostOps1_5, hostOps1_4]
  exact W6_v31 m ρ c

theorem W9_arg3 (c : Dev nD) : Gen.W9 m ρ c (Proc.devRef .tc main_arg3) = a3 m c := by
  keep_thru [hostOps1_6, hostOps1_5, hostOps1_4, hostOps1_3, hostOps1_2, hostOps1_1, hostOps1]
  exact W2_arg3 m ρ c

/-! ### The position in sorted order, clipped -/

theorem W10_v44 (c : Dev nD) : Gen.W10 m ρ c (Proc.devRef .tc main_v44) = T.pos (a2 m c) (a3 m c) :=
  ops1_7_v44 (Gen.W9 m ρ c) (T.cumH (a2 m c)) (a3 m c) (T.sel (a2 m c) (a3 m c))
    (W9_v34 m ρ c) (W9_v33 m ρ c) (W9_arg3 m ρ c) (W9_v31 m ρ c)

theorem W10_c8 (c : Dev nD) : Gen.W10 m ρ c (Proc.devRef .tc main_c_8) = (constantI S_ 32 0#32 : IVec S_ 32) :=
  ops1_7_c8 (Gen.W9 m ρ c)

theorem W10_c9 (c : Dev nD) : Gen.W10 m ρ c (Proc.devRef .tc main_c_9) = (constantI S_ 32 8191#32 : IVec S_ 32) :=
  ops1_7_c9 (Gen.W9 m ρ c)

theorem W11_v45 (c : Dev nD) : Gen.W11 m ρ c (Proc.devRef .tc main_v45) = T.clipPos (a2 m c) (a3 m c) :=
  ops1_8_v45 (Gen.W10 m ρ c) (T.pos (a2 m c) (a3 m c)) (W10_v44 m ρ c) (W10_c8 m ρ c) (W10_c9 m ρ c)

theorem W11_v32 (c : Dev nD) : Gen.W11 m ρ c (Proc.devRef .tc main_v32) = T.sorted (a2 m c) := by
  keep_thru [hostOps1_8, hostOps1_7, hostOps1_6, hostOps1_5]
  exact W7_v32 m ρ c

/-! ### The picked strong row, and zero where no strong row carries the label -/

theorem W12_v52 (c : Dev nD) : Gen.W12 m ρ c (Proc.devRef .tc main_v52) = T.picked (a2 m c) (a3 m c) :=
  ops1_9_v52 (Gen.W11 m ρ c) (T.clipPos (a2 m c) (a3 m c)) (T.sorted (a2 m c)) (W11_v45 m ρ c) (W11_v32 m ρ c)

theorem W12_c12 (c : Dev nD) : Gen.W12 m ρ c (Proc.devRef .tc main_c_12) = (constantI S_ 32 0#32 : IVec S_ 32) :=
  ops1_9_c12 (Gen.W11 m ρ c)

theorem W12_v24 (c : Dev nD) : Gen.W12 m ρ c (Proc.devRef .tc main_v24) = T.valid (a2 m c) (a3 m c) := by
  keep_thru [hostOps1_9, hostOps1_8, hostOps1_7, hostOps1_6, hostOps1_5, hostOps1_4, hostOps1_3, hostOps1_2, hostOps1_1]
  exact W3_v24 m ρ c

theorem W13_v53 (c : Dev nD) : Gen.W13 m ρ c (Proc.devRef .tc main_v53) = T.idx (a2 m c) (a3 m c) :=
  ops1_10_v53 (Gen.W12 m ρ c) (T.valid (a2 m c) (a3 m c)) (T.picked (a2 m c) (a3 m c))
    (W12_v24 m ρ c) (W12_v52 m ρ c) (W12_c12 m ρ c)

/-! ### The row gather out of the first region's output -/

theorem W13_v1 (c : Dev nD) : Gen.W13 m ρ c (Proc.devRef .tc main_v1) = Gen.W2 m ρ c (Proc.devRef .tc main_v1) := by
  keep_thru [hostOps1_10, hostOps1_9, hostOps1_8, hostOps1_7, hostOps1_6, hostOps1_5, hostOps1_4, hostOps1_3, hostOps1_2,
    hostOps1_1, hostOps1]
  rfl

theorem W14_v54 (c : Dev nD) :
    Gen.W14 m ρ c (Proc.devRef .tc main_v54) = T.take (Gen.W2 m ρ c (Proc.devRef .tc main_v1)) (T.idx (a2 m c) (a3 m c)) :=
  ops1_11_v54 (Gen.W13 m ρ c) (Gen.W2 m ρ c (Proc.devRef .tc main_v1)) (T.idx (a2 m c) (a3 m c)) (W13_v1 m ρ c) (W13_v53 m ρ c)

theorem W14_v24 (c : Dev nD) : Gen.W14 m ρ c (Proc.devRef .tc main_v24) = T.valid (a2 m c) (a3 m c) := by
  keep_thru [hostOps1_11, hostOps1_10]
  exact W12_v24 m ρ c

theorem W14_arg8 (c : Dev nD) : Gen.W14 m ρ c (Proc.devRef .tc main_arg8) = m ((c : Thread nD τ).loc main_arg8) := by
  keep_thru [hostOps1_11, hostOps1_10, hostOps1_9, hostOps1_8, hostOps1_7, hostOps1_6, hostOps1_5, hostOps1_4, hostOps1_3,
    hostOps1_2, hostOps1_1, hostOps1]
  exact (W2_of_ne m ρ c main_arg8 (by decide)).trans (by keep_at hostOps0)

theorem W14_arg5 (c : Dev nD) : Gen.W14 m ρ c (Proc.devRef .tc main_arg5) = m ((c : Thread nD τ).loc main_arg5) := by
  keep_thru [hostOps1_11, hostOps1_10, hostOps1_9, hostOps1_8, hostOps1_7, hostOps1_6, hostOps1_5, hostOps1_4, hostOps1_3,
    hostOps1_2, hostOps1_1, hostOps1]
  exact (W2_of_ne m ρ c main_arg5 (by decide)).trans (by keep_at hostOps0)

/-! ## What the second region finds -/

/-- The gathered rows: the first region's output taken at the paired strong rows. -/
theorem W15_v54 (c : Dev nD) : Gen.W15 m ρ c (Proc.devRef .tc main_v54)
    = T.take (Gen.W2 m ρ c (Proc.devRef .tc main_v1)) (T.idx (m ((c : Thread nD τ).loc main_arg2)) (m ((c : Thread nD τ).loc main_arg3))) := by
  keep_thru [hostOps1_12]
  exact W14_v54 m ρ c

/-- The validity bit as a float column. -/
theorem W15_v56 (c : Dev nD) : Gen.W15 m ρ c (Proc.devRef .tc main_v56)
    = T.validF (m ((c : Thread nD τ).loc main_arg2)) (m ((c : Thread nD τ).loc main_arg3)) :=
  ops1_12_v56 (Gen.W14 m ρ c) (T.valid (a2 m c) (a3 m c)) (W14_v24 m ρ c)

/-- The queue, recast. -/
theorem W15_v57 (c : Dev nD) : Gen.W15 m ρ c (Proc.devRef .tc main_v57) = T.queueR (m ((c : Thread nD τ).loc main_arg8)) :=
  ops1_12_v57 (Gen.W14 m ρ c) (m ((c : Thread nD τ).loc main_arg8)) (W14_arg8 m ρ c)

/-- The bias as a row. -/
theorem W15_v58 (c : Dev nD) : Gen.W15 m ρ c (Proc.devRef .tc main_v58) = T.row128 (m ((c : Thread nD τ).loc main_arg5)) :=
  ops1_12_v58 (Gen.W14 m ρ c) (m ((c : Thread nD τ).loc main_arg5)) (W14_arg5 m ρ c)

theorem W15_arg1 (c : Dev nD) : Gen.W15 m ρ c (Proc.devRef .tc main_arg1) = m ((c : Thread nD τ).loc main_arg1) := by
  keep_thru [hostOps1_12, hostOps1_11, hostOps1_10, hostOps1_9, hostOps1_8, hostOps1_7, hostOps1_6, hostOps1_5, hostOps1_4,
    hostOps1_3, hostOps1_2, hostOps1_1, hostOps1]
  exact (W2_of_ne m ρ c main_arg1 (by decide)).trans (by keep_at hostOps0)

theorem W15_arg4 (c : Dev nD) : Gen.W15 m ρ c (Proc.devRef .tc main_arg4) = m ((c : Thread nD τ).loc main_arg4) := by
  keep_thru [hostOps1_12, hostOps1_11, hostOps1_10, hostOps1_9, hostOps1_8, hostOps1_7, hostOps1_6, hostOps1_5, hostOps1_4,
    hostOps1_3, hostOps1_2, hostOps1_1, hostOps1]
  exact (W2_of_ne m ρ c main_arg4 (by decide)).trans (by keep_at hostOps0)

end Cert.KernelIdeal.KRead

end
-- ==== Proof.KIntA.lean ====
/-
  The kernel's label bookkeeping read word by word, first half. For a strong-label array `a2` and a weak-label array
  `a3` of 32-bit words, with every weak label a class (below 80): the one-hot of a label array against the classes
  0..79 and its bit; the class histogram (a count of rows); the table read at a class word; the per-row count and the
  validity bit; the running sum of the weak one-hot down the rows (a count of the rows so far) and the rank among equal
  weak labels; the sign-corrected remainder on small non-negative words; the selection offset. Each is the natural
  number that `Spec` names: `Spec.cnt`, `Spec.before`, `Spec.sel`.
-/
import proofs.«427062_j43121471652524_2_alg».proof.Proof.KTerms
import proofs.«427062_j43121471652524_2_alg».proof.Proof.Spec
import Idealize.ShloMosaic.Lib.ValueIdx
import Idealize.ShloMosaic.Lib.IndicatorCount
import Idealize.ShloMosaic.Lib.StableHlo.Predicate
import Idealize.ShloMosaic.PureOps.Reduce

noncomputable section

namespace Cert.KernelIdeal.KIntA

open Idealize.ShloMosaic Idealize.ShloMosaic.ValueIdx Idealize.ShloMosaic.StableHlo.Predicate Cert.KernelIdeal Finset

variable [Facts]
open Facts₀ Facts

/-! ## Indices: the two spellings of a rank-1 and of a rank-2 index agree -/

theorem ofFin_eq_ix1 {n : Nat} (k : Fin n) : (Shape.Idx.ofFin k : (⟨1, ![n]⟩ : Shape).Idx) = ix1 k := by
  funext d; match d with | ⟨0, _⟩ => rfl

theorem ij_eq_ix2 {n m : Nat} (p : Fin n) (q : Fin m) : (ij p q : (⟨2, ![n, m]⟩ : Shape).Idx) = ix2 p q := by
  funext d; match d with | ⟨0, _⟩ => rfl | ⟨1, _⟩ => rfl

/-! ## Words -/

/-- a word equals the word of a small natural iff its value is that natural -/
theorem eq_ofNat_iff (a : BitVec 32) (c : ℕ) (hc : c < 2 ^ 32) : a = BitVec.ofNat 32 c ↔ a.toNat = c := by
  constructor
  · intro h; rw [h, BitVec.toNat_ofNat]; exact Nat.mod_eq_of_lt hc
  · intro h; apply BitVec.eq_of_toNat_eq; rw [h, BitVec.toNat_ofNat]; exact (Nat.mod_eq_of_lt hc).symm

/-- the splat of a word reads that word everywhere -/
theorem splat_apply (v : BitVec 32) (j : S8192.Idx) : T.splat v j = v := rfl

/-! ## The one-hot -/

/-- the one-hot's bit at (row p, class q): the row's word is the class's word -/
def hotBit (a : IVec S8192 32) : IVec S8192x80 1 :=
  cmpi .eq
    (broadcastInDim S8192x80 ![0, 1] bcast_S8192x1_S8192x80_0_1 (broadcastInDim S8192x1 ![0] bcast_S8192_S8192x1_0 a))
    (broadcastInDim S8192x80 ![0, 1] bcast_S1x80_S8192x80_0_1 (broadcastInDim S1x80 ![1] bcast_S80_S1x80_1 (iotaInDim S80 32 0)))

theorem oneHot_eq (a : IVec S8192 32) : T.oneHot a = extui 32 (hotBit a) natLt_1_32 := rfl

theorem hotBit_apply (a : IVec S8192 32) (p : Fin 8192) (q : Fin 80) :
    hotBit a (ix2 p q) = 1#1 ↔ (a (ix1 p)).toNat = q.val := by
  have e1 := bcast_rows (m := 80) bcast_S8192_S8192x1_0 bcast_S8192x1_S8192x80_0_1 a p q
  have e2 := bcast_cols (n := 8192) bcast_S80_S1x80_1 bcast_S1x80_S8192x80_0_1 (iotaInDim S80 32 0) p q
  rw [ij_eq_ix2] at e1 e2
  rw [ofFin_eq_ix1] at e1
  rw [iota_apply] at e2
  show IntOp.cmpi .eq _ _ = 1#1 ↔ _
  rw [e1, e2, cmpi_eq_iff]
  exact eq_ofNat_iff _ _ (by have := q.isLt; omega)

/-- the histogram at class c counts the rows carrying c -/
theorem hist_apply (a2 : IVec S8192 32) (c : Fin 80) :
    (T.hist a2 (ix1 c)).toNat = (Finset.univ.filter fun j : Fin 8192 => (a2 (ix1 j)).toNat = c.val).card := by
  unfold T.hist
  rw [oneHot_eq, toNat_reduce_count_rows (by norm_num)]
  congr 1
  refine Finset.filter_congr fun p _ => ?_
  rw [ij_eq_ix2]
  exact hotBit_apply a2 p c

/-! ## Signed readings of small words -/

theorem toInt_small (a : BitVec 32) (h : a.toNat < 2 ^ 31) : a.toInt = a.toNat := toInt_eq_toNat_of_lt h

/-- a small word is not negative: the signed comparison with zero is the bit 0 -/
theorem slt_zero_small (a : BitVec 32) (h : a.toNat < 2 ^ 31) : IntOp.cmpi .slt a 0#32 = 0#1 := by
  apply eq_zero_of_ne_one
  intro hc
  have := (slt_iff_toNat (a := a) (b := 0#32) h (by decide)).1 hc
  simp at this

/-! ## The wrap and the table read -/

/-- a class word (below 80) is not wrapped -/
theorem wrap80_apply (a3 : IVec S8192 32) (j : S8192.Idx) (h : (a3 j).toNat < 80) : T.wrap80 a3 j = a3 j := by
  show Scalar.select (IntOp.cmpi .slt (a3 j) 0#32) _ _ = _
  rw [slt_zero_small _ (by omega), select_zero]

/-- the 80-table read at a class word is the table's entry at that class -/
theorem at80_apply (tbl : IVec S80 32) (a3 : IVec S8192 32) (i : Fin 8192) (h : (a3 (ix1 i)).toNat < 80) :
    T.at80 tbl a3 (ix1 i) = tbl (ix1 ⟨(a3 (ix1 i)).toNat, h⟩) := by
  unfold T.at80
  have hg := gather_take gather_S80_S8192x1_S8192_n_0_n_n_0_1_1 rfl rfl rfl rfl tbl
    (broadcastInDim S8192x1 ![0] bcast_S8192_S8192x1_0 (T.wrap80 a3)) i (by norm_num)
  rw [ofFin_eq_ix1] at hg
  rw [hg, ofFin_eq_ix1]
  congr 2
  apply Fin.ext
  show min (broadcastInDim S8192x1 ![0] bcast_S8192_S8192x1_0 (T.wrap80 a3) (ixP i)).toInt.toNat (80 - 1) = _
  rw [bcast_col1, ofFin_eq_ix1, wrap80_apply a3 _ h, toInt_small _ (by omega)]
  simp only [Int.toNat_natCast]
  omega

/-! ## Counts -/

section Counts
variable (a2 a3 : IVec S8192 32) (hw : ∀ i : Fin 8192, (a3 (ix1 i)).toNat < 80)
include hw

theorem cnt_apply (i : Fin 8192) :
    (T.cnt a2 a3 (ix1 i)).toNat
      = Spec.cnt (fun j : Fin 8192 => (a2 (ix1 j)).toNat) (fun i : Fin 8192 => (a3 (ix1 i)).toNat) i := by
  unfold T.cnt
  rw [at80_apply _ a3 i (hw i), hist_apply]
  rfl

/-- a count of rows is at most the number of rows -/
theorem cnt_le (i : Fin 8192) :
    Spec.cnt (fun j : Fin 8192 => (a2 (ix1 j)).toNat) (fun i : Fin 8192 => (a3 (ix1 i)).toNat) i ≤ 8192 := by
  unfold Spec.cnt
  exact (Finset.card_le_univ _).trans (by simp)

theorem valid_apply (i : Fin 8192) :
    T.valid a2 a3 (ix1 i)
      = if 0 < Spec.cnt (fun j : Fin 8192 => (a2 (ix1 j)).toNat) (fun i : Fin 8192 => (a3 (ix1 i)).toNat) i then 1#1 else 0#1 := by
  have hc := cnt_apply a2 a3 hw i
  have hle := cnt_le a2 a3 hw i
  show IntOp.cmpi .sgt (T.cnt a2 a3 (ix1 i)) 0#32 = _
  have hiff := sgt_iff_toNat (a := T.cnt a2 a3 (ix1 i)) (b := 0#32) (by omega) (by decide)
  rw [hc] at hiff
  by_cases hpos : 0 < Spec.cnt (fun j : Fin 8192 => (a2 (ix1 j)).toNat) (fun i : Fin 8192 => (a3 (ix1 i)).toNat) i
  · rw [if_pos hpos]; exact hiff.2 (by simpa using hpos)
  · rw [if_neg hpos]
    apply eq_zero_of_ne_one
    intro h1
    exact hpos (by simpa using hiff.1 h1)

end Counts

/-! ## Sums of words that do not wrap -/

/-- a left fold of word addition whose running total stays inside the word is the sum of the values -/
theorem toNat_foldl_addi {β : Type} (l : List β) (g : β → BitVec 32) (r : BitVec 32)
    (h : r.toNat + (l.map fun b => (g b).toNat).sum < 2 ^ 32) :
    (l.foldl (fun r b => IntOp.addi r (g b)) r).toNat = r.toNat + (l.map fun b => (g b).toNat).sum := by
  induction l generalizing r with
  | nil => simp
  | cons b l ih =>
    simp only [List.foldl_cons, List.map_cons, List.sum_cons] at h ⊢
    have hb : (IntOp.addi r (g b)).toNat = r.toNat + (g b).toNat := by
      show (r + g b).toNat = _
      rw [BitVec.toNat_add]; exact Nat.mod_eq_of_lt (by omega)
    rw [ih _ (by rw [hb]; omega), hb]; omega

/-- a sum listed in row-major order is the sum over the indices -/
theorem sum_map_rowMajor (W : Shape) (G : W.Idx → ℕ) :
    ((List.finRange W.numel).map fun n => G (W.rowMajor.symm n)).sum = ∑ k : W.Idx, G k := by
  rw [← Fin.sum_univ_def, Equiv.sum_comp W.rowMajor.symm G]

/-! ## A window sum -/

/-- the term a sum over windows adds at window position k of result index j: the operand where the position is inside
    it, zero in the padding -/
def winTerm {s t : Shape} (strides lo : Fin s.rank → Nat) (x : IVec s 32) (hr : t.rank = s.rank) (j : t.Idx)
    (window : Fin s.rank → Nat) (k : (⟨s.rank, window⟩ : Shape).Idx) : BitVec 32 :=
  if hin : ∀ a, lo a ≤ (j (a.cast hr.symm)).val * strides a + (k a).val
      ∧ (j (a.cast hr.symm)).val * strides a + (k a).val - lo a < s.size a
  then x (fun a => ⟨(j (a.cast hr.symm)).val * strides a + (k a).val - lo a, (hin a).2⟩) else 0#32

/-- a window sum from zero whose total stays inside the word is the sum of its terms' values -/
theorem toNat_reduceWindow_addi {s t u : Shape} (window strides lo hi : Fin s.rank → Nat) (x : IVec s 32)
    (init : u.Idx → BitVec 32) (h : s.ReduceWindows window strides lo hi t) (hu : 0 < u.numel) (j : t.Idx)
    (hinit : init (Shape.Idx.first hu) = 0#32)
    (hs : ∑ k : (⟨s.rank, window⟩ : Shape).Idx, (winTerm strides lo x h.1 j window k).toNat < 2 ^ 32) :
    (Host.reduceWindow IntOp.addi window strides lo hi x init h hu j).toNat
      = ∑ k : (⟨s.rank, window⟩ : Shape).Idx, (winTerm strides lo x h.1 j window k).toNat := by
  have e : Host.reduceWindow IntOp.addi window strides lo hi x init h hu j
      = (List.finRange (⟨s.rank, window⟩ : Shape).numel).foldl
          (fun r n => IntOp.addi r (winTerm strides lo x h.1 j window ((⟨s.rank, window⟩ : Shape).rowMajor.symm n))) 0#32 := by
    unfold Host.reduceWindow winTerm
    simp only [hinit]
  have hsum := sum_map_rowMajor (⟨s.rank, window⟩ : Shape) (fun k => (winTerm strides lo x h.1 j window k).toNat)
  rw [e, toNat_foldl_addi _ _ _ (by rw [hsum]; simpa using hs), hsum]
  simp

/-! ## The running sum down the rows -/

/-- the row a window position reads: position a of the window at row p reads row p + a − 8191 -/
def shRow (p a : Fin 8192) : Fin 8192 := ⟨min (p.val + a.val - 8191) 8191, by omega⟩

/-- the running sum's term at window position (a, b) of result (p, q): row p + a − 8191 of column q when that is a row,
    else zero -/
theorem winTerm_cum (x : IVec S8192x80 32) (hr : S8192x80.rank = S8192x80.rank) (p a : Fin 8192) (q : Fin 80) (b : Fin 1) :
    winTerm (s := S8192x80) (t := S8192x80) ![1, 1] ![8191, 0] x hr (ix2 p q) ![8192, 1] (ix2 a b)
      = if 8191 ≤ p.val + a.val then x (ix2 (shRow p a) q) else 0#32 := by
  have hb := b.isLt
  have hp := p.isLt
  have ha := a.isLt
  have hq := q.isLt
  unfold winTerm
  by_cases hc : 8191 ≤ p.val + a.val
  · rw [if_pos hc, dif_pos]
    · congr 1
      funext a'
      match a' with
      | ⟨0, _⟩ =>
        apply Fin.ext
        show p.val * 1 + a.val - 8191 = min (p.val + a.val - 8191) 8191
        omega
      | ⟨1, _⟩ =>
        apply Fin.ext
        show q.val * 1 + b.val - 0 = q.val
        omega
    · intro a'
      match a' with
      | ⟨0, _⟩ =>
        show 8191 ≤ p.val * 1 + a.val ∧ p.val * 1 + a.val - 8191 < 8192
        omega
      | ⟨1, _⟩ =>
        show 0 ≤ q.val * 1 + b.val ∧ q.val * 1 + b.val - 0 < 80
        omega
  · rw [if_neg hc, dif_neg]
    intro hin
    have h0 : 8191 ≤ p.val * 1 + a.val := (hin ⟨0, Nat.zero_lt_two⟩).1
    omega

/-- re-indexing the window positions by the rows they read -/
theorem sum_shRow (F : Fin 8192 → ℕ) (p : Fin 8192) :
    ∑ a : Fin 8192, (if 8191 ≤ p.val + a.val then F (shRow p a) else 0) = ∑ k : Fin 8192, if k ≤ p then F k else 0 := by
  have hp := p.isLt
  rw [← Finset.sum_filter, ← Finset.sum_filter]
  refine Finset.sum_nbij' (fun a => shRow p a) (fun k => ⟨min (k.val + 8191 - p.val) 8191, by omega⟩) ?_ ?_ ?_ ?_ ?_
  · intro a ha
    have := a.isLt
    simp only [Finset.mem_filter, Finset.mem_univ, true_and, Fin.le_def, shRow] at ha ⊢
    omega
  · intro k hk
    have := k.isLt
    simp only [Finset.mem_filter, Finset.mem_univ, true_and, Fin.le_def] at hk ⊢
    omega
  · intro a ha
    have := a.isLt
    simp only [Finset.mem_filter, Finset.mem_univ, true_and] at ha
    apply Fin.ext
    simp only [shRow]
    omega
  · intro k hk
    have := k.isLt
    simp only [Finset.mem_filter, Finset.mem_univ, true_and, Fin.le_def] at hk
    apply Fin.ext
    simp only [shRow]
    omega
  · intro a _; rfl

theorem oneHot_toNat (a : IVec S8192 32) (p : Fin 8192) (q : Fin 80) :
    (T.oneHot a (ix2 p q)).toNat = if (a (ix1 p)).toNat = q.val then 1 else 0 := by
  rw [oneHot_eq]
  show ((hotBit a (ix2 p q)).setWidth 32).toNat = _
  rw [toNat_setWidth_bit]
  simp only [hotBit_apply]

/-- the running sum of the one-hot at (p, q) counts the rows up to p carrying q -/
theorem cumW_apply (a3 : IVec S8192 32) (p : Fin 8192) (q : Fin 80) :
    (T.cumW a3 (ix2 p q)).toNat
      = (Finset.univ.filter fun i' : Fin 8192 => i' ≤ p ∧ (a3 (ix1 i')).toNat = q.val).card := by
  unfold T.cumW
  have hS : ∑ k : (⟨S8192x80.rank, ![8192, 1]⟩ : Shape).Idx,
        (winTerm (s := S8192x80) (t := S8192x80) ![1, 1] ![8191, 0] (T.oneHot a3)
          reduceWindows_S8192x80_S8192x80_w8192s1p8191_0_w1s1p0_0.1 (ix2 p q) ![8192, 1] k).toNat
      = (Finset.univ.filter fun i' : Fin 8192 => i' ≤ p ∧ (a3 (ix1 i')).toNat = q.val).card := by
    refine (sum_idx2 (n0 := 8192) (n1 := 1) _).trans ?_
    simp only [winTerm_cum, Fin.sum_univ_one]
    have e : ∀ a : Fin 8192, (if 8191 ≤ p.val + a.val then T.oneHot a3 (ix2 (shRow p a) q) else 0#32).toNat
        = if 8191 ≤ p.val + a.val then (T.oneHot a3 (ix2 (shRow p a) q)).toNat else 0 := by
      intro a; split <;> rfl
    simp only [e]
    refine (sum_shRow (fun k : Fin 8192 => (T.oneHot a3 (ix2 k q)).toNat) p).trans ?_
    rw [Finset.card_filter]
    refine Finset.sum_congr rfl fun k _ => ?_
    simp only [oneHot_toNat]
    by_cases h1 : k ≤ p <;> by_cases h2 : (a3 (ix1 k)).toNat = q.val <;> simp [h1, h2]
  rw [toNat_reduceWindow_addi _ _ _ _ _ _ _ _ _ rfl (by rw [hS]; exact lt_of_le_of_lt (Finset.card_le_univ _) (by simp)), hS]

/-! ## A sum along the columns -/

/-- summing the words of an [n × m] array over its columns gives, at row i, the sum of row i's values, when that stays
    inside the word -/
theorem toNat_reduce_addi_cols {n m : Nat} (x : IVec ⟨2, ![n, m]⟩ 32)
    (h : (⟨2, ![n, m]⟩ : Shape).ReducesTo [1] ⟨1, ![n]⟩) {u : Shape} (hu : 0 < u.numel) (i : Fin n)
    (hs : ∑ q : Fin m, (x (ix2 i q)).toNat < 2 ^ 32) :
    (Host.reduce IntOp.addi x (constantI u 32 0#32) h hu (ix1 i)).toNat = ∑ q : Fin m, (x (ix2 i q)).toNat := by
  classical
  have hdrop : ∀ (a : Fin n) (b : Fin m), h.drop (ix2 a b) = ix1 i ↔ a = i := by
    intro a b
    have hv : (h.drop (ix2 a b) 0 : Nat) = a.val := Shape.ReducesTo.drop_apply_val h (ix2 a b) 0
    constructor
    · intro e; rw [e] at hv; exact Fin.ext hv.symm
    · intro e; funext c
      obtain rfl : c = 0 := Subsingleton.elim _ _
      exact Fin.ext (by rw [hv, e]; rfl)
  have hsum : ∑ k ∈ Finset.univ.filter (fun k : (⟨2, ![n, m]⟩ : Shape).Idx => h.drop k = ix1 i), (x k).toNat
      = ∑ q : Fin m, (x (ix2 i q)).toNat := by
    rw [Finset.sum_filter, sum_idx2]
    simp only [hdrop]
    rw [Finset.sum_comm]
    refine Finset.sum_congr rfl fun b _ => ?_
    rw [Finset.sum_ite_eq' Finset.univ i (fun a => (x (ix2 a b)).toNat)]
    simp
  rw [Host.reduce_eq_fold]
  show (Finset.fold IntOp.addi 0#32 x _).toNat = _
  rw [toNat_fold_addi _ _ (by rw [hsum]; exact hs), hsum]

/-! ## The rank among equal weak labels -/

/-- the rows up to i carrying i's label are i and the earlier ones -/
theorem card_upto (w : Fin 8192 → ℕ) (i : Fin 8192) :
    (Finset.univ.filter fun i' : Fin 8192 => i' ≤ i ∧ w i' = w i).card = Spec.before w i + 1 := by
  unfold Spec.before
  have e : (Finset.univ.filter fun i' : Fin 8192 => i' ≤ i ∧ w i' = w i)
      = insert i (Finset.univ.filter fun i' : Fin 8192 => i' < i ∧ w i' = w i) := by
    ext k
    simp only [Finset.mem_filter, Finset.mem_univ, true_and, Finset.mem_insert]
    constructor
    · rintro ⟨h1, h2⟩
      rcases lt_or_eq_of_le h1 with h | h
      · exact Or.inr ⟨h, h2⟩
      · exact Or.inl h
    · rintro (h | ⟨h1, h2⟩)
      · subst h; exact ⟨le_refl _, rfl⟩
      · exact ⟨le_of_lt h1, h2⟩
  rw [e, Finset.card_insert_of_notMem]
  simp

/-- a product and a difference of arrays of words read at an index -/
theorem muli_at {s : Shape} (x y : IVec s 32) (j : s.Idx) : muli x y j = x j * y j := rfl
theorem subi_at {s : Shape} (x y : IVec s 32) (j : s.Idx) : subi x y j = x j - y j := rfl

/-- one term on words: a 0/1 word times (a count word less it) is the count less one where the word is 1, zero where
    it is 0 -/
theorem term_word (oh cw : BitVec 32) (B : ℕ) (hB : B ≤ 8192) :
    (oh.toNat = 1 → cw.toNat = B + 1 → (oh * (cw - oh)).toNat = B) ∧ (oh.toNat = 0 → (oh * (cw - oh)).toNat = 0) := by
  constructor
  · intro ho hc
    rw [BitVec.toNat_mul, BitVec.toNat_sub, ho, hc]
    omega
  · intro ho
    rw [BitVec.toNat_mul, ho]
    simp

/-- one term of the rank's sum: at the row's own class the earlier rows of that class, elsewhere zero -/
theorem rank_term (a3 : IVec S8192 32) (i : Fin 8192) (q : Fin 80) :
    (muli (T.oneHot a3) (subi (T.cumW a3) (T.oneHot a3)) (ix2 i q)).toNat
      = if (a3 (ix1 i)).toNat = q.val then Spec.before (fun i : Fin 8192 => (a3 (ix1 i)).toNat) i else 0 := by
  rw [muli_at, subi_at]
  have ho := oneHot_toNat a3 i q
  have hc := cumW_apply a3 i q
  have hle : Spec.before (fun i : Fin 8192 => (a3 (ix1 i)).toNat) i ≤ 8192 := by
    unfold Spec.before; exact (Finset.card_le_univ _).trans (by simp)
  generalize T.oneHot a3 (ix2 i q) = oh at ho ⊢
  generalize T.cumW a3 (ix2 i q) = cw at hc ⊢
  by_cases hq : (a3 (ix1 i)).toNat = q.val
  · rw [if_pos hq] at ho ⊢
    have hcard := card_upto (fun i : Fin 8192 => (a3 (ix1 i)).toNat) i
    simp only [hq] at hcard
    exact (term_word oh cw _ hle).1 ho (hc.trans hcard)
  · rw [if_neg hq] at ho ⊢
    exact (term_word oh cw _ hle).2 ho

theorem before_le (w : Fin 8192 → ℕ) (i : Fin 8192) : Spec.before w i ≤ 8192 := by
  unfold Spec.before; exact (Finset.card_le_univ _).trans (by simp)

theorem rank_apply (a3 : IVec S8192 32) (hw : ∀ i : Fin 8192, (a3 (ix1 i)).toNat < 80) (i : Fin 8192) :
    (T.rank a3 (ix1 i)).toNat = Spec.before (fun i : Fin 8192 => (a3 (ix1 i)).toNat) i := by
  unfold T.rank
  have hS : ∑ q : Fin 80, (muli (T.oneHot a3) (subi (T.cumW a3) (T.oneHot a3)) (ix2 i q)).toNat
      = Spec.before (fun i : Fin 8192 => (a3 (ix1 i)).toNat) i := by
    simp only [rank_term]
    rw [Finset.sum_eq_single (⟨(a3 (ix1 i)).toNat, hw i⟩ : Fin 80)]
    · simp
    · intro b _ hb
      rw [if_neg]
      intro h
      exact hb (Fin.ext h.symm)
    · intro h; exact absurd (Finset.mem_univ _) h
  have hb := before_le (fun i : Fin 8192 => (a3 (ix1 i)).toNat) i
  exact (toNat_reduce_addi_cols _ _ _ i (by rw [hS]; omega)).trans hS

/-! ## The remainder -/

/-- the larger of two small words, signed, is the larger value -/
theorem maxsi_toNat (a b : BitVec 32) (ha : a.toNat < 2 ^ 31) (hb : b.toNat < 2 ^ 31) :
    (IntOp.maxsi a b).toNat = max a.toNat b.toNat := by
  unfold IntOp.maxsi
  have hta := toInt_small a ha
  have htb := toInt_small b hb
  split <;> rename_i hc <;> simp only [BitVec.slt, hta, htb, decide_eq_true_eq] at hc <;> omega

/-- the sign-corrected remainder on one pair of small non-negative words with a positive divisor is the remainder of
    the values: the divisor is not replaced, the signed remainder meets no corner, and the correction is not taken -/
theorem rem_word (a b : BitVec 32) (ha : a.toNat < 2 ^ 30) (hb0 : 0 < b.toNat) (hb : b.toNat < 2 ^ 30) :
    (Scalar.select
        (IntOp.andi
          (IntOp.cmpi .ne (IntOp.cmpi .slt (IntOp.remsi .host a (Scalar.select (IntOp.cmpi .eq b 0#32) 1#32 b)) 0#32)
            (IntOp.cmpi .slt (Scalar.select (IntOp.cmpi .eq b 0#32) 1#32 b) 0#32))
          (IntOp.cmpi .ne (IntOp.remsi .host a (Scalar.select (IntOp.cmpi .eq b 0#32) 1#32 b)) 0#32))
        (IntOp.addi (IntOp.remsi .host a (Scalar.select (IntOp.cmpi .eq b 0#32) 1#32 b))
          (Scalar.select (IntOp.cmpi .eq b 0#32) 1#32 b))
        (IntOp.remsi .host a (Scalar.select (IntOp.cmpi .eq b 0#32) 1#32 b))).toNat
      = a.toNat % b.toNat := by
  have hbne : b ≠ 0#32 := by
    intro h; rw [h] at hb0; simp at hb0
  have hd : Scalar.select (IntOp.cmpi .eq b 0#32) 1#32 b = b := by
    have : IntOp.cmpi .eq b 0#32 = 0#1 := eq_zero_of_ne_one fun h => hbne (cmpi_eq_iff.1 h)
    rw [this, select_zero]
  rw [hd]
  have hcorner : ¬ IntOp.SDivCorner a b := by
    intro hc
    rcases hc with hc | ⟨hc, _⟩
    · exact hbne hc
    · rw [hc] at ha; simp at ha
  have hma : a.msb = false := BitVec.msb_eq_false_iff_two_mul_lt.mpr (by omega)
  have hmb : b.msb = false := BitVec.msb_eq_false_iff_two_mul_lt.mpr (by omega)
  have hr : (IntOp.remsi .host a b).toNat = a.toNat % b.toNat := by
    simp only [IntOp.remsi, if_neg hcorner, BitVec.srem_eq, hma, hmb, BitVec.toNat_umod]
  have hrlt : (IntOp.remsi .host a b).toNat < 2 ^ 31 := by
    rw [hr]; exact lt_of_lt_of_le (Nat.mod_lt _ hb0) (by omega)
  rw [slt_zero_small _ hrlt, slt_zero_small b (by omega)]
  have hz : IntOp.andi (IntOp.cmpi .ne (0#1 : BitVec 1) 0#1) (IntOp.cmpi .ne (IntOp.remsi .host a b) 0#32) = 0#1 := by
    show (IntOp.cmpi .ne (0#1 : BitVec 1) 0#1) &&& _ = 0#1
    rw [show IntOp.cmpi .ne (0#1 : BitVec 1) 0#1 = 0#1 from by decide]
    exact BitVec.zero_and
  rw [hz, select_zero, hr]

theorem remainder_apply (x y : IVec S8192 32) (j : S8192.Idx) (hx : (x j).toNat < 2 ^ 30)
    (hy : 0 < (y j).toNat ∧ (y j).toNat < 2 ^ 30) :
    (T.remainder x y j).toNat = (x j).toNat % (y j).toNat :=
  rem_word (x j) (y j) hx hy.1 hy.2

/-! ## The selection offset -/

theorem sel_apply (a2 a3 : IVec S8192 32) (hw : ∀ i : Fin 8192, (a3 (ix1 i)).toNat < 80) (i : Fin 8192) :
    (T.sel a2 a3 (ix1 i)).toNat
      = Spec.sel (fun j : Fin 8192 => (a2 (ix1 j)).toNat) (fun i : Fin 8192 => (a3 (ix1 i)).toNat) i := by
  have hr := rank_apply a3 hw i
  have hc := cnt_apply a2 a3 hw i
  have hrle := before_le (fun i : Fin 8192 => (a3 (ix1 i)).toNat) i
  have hcle := cnt_le a2 a3 hw i
  have hm : (maxsi (T.cnt a2 a3) (T.splat 1#32) (ix1 i)).toNat
      = max (Spec.cnt (fun j : Fin 8192 => (a2 (ix1 j)).toNat) (fun i : Fin 8192 => (a3 (ix1 i)).toNat) i) 1 := by
    have e : maxsi (T.cnt a2 a3) (T.splat 1#32) (ix1 i) = IntOp.maxsi (T.cnt a2 a3 (ix1 i)) 1#32 := rfl
    rw [e]
    generalize T.cnt a2 a3 (ix1 i) = c at hc ⊢
    rw [maxsi_toNat _ _ (by omega) (by decide), hc]
    rfl
  unfold T.sel Spec.sel
  refine (remainder_apply _ _ _ ?_ ?_).trans ?_
  · rw [hr]; omega
  · rw [hm]; omega
  · exact congrArg₂ (fun a b => a % b) hr hm

end Cert.KernelIdeal.KIntA

end
-- ==== Proof.LibStableRank.lean ====
import Idealize.ShloMosaic.Lib.SortFacts
import Mathlib.Data.List.Sort
import Mathlib.Data.Finset.Card
import Mathlib.Data.Finset.Image
import Mathlib.Data.Fintype.Basic
import Mathlib.Order.Interval.Finset.Fin

/-!
# The stable sort by a natural key places every position by its rank

The stable insertion sort of the positions 0..n-1 under "strictly smaller key first" lists the positions in the
strict lexicographic order of the pairs (key, position). Consequently the sorted slot that holds position j is
the number of positions that precede j in that order: those of strictly smaller key, and those of equal key
that are earlier positions.
-/

namespace Cert.Lib
open Idealize.ShloMosaic

section keyPos
variable {n : ℕ} (key : Fin n → ℕ)

/-- The strict lexicographic order of the pairs (key, position): a comes before b when its key is strictly
    smaller, or the keys are equal and a is the earlier position. -/
def KeyPosLt (a b : Fin n) : Prop := key a < key b ∨ (a < b ∧ key a = key b)

instance (a b : Fin n) : Decidable (KeyPosLt key a b) := by unfold KeyPosLt; infer_instance

theorem KeyPosLt.irrefl (a : Fin n) : ¬ KeyPosLt key a a := by
  rintro (h | ⟨h, _⟩)
  · exact lt_irrefl _ h
  · exact lt_irrefl _ h

theorem KeyPosLt.asymm {a b : Fin n} (h : KeyPosLt key a b) : ¬ KeyPosLt key b a := by
  rintro (h' | ⟨h', e'⟩)
  · rcases h with h | ⟨_, e⟩
    · exact lt_asymm h h'
    · exact absurd e.symm (ne_of_lt h')
  · rcases h with h | ⟨h, _⟩
    · exact absurd e'.symm (ne_of_lt h)
    · exact lt_asymm h h'

/-- Inserting an earlier position than all those listed into a list in (key, position) order keeps that order:
    the insertion walks past the strictly smaller keys and stops at the first key that is not smaller, and among
    equal keys the inserted position is the earliest. -/
theorem pairwise_insertBefore_keyPos (a : Fin n) (l : List (Fin n)) (ha : ∀ b ∈ l, a < b)
    (hl : l.Pairwise (KeyPosLt key)) :
    (insertBefore (fun k k' => decide (key k < key k')) a l).Pairwise (KeyPosLt key) := by
  induction l with
  | nil => exact List.pairwise_singleton _ _
  | cons b l ih =>
    rw [List.pairwise_cons] at hl
    unfold insertBefore
    split
    · rename_i h
      have hba : key b < key a := by simpa using h
      refine List.pairwise_cons.mpr
        ⟨fun c hc => ?_, ih (fun c hc => ha c (List.mem_cons_of_mem b hc)) hl.2⟩
      rcases List.mem_cons.mp ((perm_insertBefore _ a l).mem_iff.mp hc) with rfl | hc'
      · exact Or.inl hba
      · exact hl.1 c hc'
    · rename_i h
      have hab : key a ≤ key b := by simpa using h
      refine List.pairwise_cons.mpr ⟨fun c hc => ?_, List.pairwise_cons.mpr hl⟩
      have hac : a < c := ha c hc
      rcases List.mem_cons.mp hc with rfl | hc'
      · rcases Nat.lt_or_eq_of_le hab with h1 | h1
        · exact Or.inl h1
        · exact Or.inr ⟨hac, h1⟩
      · rcases hl.1 c hc' with h2 | ⟨_, h2⟩
        · exact Or.inl (lt_of_le_of_lt hab h2)
        · rcases Nat.lt_or_eq_of_le hab with h1 | h1
          · exact Or.inl (h2 ▸ h1)
          · exact Or.inr ⟨hac, h1.trans h2⟩

/-- The stable sort of a strictly increasing list of positions lists them in (key, position) order. -/
theorem pairwise_stableSort_keyPos (l : List (Fin n)) (hl : l.Pairwise (· < ·)) :
    (stableSort (fun k k' => decide (key k < key k')) l).Pairwise (KeyPosLt key) := by
  induction l with
  | nil => exact List.Pairwise.nil
  | cons a l ih =>
    rw [List.pairwise_cons] at hl
    unfold stableSort
    exact pairwise_insertBefore_keyPos key a _
      (fun b hb => hl.1 b ((perm_stableSort _ l).mem_iff.mp hb)) (ih hl.2)

/-- Earlier sorted slots hold positions that come earlier in (key, position) order. -/
theorem sortedFrom_keyPosLt {p q : Fin n} (hpq : p < q) :
    KeyPosLt key (sortedFrom (fun k k' => decide (key k < key k')) p)
      (sortedFrom (fun k k' => decide (key k < key k')) q) := by
  have hp : ∀ a b : Fin (sortPositions n fun k k' => decide (key k < key k')).length, a < b →
      KeyPosLt key ((sortPositions n fun k k' => decide (key k < key k')).get a)
        ((sortPositions n fun k k' => decide (key k < key k')).get b) :=
    List.pairwise_iff_get.mp
      (pairwise_stableSort_keyPos key (List.finRange n) (List.sortedLT_finRange n).pairwise)
  unfold sortedFrom
  exact hp _ _ (by simp only [Fin.lt_def, Fin.val_cast]; exact hpq)

/-- … and conversely: the sorted slots are ordered exactly as the positions they hold. -/
theorem sortedFrom_keyPosLt_iff {p q : Fin n} :
    KeyPosLt key (sortedFrom (fun k k' => decide (key k < key k')) p)
      (sortedFrom (fun k k' => decide (key k < key k')) q) ↔ p < q := by
  refine ⟨fun h => ?_, sortedFrom_keyPosLt key⟩
  rcases lt_trichotomy p q with hlt | heq | hgt
  · exact hlt
  · exact absurd (heq ▸ h) (KeyPosLt.irrefl key _)
  · exact absurd (sortedFrom_keyPosLt key hgt) (KeyPosLt.asymm key h)

/-- The position in sorted slot p has exactly p predecessors in (key, position) order: the positions in the
    earlier slots. -/
theorem card_keyPosLt_sortedFrom (p : Fin n) :
    (Finset.univ.filter fun j' : Fin n =>
      KeyPosLt key j' (sortedFrom (fun k k' => decide (key k < key k')) p)).card = p.val := by
  have himg : (Finset.univ.filter fun j' : Fin n =>
        KeyPosLt key j' (sortedFrom (fun k k' => decide (key k < key k')) p))
      = (Finset.univ.filter fun q : Fin n => q < p).image
          (sortedFrom (fun k k' => decide (key k < key k'))) := by
    ext j'
    simp only [Finset.mem_filter, Finset.mem_univ, true_and, Finset.mem_image]
    constructor
    · intro h
      obtain ⟨q, rfl⟩ := sortedFrom_surjective (fun k k' => decide (key k < key k')) j'
      exact ⟨q, (sortedFrom_keyPosLt_iff key).mp h, rfl⟩
    · rintro ⟨q, hq, rfl⟩
      exact sortedFrom_keyPosLt key hq
  rw [himg, Finset.card_image_of_injective _ (sortedFrom_injective _), Finset.filter_gt_eq_Iio,
    Fin.card_Iio]

end keyPos

/-- **The stable sort places every position by its rank.** In the stable sort of the positions 0..n-1 by a
    natural key (strictly smaller key first, equal keys keeping their order), sorted slot p holds position j
    exactly when p is the number of positions that come before j in the order (key, position): those of strictly
    smaller key, plus the earlier positions of equal key. -/
theorem sortedFrom_eq_iff {n : ℕ} (key : Fin n → ℕ) (p j : Fin n) :
    sortedFrom (fun k k' => decide (key k < key k')) p = j ↔
      p.val = (Finset.univ.filter fun j' : Fin n => key j' < key j).card
            + (Finset.univ.filter fun j' : Fin n => j' < j ∧ key j' = key j).card := by
  -- the two filters partition the predecessors of j in (key, position) order
  have hsplit : ∀ j : Fin n,
      (Finset.univ.filter fun j' : Fin n => KeyPosLt key j' j).card
        = (Finset.univ.filter fun j' : Fin n => key j' < key j).card
          + (Finset.univ.filter fun j' : Fin n => j' < j ∧ key j' = key j).card := by
    intro j
    have : (Finset.univ.filter fun j' : Fin n => KeyPosLt key j' j)
        = (Finset.univ.filter fun j' : Fin n => key j' < key j)
          ∪ (Finset.univ.filter fun j' : Fin n => j' < j ∧ key j' = key j) := by
      ext j'
      simp only [Finset.mem_filter, Finset.mem_univ, true_and, Finset.mem_union]
      exact Iff.rfl
    rw [this]
    refine Finset.card_union_of_disjoint (Finset.disjoint_filter.mpr fun j' _ h1 h2 => ?_)
    exact absurd h2.2 (ne_of_lt h1)
  rw [← hsplit]
  constructor
  · rintro rfl
    exact (card_keyPosLt_sortedFrom key p).symm
  · intro h
    obtain ⟨q, rfl⟩ := sortedFrom_surjective (fun k k' => decide (key k < key k')) j
    rw [card_keyPosLt_sortedFrom] at h
    rw [Fin.ext h]

end Cert.Lib
-- ==== Proof.KIntB.lean ====
/-
  The kernel's label bookkeeping read as arithmetic on naturals, second half: the stable argsort of the strong labels,
  the class starts, the clipped slot, and the picked strong row.

  With strong labels s and weak labels w below 80:
  * the argsort at slot p is the position the stable sort by s (smaller label first, equal labels in row order) puts
    there: the row j with p = #{j' | s j' < s j} + #{j' < j | s j' = s j};
  * the inclusive running sum of the class histogram at class c is #{j | s j ≤ c}; shifted by one class with a zero
    in front it gives the class starts, start c = #{j | s j < c};
  * the slot of weak row i is start (w i) + sel i, below 8192 whenever the label w i occurs among the strong labels, so
    the clip to [0, 8191] and the wrap of a negative index leave it as it is, and the gather reads the argsort there;
  * by the counting facts about labelled rows that slot holds the first hit of weak row i; where the label does not
    occur the validity bit is 0 and the paired row is the word 0.
-/
import proofs.«427062_j43121471652524_2_alg».proof.Proof.KTerms
import proofs.«427062_j43121471652524_2_alg».proof.Proof.Spec
import proofs.«427062_j43121471652524_2_alg».proof.Proof.LibStableRank
import proofs.«427062_j43121471652524_2_alg».proof.Proof.Comb
import proofs.«427062_j43121471652524_2_alg».proof.Proof.KIntA
import Idealize.ShloMosaic.Lib.StableHlo.Predicate
import Idealize.ShloMosaic.Lib.SortFacts
import Idealize.ShloMosaic.Lib.ValueIdx
import Idealize.ShloMosaic.Lib.Pipeline.Value
import Mathlib.Algebra.BigOperators.Intervals
import Mathlib.Algebra.BigOperators.Fin
import Mathlib.Algebra.Order.BigOperators.Group.Finset

noncomputable section

namespace Cert.KernelIdeal.KIntB

open Idealize.ShloMosaic Idealize.ShloMosaic.ValueIdx Idealize.ShloMosaic.StableHlo.Predicate
open Cert.KernelIdeal Finset

/-! ## Generic facts: indices, the two-operand sort on one axis, a running fold of word addition -/

/-- the two spellings of a rank-1 index agree -/
theorem ofFin_eq_ix1 {n : ℕ} (k : Fin n) : Shape.Idx.ofFin k = ix1 k := by
  funext a; match a with | ⟨0, _⟩ => rfl

/-- On a rank-1 shape the second operand of a two-operand sort is read through one self-map of the positions. -/
theorem sort2_snd_rank1 {n : ℕ} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- A left fold of word addition that does not wrap is the sum of the values. -/
theorem toNat_foldl_addi {ι : Type} (l : List ι) (g : ι → BitVec 32) (v : BitVec 32)
    (h : v.toNat + (l.map fun n => (g n).toNat).sum < 2 ^ 32) :
    (l.foldl (fun r n => IntOp.addi r (g n)) v).toNat = v.toNat + (l.map fun n => (g n).toNat).sum := by
  induction l generalizing v with
  | nil => simp
  | cons a l ih =>
    simp only [List.foldl_cons, List.map_cons, List.sum_cons] at h ⊢
    have hadd : (IntOp.addi v (g a)).toNat = v.toNat + (g a).toNat := by
      show (v + g a).toNat = _
      rw [BitVec.toNat_add]; exact Nat.mod_eq_of_lt (by omega)
    rw [ih _ (by rw [hadd]; omega), hadd]; omega

/-! ## Word operations on vectors, read at an index -/

theorem addi_apply {s : Shape} {w : ℕ} (x y : IVec s w) (j : s.Idx) : addi x y j = x j + y j := rfl
theorem minsi_apply {s : Shape} {w : ℕ} (x y : IVec s w) (j : s.Idx) : minsi x y j = IntOp.minsi (x j) (y j) := rfl
theorem maxsi_apply {s : Shape} {w : ℕ} (x y : IVec s w) (j : s.Idx) : maxsi x y j = IntOp.maxsi (x j) (y j) := rfl
theorem cmpi_apply {s : Shape} {w : ℕ} (p : CmpIPredicate) (x y : IVec s w) (j : s.Idx) :
    cmpi p x y j = IntOp.cmpi p (x j) (y j) := rfl

/-! ## The kernel's words -/

section Decode
variable [Cert.KernelIdeal.Facts]
open Facts₀ Facts

/-- the broadcast constant reads its word everywhere -/
theorem splat_apply (v : BitVec 32) (j : S8192.Idx) : T.splat v j = v := rfl

/-- the printed comparator is the signed compare of the keys -/
theorem comparator_eq (l r : BitVec 32 × BitVec 32) : comparator_i32_i32_d0 l r = IntOp.cmpi .slt l.1 r.1 := rfl

/-- The argsort at slot p is the word of the position the stable sort by the label (as a natural) puts there. -/
theorem sorted_apply (a2 : IVec S8192 32) (hs : ∀ j : Fin 8192, (a2 (ix1 j)).toNat < 80) (p : Fin 8192) :
    T.sorted a2 (ix1 p)
      = BitVec.ofNat 32 (sortedFrom (fun k k' : Fin 8192 => decide ((a2 (ix1 k)).toNat < (a2 (ix1 k')).toNat)) p).val := by
  unfold T.sorted
  rw [sort2_snd_rank1]
  have hR : (fun k k' : Fin 8192 => comparator_i32_i32_d0 (a2 (Shape.Idx.ofFin k), iotaInDim S8192 32 0 (Shape.Idx.ofFin k))
        (a2 (Shape.Idx.ofFin k'), iotaInDim S8192 32 0 (Shape.Idx.ofFin k')) == 1#1)
      = fun k k' : Fin 8192 => decide ((a2 (ix1 k)).toNat < (a2 (ix1 k')).toNat) := by
    funext k k'
    show (IntOp.cmpi .slt (a2 (Shape.Idx.ofFin k)) (a2 (Shape.Idx.ofFin k')) == 1#1) = _
    rw [ofFin_eq_ix1, ofFin_eq_ix1, Bool.eq_iff_iff, beq_iff_eq, decide_eq_true_eq]
    exact slt_iff_toNat (by have := hs k; omega) (by have := hs k'; omega)
  rw [hR]
  exact iota_apply _

/-- A take from a rank-1 table at a column of in-range positions reads the table there. -/
theorem take_apply {N : ℕ} (d : GatherDims ⟨1, ![N]⟩ ⟨2, ![8192, 1]⟩ ⟨1, ![8192]⟩)
    (hcoll : d.collapsedSliceDims = [0]) (hob : d.operandBatchingDims = [])
    (hsim : d.startIndexMap = [0]) (hivd : d.indexVectorDim = 1)
    (tbl : (⟨1, ![N]⟩ : Shape).Idx → BitVec 32) (v : IVec S8192 32) (i : Fin 8192)
    (hv : (v (ix1 i)).toNat < N) (hN : N < 2 ^ 31) :
    Host.gather d tbl (broadcastInDim S8192x1 ![0] bcast_S8192_S8192x1_0 v) (ix1 i)
      = tbl (ix1 ⟨(v (ix1 i)).toNat, hv⟩) := by
  have hpos : 0 < N := by omega
  have hg := gather_take d hcoll hob hsim hivd tbl (broadcastInDim S8192x1 ![0] bcast_S8192_S8192x1_0 v) i hpos
  have hb : broadcastInDim S8192x1 ![0] bcast_S8192_S8192x1_0 v (ixP i) = v (ix1 i) := by
    rw [← ofFin_eq_ix1]; exact bcast_col1 _ v i
  simp only [ofFin_eq_ix1] at hg
  rw [hg]
  congr 3
  rw [hb]
  rw [toInt_eq_toNat_of_lt (by omega), Int.toNat_natCast]
  omega

/-- a label below 80 is not wrapped -/
theorem wrap80_apply (a3 : IVec S8192 32) (i : Fin 8192) (hw : (a3 (ix1 i)).toNat < 80) :
    T.wrap80 a3 (ix1 i) = a3 (ix1 i) := by
  unfold T.wrap80
  rw [select_apply]
  have h0 : cmpi .slt a3 (T.splat 0#32) (ix1 i) = 0#1 := by
    apply eq_zero_of_ne_one
    rw [cmpi_apply, splat_apply, slt_iff_toNat (by omega) (by decide)]
    simp
  rw [h0, select_zero]

/-- a table of 80 words read at a label below 80 is the table's word at that label -/
theorem at80_apply (tbl : IVec S80 32) (a3 : IVec S8192 32) (i : Fin 8192) (hw : (a3 (ix1 i)).toNat < 80) :
    T.at80 tbl a3 (ix1 i) = tbl (ix1 ⟨(a3 (ix1 i)).toNat, hw⟩) := by
  unfold T.at80
  have hv : (T.wrap80 a3 (ix1 i)).toNat < 80 := by rw [wrap80_apply a3 i hw]; exact hw
  rw [take_apply gather_S80_S8192x1_S8192_n_0_n_n_0_1_1 rfl rfl rfl rfl tbl (T.wrap80 a3) i hv (by norm_num)]
  congr 3
  rw [wrap80_apply a3 i hw]

end Decode

section Cum

/-- A left fold of word addition from zero whose values sum (without wrapping) to S reads S. -/
theorem toNat_foldl_addi_zero {ι : Type} (l : List ι) (g : ι → BitVec 32) (S : ℕ)
    (hS : (l.map fun n => (g n).toNat).sum = S) (hlt : S < 2 ^ 32) :
    (l.foldl (fun r n => IntOp.addi r (g n)) 0#32).toNat = S := by
  rw [toNat_foldl_addi l g 0#32 (by rw [hS]; simpa using hlt), hS]
  simp

/-- A window of 80 ending at position c + k - 79 … summed over the window offsets k is the sum up to c. -/
theorem sum_window_shift (f : ℕ → ℕ) (c : ℕ) (hc : c < 80) :
    ∑ k ∈ range 80, (if 79 ≤ c + k then f (c + k - 79) else 0) = ∑ m ∈ range (c + 1), f m := by
  rw [Finset.range_eq_Ico, ← Finset.sum_Ico_consecutive _ (Nat.zero_le (79 - c)) (by omega : 79 - c ≤ 80)]
  rw [Finset.sum_eq_zero (s := Ico 0 (79 - c)) (by
    intro k hk
    rw [Finset.mem_Ico] at hk
    rw [if_neg (by omega)])]
  rw [zero_add, Finset.sum_Ico_eq_sum_range]
  have e : 80 - (79 - c) = c + 1 := by omega
  rw [e]
  apply Finset.sum_congr rfl
  intro m hm
  rw [Finset.mem_range] at hm
  rw [if_pos (by omega)]
  congr 1
  omega

/-- The inclusive running sum of a table of 80 words (a window of 80, padded 79 in front), as naturals. -/
theorem cumsum80_toNat (x : IVec S80 32) {u : Shape} (init : u.Idx → BitVec 32)
    (h : S80.ReduceWindows (![80] : Fin 1 → ℕ) ![1] ![79] ![0] S80) (hu : 0 < u.numel)
    (hinit : init (Shape.Idx.first hu) = 0#32) (f : ℕ → ℕ) (hf : ∀ c : Fin 80, (x (ix1 c)).toNat = f c.val)
    (hbound : ∑ m ∈ range 80, f m < 2 ^ 32) (c : Fin 80) :
    (Host.reduceWindow IntOp.addi ![80] ![1] ![79] ![0] x init h hu (ix1 c)).toNat
      = ∑ m ∈ range (c.val + 1), f m := by
  have hcoord : ∀ n : Fin (⟨1, ![80]⟩ : Shape).numel, (((⟨1, ![80]⟩ : Shape).rowMajor.symm n) 0).val = n.val := by
    intro n
    have := Shape.rowMajor_val_one ((⟨1, ![80]⟩ : Shape).rowMajor.symm n)
    rw [Equiv.apply_symm_apply] at this
    exact this.symm
  have hN : (⟨1, ![80]⟩ : Shape).numel = 80 := Shape.numel_rank1 _
  have h0 : ∀ a : Fin 1, a = 0 := fun a => Subsingleton.elim _ _
  have hcl := c.isLt
  -- the list sum of the window's terms, once each term is known
  have hmap : ∀ F : Fin (⟨1, ![80]⟩ : Shape).numel → ℕ,
      (∀ n, F n = if 79 ≤ c.val + n.val then f (c.val + n.val - 79) else 0) →
      (List.map F (List.finRange (⟨1, ![80]⟩ : Shape).numel)).sum = ∑ m ∈ range (c.val + 1), f m := by
    intro F hF
    have : F = fun n => (fun k : ℕ => if 79 ≤ c.val + k then f (c.val + k - 79) else 0) n.val := funext hF
    rw [this, ← Fin.sum_univ_def, Fin.sum_univ_eq_sum_range (fun k : ℕ => if 79 ≤ c.val + k then f (c.val + k - 79) else 0), hN]
    exact sum_window_shift f c.val hcl
  have hle : ∑ m ∈ range (c.val + 1), f m < 2 ^ 32 :=
    lt_of_le_of_lt (Finset.sum_le_sum_of_subset (Finset.range_mono (by omega : c.val + 1 ≤ 80))) hbound
  unfold Host.reduceWindow
  dsimp only
  rw [hinit]
  refine toNat_foldl_addi_zero _ _ _ ?_ hle
  refine hmap _ (fun n => ?_)
  have hnl : n.val < 80 := by have := n.isLt; omega
  by_cases hc : 79 ≤ c.val + n.val
  · rw [dif_pos, if_pos hc, ← hf ⟨c.val + n.val - 79, by omega⟩]
    · congr 2
      funext a
      obtain rfl := h0 a
      apply Fin.ext
      show c.val * 1 + (((⟨1, ![80]⟩ : Shape).rowMajor.symm n) 0).val - 79 = c.val + n.val - 79
      rw [hcoord]; omega
    · intro a
      obtain rfl := h0 a
      show 79 ≤ c.val * 1 + (((⟨1, ![80]⟩ : Shape).rowMajor.symm n) 0).val
        ∧ c.val * 1 + (((⟨1, ![80]⟩ : Shape).rowMajor.symm n) 0).val - 79 < 80
      rw [hcoord]; omega
  · rw [dif_neg, if_neg hc]
    · rfl
    · intro hall
      have h1 := (hall 0).1
      change 79 ≤ c.val * 1 + (((⟨1, ![80]⟩ : Shape).rowMajor.symm n) 0).val at h1
      rw [hcoord] at h1; omega

end Cum

section Start
variable [Cert.KernelIdeal.Facts]
open Facts₀ Facts

/-- the rows with label below c, counted class by class -/
theorem sum_same_eq_smaller (s : Fin 8192 → ℕ) (c : ℕ) :
    ∑ m ∈ range c, (univ.filter fun j : Fin 8192 => s j = m).card = Spec.smaller s c := by
  unfold Spec.smaller
  have hmaps : ∀ j ∈ (univ.filter fun j : Fin 8192 => s j < c), s j ∈ range c := by
    intro j hj
    simp only [Finset.mem_filter, Finset.mem_univ, true_and] at hj
    exact Finset.mem_range.2 hj
  rw [Finset.card_eq_sum_card_fiberwise hmaps]
  apply Finset.sum_congr rfl
  intro m hm
  rw [Finset.mem_range] at hm
  rw [Finset.filter_filter]
  refine congrArg Finset.card (Finset.filter_congr fun j _ => ?_)
  constructor
  · intro h; exact ⟨by omega, h⟩
  · intro h; exact h.2

theorem smaller_le (s : Fin 8192 → ℕ) (c : ℕ) : Spec.smaller s c ≤ 8192 := by
  unfold Spec.smaller
  calc _ ≤ (univ : Finset (Fin 8192)).card := Finset.card_le_card (Finset.subset_univ _)
    _ = 8192 := by rw [Finset.card_univ, Fintype.card_fin]

/-- the inclusive running sum of the histogram at class c counts the rows with label at most c -/
theorem cumH_apply (a2 : IVec S8192 32) (c : Fin 80) :
    (T.cumH a2 (ix1 c)).toNat = Spec.smaller (fun j : Fin 8192 => (a2 (ix1 j)).toNat) (c.val + 1) := by
  unfold T.cumH
  rw [cumsum80_toNat (T.hist a2) _ reduceWindows_S80_S80_w80s1p79_0 h_S_ rfl
    (fun m => (univ.filter fun j : Fin 8192 => (a2 (ix1 j)).toNat = m).card) (fun c => KIntA.hist_apply a2 c)
    (by rw [sum_same_eq_smaller]; exact lt_of_le_of_lt (smaller_le _ _) (by norm_num)) c]
  exact sum_same_eq_smaller _ _

/-- the class starts: the number of rows with a smaller label -/
theorem start_apply (a2 : IVec S8192 32) (c : Fin 80) :
    (T.start a2 (ix1 c)).toNat = Spec.smaller (fun j : Fin 8192 => (a2 (ix1 j)).toNat) c.val := by
  unfold T.start
  have h0 : ∀ a : Fin 1, a = 0 := fun a => Subsingleton.elim _ _
  have hcl := c.isLt
  by_cases hc : c.val = 0
  · rw [concatenate_pair_apply_left (0 : Fin S80.rank) _ _ concatenates_S1_S79_S80_d0 (ix1 c) rfl
      (ix1 (⟨0, by norm_num⟩ : Fin 1)) (by
        intro b
        obtain rfl := h0 b
        show 0 = c.val
        omega)]
    rw [hc]
    show (0#32).toNat = _
    unfold Spec.smaller
    simp
  · rw [concatenate_pair_apply_right (0 : Fin S80.rank) _ _ concatenates_S1_S79_S80_d0 (ix1 c) rfl rfl
      (ix1 (⟨c.val - 1, by omega⟩ : Fin 79)) (by
        intro b hb
        obtain rfl := h0 b
        exact absurd rfl hb) (by
        show c.val - 1 + 1 = c.val
        omega)]
    rw [extractStridedSlice_apply ![0] (T.cumH a2) slices_S80_S79_0 _ (ix1 (⟨c.val - 1, by omega⟩ : Fin 80)) (by
        intro a
        obtain rfl := h0 a
        show c.val - 1 = 0 + (c.val - 1)
        omega)]
    rw [cumH_apply]
    congr 1
    show c.val - 1 + 1 = c.val
    omega

end Start

section Pick
variable [Cert.KernelIdeal.Facts]
open Facts₀ Facts

/-- a word in [0, 8191] is its own clip to that range -/
theorem clip_small (v : BitVec 32) (hv : v.toNat ≤ 8191) : IntOp.minsi 8191#32 (IntOp.maxsi 0#32 v) = v := by
  have hti : v.toInt = v.toNat := toInt_eq_toNat_of_lt (by omega)
  have h0 : (0#32 : BitVec 32).toInt = 0 := by decide
  have h8 : (8191#32 : BitVec 32).toInt = 8191 := by decide
  have hmax : IntOp.maxsi 0#32 v = v := by
    unfold IntOp.maxsi
    rw [if_neg]
    simp only [BitVec.slt, hti, h0, decide_eq_true_eq]; omega
  rw [hmax]
  unfold IntOp.minsi
  rw [if_neg]
  simp only [BitVec.slt, hti, h8, decide_eq_true_eq]; omega

/-- The paired strong row is the first hit of the weak row, or 0 when it has none. -/
theorem idx_isPick (a2 a3 : IVec S8192 32) (hs : ∀ j : Fin 8192, (a2 (ix1 j)).toNat < 80)
    (hw : ∀ i : Fin 8192, (a3 (ix1 i)).toNat < 80) (i : Fin 8192) :
    Spec.IsPick (fun j : Fin 8192 => (a2 (ix1 j)).toNat) (fun i : Fin 8192 => (a3 (ix1 i)).toNat) i
      (T.idx a2 a3 (ix1 i)).toNat := by
  have hvalid := KIntA.valid_apply a2 a3 hw i
  unfold T.idx
  rw [select_apply]
  by_cases hcnt : 0 < Spec.cnt (fun j : Fin 8192 => (a2 (ix1 j)).toNat) (fun i : Fin 8192 => (a3 (ix1 i)).toNat) i
  · rw [hvalid, if_pos hcnt, select_one]
    -- the slot: the class start of the weak label plus the selection offset, a slot of the sorted order
    have hP := Spec.smaller_add_sel_lt hcnt
    have hpos : (T.pos a2 a3 (ix1 i)).toNat
        = Spec.smaller (fun j : Fin 8192 => (a2 (ix1 j)).toNat) (a3 (ix1 i)).toNat
          + Spec.sel (fun j : Fin 8192 => (a2 (ix1 j)).toNat) (fun i : Fin 8192 => (a3 (ix1 i)).toNat) i := by
      unfold T.pos
      rw [addi_apply, BitVec.toNat_add, at80_apply _ a3 i (hw i), start_apply, KIntA.sel_apply a2 a3 hw i]
      simp only [Fin.val_mk]
      exact Nat.mod_eq_of_lt (by omega)
    have hclip : T.clipPos a2 a3 (ix1 i) = T.pos a2 a3 (ix1 i) := by
      unfold T.clipPos
      rw [minsi_apply, maxsi_apply, splat_apply, splat_apply]
      exact clip_small _ (by rw [hpos]; omega)
    have hwrap : T.wrapPos a2 a3 (ix1 i) = T.pos a2 a3 (ix1 i) := by
      unfold T.wrapPos
      rw [select_apply]
      have h0 : cmpi .slt (T.clipPos a2 a3) (T.splat 0#32) (ix1 i) = 0#1 := by
        apply eq_zero_of_ne_one
        rw [cmpi_apply, splat_apply, hclip, slt_iff_toNat (by rw [hpos]; omega) (by decide)]
        simp
      rw [h0, select_zero, hclip]
    have hlt : (T.wrapPos a2 a3 (ix1 i)).toNat < 8192 := by rw [hwrap, hpos]; exact hP
    have hpicked : T.picked a2 a3 (ix1 i) = T.sorted a2 (ix1 ⟨(T.wrapPos a2 a3 (ix1 i)).toNat, hlt⟩) := by
      unfold T.picked
      exact take_apply gather_S8192_S8192x1_S8192_n_0_n_n_0_1_1 rfl rfl rfl rfl (T.sorted a2) (T.wrapPos a2 a3) i hlt
        (by norm_num)
    rw [hpicked, sorted_apply a2 hs]
    -- the stable sort by the label places every row by its rank; its value is never computed
    generalize hσdef : sortedFrom (fun k k' : Fin 8192 => decide ((a2 (ix1 k)).toNat < (a2 (ix1 k')).toNat)) = σ
    have hσ : ∀ p j : Fin 8192, σ p = j ↔ p.val
        = Spec.smaller (fun j : Fin 8192 => (a2 (ix1 j)).toNat) (a2 (ix1 j)).toNat
          + Spec.before (fun j : Fin 8192 => (a2 (ix1 j)).toNat) j := by
      intro p j
      rw [← hσdef]
      exact Cert.Lib.sortedFrom_eq_iff (fun j : Fin 8192 => (a2 (ix1 j)).toNat) p j
    rw [BitVec.toNat_ofNat, Nat.mod_eq_of_lt (by have := (σ ⟨_, hlt⟩).isLt; omega)]
    exact Spec.isPick_of_sorted σ hσ i hcnt ⟨_, hlt⟩ (by
      simp only [Fin.val_mk]
      rw [hwrap, hpos])
  · rw [hvalid, if_neg hcnt, select_zero]
    rw [splat_apply, show (0#32 : BitVec 32).toNat = 0 from rfl]
    exact Spec.isPick_zero_of_cnt_eq_zero (by omega)

end Pick

end Cert.KernelIdeal.KIntB

end
-- ==== Proof.LibPlainDot.lean ====
/-
  A plain matrix product read at an element, at the extended reals: for dimension numbers that contract the left
  operand's axis 1 with the right operand's axis 0 and have no batch axis ([M, K] by [K, N]), the contraction at (p, q)
  is the sum over k of lhs[p, k] * rhs[k, q] — for a kernel's matmul into a zero accumulator and for the host's
  dot_general alike. General lemmas over any sizes; they import no program.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

/-- The plain dimension numbers over any well-formedness proof. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the output's row … -/
theorem lhs_0 (i : (⟨2, ![M, N]⟩ : Shape).Idx) (q : (plainDims M K N wf).contr.Idx) :
    ((plainDims M K N wf).lhsIdx i q 0).val = (i 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl
/-- … its column the contracted coordinate … -/
theorem lhs_1 (i : (⟨2, ![M, N]⟩ : Shape).Idx) (q : (plainDims M K N wf).contr.Idx) :
    ((plainDims M K N wf).lhsIdx i q 1).val = (q ⟨0, (Nat.one_pos : 0 < (plainDims M K N wf).contr.rank)⟩).val :=
  (plainDims M K N wf).lhsIdx_val_of_single rfl i q
/-- … the right operand's row the contracted coordinate … -/
theorem rhs_0 (i : (⟨2, ![M, N]⟩ : Shape).Idx) (q : (plainDims M K N wf).contr.Idx) :
    ((plainDims M K N wf).rhsIdx i q 0).val = (q ⟨0, (Nat.one_pos : 0 < (plainDims M K N wf).contr.rank)⟩).val :=
  (plainDims M K N wf).rhsIdx_val_of_single rfl i q
/-- … and its column the output's column. -/
theorem rhs_1 (i : (⟨2, ![M, N]⟩ : Shape).Idx) (q : (plainDims M K N wf).contr.Idx) :
    ((plainDims M K N wf).rhsIdx i q 1).val = (i 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- The contraction sum of the plain dimension numbers at (p, q), re-indexed by the contracted coordinate. -/
theorem plain_sum (l : (⟨2, ![M, K]⟩ : Shape).Idx → EReal) (r : (⟨2, ![K, N]⟩ : Shape).Idx → EReal) (p : Fin M) (q : Fin N) :
    ∑ k : (plainDims M K N wf).contr.Idx, l ((plainDims M K N wf).lhsIdx (ix2 p q) k) * r ((plainDims M K N wf).rhsIdx (ix2 p q) k)
      = ∑ k : Fin K, l (ix2 p k) * r (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_0 wf _ _
      | ⟨1, _⟩ => exact (lhs_1 wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_0 wf _ _).trans hk
      | ⟨1, _⟩ => exact rhs_1 wf _ _)
  rw [el, er]

/-- The same for any record of dimension numbers whose six lists are the plain ones. -/
theorem contr_sum_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf'⟩ := d
  dsimp only at hlc hrc hln hrn hlb hrb
  subst hlc hrc hln hrn hlb hrb
  exact plain_sum wf' l r p q

/-- A kernel's matmul into the zero accumulator, at (p, q): the sum over k of lhs[p, k] * rhs[k, q]. -/
theorem matmul_zero_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact contr_sum_apply d hlc hrc hln hrn hlb hrb l r p q

/-- The host's dot_general, at (p, q): the same sum. -/
theorem dotGeneral_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact contr_sum_apply d hlc hrc hln hrn hlb hrb l r p q

end Idealize.ShloMosaic.PlainDot

end
-- ==== Proof.KEnc.lean ====
/-
  The value of the first call: the linear encoder. At each of the 8 grid points t the body reads rows
  1024·t … 1024·t + 1023 of x [8192, 1024], the whole of w [1024, 128] and the bias row [1, 128], and writes
  x_block · w + bias to the same rows of the output [8192, 128]; on the extended reals the casts to bf16 and back are
  the identity and the product is accumulated onto zero. So the stored value at (p, q) is the sum over k of
  x_block[p, k] · w[k, q] plus bias[q] (`pay_apply`); each point's write-back is its block of rows of ONE array,
  x·W + b index by index (`encArr`, `flushed_eq`); row r lies in the block of point r / 1024, so the blocks cover the
  output (`cover`) and the array ends holding x·W + b (`final`); read at (i, e) after the call that is
  `Spec.encE` of the three arrays at the call's entry (`enc_value`).
-/
import proofs.«427062_j43121471652524_2_alg».proof.Proof.Gen.KernelIdeal.Frame
import proofs.«427062_j43121471652524_2_alg».proof.Proof.Spec
import proofs.«427062_j43121471652524_2_alg».proof.Proof.LibPlainDot
import Idealize.ShloMosaic.Lib.ValueIdx
import Idealize.ShloMosaic.Lib.Pipeline.Value
import Idealize.ShloMosaic.PureOps.Ideal.Laws

noncomputable section

namespace Cert.KernelIdeal.KEnc

open Cert.KernelIdeal Cert.KernelIdeal.Gen Idealize.ShloMosaic Idealize.ShloMosaic.ValueIdx Idealize.ShloMosaic.TcCoe Idealize.SL.Sem
open Idealize.ShloMosaic.Pipeline (Dat)
open scoped BigOperators

/-! ## The body's payload at an element -/

theorem hz : (![0, 0] : Fin 2 → Nat) = fun _ => 0 := funext fun a => by fin_cases a <;> rfl

/-- The bias row [1, 128] broadcast down the 1024 rows: at (p, q) the operand's coordinates are (0, q). -/
theorem bias_coords (q : Fin 128) (p : Fin 1024) : ∀ a : Fin S1x128.rank, ((ix2 (0 : Fin 1) q : S1x128.Idx) a).val
    = if S1x128.size a = 1 then 0 else ((ix2 p q : S1024x128.Idx) ⟨a.val + (S1024x128.rank - S1x128.rank), by have := a.isLt; show a.val + 0 < 2; omega⟩).val := by
  intro a
  match a with
  | ⟨0, _⟩ => rfl
  | ⟨1, _⟩ => rfl

/-- What the body stores, at (p, q): row p of the x block against column q of w, plus the bias at q. The casts to
    bf16 are the identity on the extended reals, and the product is accumulated onto zero. -/
theorem pay_apply (v0 : Vec Ideal S1024x1024 .f32) (v2 : Vec Ideal S1024x128 .f32) (v5 : Vec Ideal S1x128 .f32)
    (p : Fin 1024) (q : Fin 128) :
    k0_pay1 (F := Ideal) v0 v2 v5 (ix2 p q)
      = (∑ k : Fin 1024, (v0 (ix2 p k) : EReal) * (v2 (ix2 k q) : EReal)) + (v5 (ix2 0 q) : EReal) := by
  unfold k0_pay1
  refine (addf_apply _ _ _).trans ?_
  refine congrArg₂ (· + ·) ?_ ?_
  · refine (PlainDot.matmul_zero_apply dot_S1024x1024_S1024x128_S1024x128_1_0_0_1_n_n rfl rfl rfl rfl rfl rfl none
      (truncf .bf16 v0 bitsLt_bf16_f32) (truncf .bf16 v2 bitsLt_bf16_f32) p q).trans ?_
    rfl
  · rw [shapeCast_self]
    exact broadcastTo_apply v5 broadcasts_S1x128_S1024x128 (ix2 p q) (ix2 0 q) (bias_coords q p)

/-! ## The encoder's result as one array -/

/-- x·W + b over the whole [8192, 128] array, index by index. -/
def encArr (X : S8192x1024.Idx → EReal) (W : S1024x128.Idx → EReal) (b : S1x128.Idx → EReal) : S8192x128.Idx → EReal :=
  fun j => Spec.encE (fun i k => X (ix2 i k)) (fun k e => W (ix2 k e)) (fun e => b (ix2 0 e))
    ⟨(j 0).val, idx2_lt0 j⟩ ⟨(j 1).val, idx2_lt1 j⟩

/-- The payload of blocks that are rows T·1024 … T·1024 + 1023 of X, the whole of W and the whole of b is that block of rows
    of the encoder's array. -/
theorem pay_block (x0 : Vec Ideal S1024x1024 .f32) (x1 : Vec Ideal S1024x128 .f32) (x2 : Vec Ideal S1x128 .f32)
    (X : S8192x1024.Idx → EReal) (W : S1024x128.Idx → EReal) (b : S1x128.Idx → EReal) (T : Nat)
    (h0 : ∀ (p k : Fin 1024) (i : Fin 8192), i.val = T * 1024 + p.val → (x0 (ix2 p k) : EReal) = X (ix2 i k))
    (h1 : ∀ (k : Fin 1024) (q : Fin 128), (x1 (ix2 k q) : EReal) = W (ix2 k q))
    (h2 : ∀ q : Fin 128, (x2 (ix2 0 q) : EReal) = b (ix2 0 q))
    (p : Fin 1024) (q : Fin 128) (i : S8192x128.Idx) (hi0 : (i 0).val = T * 1024 + p.val) (hi1 : (i 1).val = q.val) :
    k0_pay1 (F := Ideal) x0 x1 x2 (ix2 p q) = encArr X W b i := by
  rw [pay_apply]
  unfold encArr Spec.encE
  have hq : (⟨(i 1).val, idx2_lt1 i⟩ : Fin 128) = q := Fin.ext hi1
  rw [hq, h2 q]
  refine congrArg₂ (· + ·) (Finset.sum_congr rfl fun k _ => ?_) rfl
  rw [h0 p k ⟨(i 0).val, idx2_lt0 i⟩ hi0, h1 k q]

/-! ## From blocks to the array -/

variable (V : (c : Dev nD) → (b : Ref sig .tc) → Buf (Elt Ideal) ((c : Thread nD τ).loc b))

/-- The windows' block indices at grid point t: x and the output move down the rows with t, w and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The x block at point t is rows 1024·t … 1024·t + 1023 of x. -/
theorem xblk_apply (c : Dev nD) (t : Fin cfg0.N) (p k : Fin 1024) (i : Fin 8192) (hi : i.val = t.val * 1024 + p.val) :
    (iblk0 V c 0 t : Vec Ideal S1024x1024 .f32) (ix2 p k) = (V c main_arg0 : S8192x1024.Idx → EReal) (ix2 i k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 1024 + 1 * p.val = i.val; rw [e0, hi]; omega
  | ⟨1, _⟩ => show win0_0.index t 1 * 1024 + 1 * k.val = k.val; rw [e1]; omega

/-- The w block at every point is the whole of w. -/
theorem wblk_apply (c : Dev nD) (t : Fin cfg0.N) (k : Fin 1024) (q : Fin 128) :
    (iblk0 V c 1 t : Vec Ideal S1024x128 .f32) (ix2 k q) = (V c main_arg6 : S1024x128.Idx → EReal) (ix2 k q) := by
  obtain ⟨-, -, e0, e1, -⟩ := idx_facts t
  unfold iblk0
  rw [View.read_apply]
  show V c main_arg6 _ = V c main_arg6 _
  congr 1
  funext a
  apply Fin.ext
  match a with
  | ⟨0, _⟩ => show win0_1.index t 0 * 1024 + 1 * k.val = k.val; rw [e0]; omega
  | ⟨1, _⟩ => show win0_1.index t 1 * 128 + 1 * q.val = q.val; rw [e1]; omega

/-- The bias block at every point is the whole bias row. -/
theorem bblk_apply (c : Dev nD) (t : Fin cfg0.N) (q : Fin 128) :
    (iblk0 V c 2 t : Vec Ideal S1x128 .f32) (ix2 0 q) = (V c main_v0 : S1x128.Idx → EReal) (ix2 0 q) := by
  obtain ⟨-, -, -, -, e0, e1, -⟩ := idx_facts t
  unfold iblk0
  rw [View.read_apply]
  show V c main_v0 _ = V c main_v0 _
  congr 1
  funext a
  apply Fin.ext
  match a with
  | ⟨0, _⟩ => show win0_2.index t 0 * 1 + 1 * 0 = 0; rw [e0]
  | ⟨1, _⟩ => show win0_2.index t 1 * 128 + 1 * q.val = q.val; rw [e1]; omega

/-- What point t writes back is block t (rows 1024·t … 1024·t + 1023) of the encoder's array of the arrays as the region
    finds them. -/
theorem flushed_eq (c : Dev nD) (t : Fin cfg0.N) :
    (dat0 V c).flushed 3 t
      = ((cfg0.win 3).blk t).view.read (Elt Ideal) (encArr (V c main_arg0) (V c main_arg6) (V c main_v0)) := by
  show (cfg0.win 3).cut (grid0.coords t) ((dat0 V c).after 3 t) = _
  rw [after0_3]
  unfold out0_3
  rw [View.canon_unit_zero hz]
  simp only [View.ld_unit_zero (S := S1024x1024) hz, View.ld_unit_zero (S := S1024x128) hz, View.ld_unit_zero (S := S1x128) hz]
  obtain ⟨-, -, -, -, -, -, e0, e1⟩ := idx_facts t
  funext j
  have hj0 : (j 0).val < 1024 := (j 0).isLt
  have hj1 : (j 1).val < 128 := (j 1).isLt
  have hj : (j : S1024x128.Idx) = ix2 (⟨(j 0).val, hj0⟩ : Fin 1024) (⟨(j 1).val, hj1⟩ : Fin 128) :=
    funext fun a => by match a with | ⟨0, _⟩ => rfl | ⟨1, _⟩ => rfl
  show k0_pay1 (F := Ideal) (iblk0 V c 0 t) (iblk0 V c 1 t) (iblk0 V c 2 t) j
      = encArr (V c main_arg0) (V c main_arg6) (V c main_v0) (((cfg0.win 3).blk t).view.emb j)
  refine (congrArg (k0_pay1 (F := Ideal) (iblk0 V c 0 t) (iblk0 V c 1 t) (iblk0 V c 2 t)) hj).trans ?_
  refine pay_block (iblk0 V c 0 t) (iblk0 V c 1 t) (iblk0 V c 2 t) (V c main_arg0) (V c main_arg6) (V c main_v0) t.val
    (fun p k i hi => xblk_apply V c t p k i hi) (fun k q => wblk_apply V c t k q) (fun q => bblk_apply V c t q)
    ⟨(j 0).val, hj0⟩ ⟨(j 1).val, hj1⟩ (((cfg0.win 3).blk t).view.emb j) ?_ ?_
  · show win0_3.index t (0 : Fin 2) * 1024 + 1 * (j 0).val = t.val * 1024 + (j 0).val
    rw [e0]; omega
  · show win0_3.index t (1 : Fin 2) * 128 + 1 * (j 1).val = (j 1).val
    rw [e1]; omega

/-- An index of the output array is in point t's block iff each coordinate is in the block's range on its axis. -/
theorem mem_blk (t : Fin cfg0.N) (i : S8192x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_v1).slice (win0_3.rect t)).set ↔ _
  rw [View.set_slice_whole, Rect.mem_set_unit]
  exact Iff.rfl

/-- Row r of the output is in the block of point r / 1024, which writes back. -/
theorem cover (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 8 := N_0
  have ht : (i 0).val / 1024 < cfg0.N := by rw [hN]; omega
  obtain ⟨-, -, -, -, -, -, e0, e1⟩ := idx_facts ⟨(i 0).val / 1024, ht⟩
  refine ⟨⟨(i 0).val / 1024, ht⟩, flush0_3 _, ?_⟩
  rw [mem_blk]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_3.index ⟨(i 0).val / 1024, ht⟩ (1 : Fin 2) * 128 ≤ (i 1).val
      ∧ (i 1).val < win0_3.index ⟨(i 0).val / 1024, ht⟩ (1 : Fin 2) * 128 + 128
    rw [e1]
    omega

/-- So the output array ends holding the encoder's array of the arrays as the region finds them. -/
theorem final (c : Dev nD) :
    (dat0 V c).arrAt 3 cfg0.N = encArr (V c main_arg0) (V c main_arg6) (V c main_v0) :=
  (dat0 V c).arrAt_eq_of_cover 3 (encArr (V c main_arg0) (V c main_arg6) (V c main_v0))
    (fun t _ => flushed_eq V c t) cover

/-! ## The value of the first call -/

variable (m : (ℓ : Loc nD τ sig) → Buf (Elt Ideal) ℓ) (ρ : Dev nD → PrngReg)

/-- After the first call its output array holds x·W + b of the arrays at the call's entry: x, w, and the bias row. -/
theorem enc_value (c : Dev nD) (i : Fin 8192) (e : Fin 128) :
    (Gen.W2 (F := Ideal) m ρ c (Proc.devRef .tc main_v1) : S8192x128.Idx → EReal) (ix2 i e)
      = Spec.encE (fun i k => (Gen.V1 (F := Ideal) m ρ c main_arg0 : S8192x1024.Idx → EReal) (ix2 i k))
                  (fun k e => (Gen.V1 (F := Ideal) m ρ c main_arg6 : S1024x128.Idx → EReal) (ix2 k e))
                  (fun e => (Gen.V1 (F := Ideal) m ρ c main_v0 : S1x128.Idx → EReal) (ix2 0 e)) i e := by
  have h : Gen.W2 (F := Ideal) m ρ c (Proc.devRef .tc main_v1)
      = encArr (Gen.V1 (F := Ideal) m ρ c main_arg0) (Gen.V1 (F := Ideal) m ρ c main_arg6) (Gen.V1 (F := Ideal) m ρ c main_v0) :=
    (W2_arr m ρ c 3).trans (final (V1 m ρ) c)
  refine (congrFun h (ix2 i e)).trans ?_
  rfl

end Cert.KernelIdeal.KEnc

end
-- ==== Proof.KBody.lean ====
/-
  The body of the second kernel call as mathematics, over variable blocks.

  One grid point of the loss kernel reads a [1024, 1024] block of weak features x0, the weights x1 [1024, 128], the
  bias row x2 [1, 128], the gathered key rows x3 [1024, 128], the re-laid queue x4 [128, 1024] and the validity column
  x5 [1024, 1], and leaves a [1, 8, 128] tile that is zero except at two entries:

    [0, 0, 0]  the sum over the tile's rows r of  rowK (lpE q_r k_r) (lnE q_r x4) * x5[r, 0],
    [0, 1, 0]  the sum over the tile's rows r of  x5[r, 0],

  where q_r = x0[r, :] · x1 + x2 is the encoded query row, k_r = x3[r, :] its key row, lpE the positive logit, lnE the
  1024 negative logits, and rowK the cross-entropy of target 0 arranged as maximum + log-sum-exp of the shifted logits
  − positive logit.

  The proof reads each operation at an index: the matrix products into a zero accumulator are sums over the contracted
  coordinate, a change of float format is the identity on the extended reals, a reduction along one axis is the sum (or,
  from the least element, the supremum) over that axis's coordinates, a keep-dimension column is read through its
  cast and its broadcast, and the two masks built from the sublane and lane numbers decide at the literal coordinates.
-/
import proofs.«427062_j43121471652524_2_alg».proof.Proof.Gen.KernelIdeal.Frame
import proofs.«427062_j43121471652524_2_alg».proof.Proof.Spec
import proofs.«427062_j43121471652524_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KBody

open Idealize.ShloMosaic Idealize.ShloMosaic.ValueIdx Cert.KernelIdeal
open Facts₀ Facts

/-! ## Layout operations and one-axis reductions of a matrix, read at coordinates -/

section General
variable {α : Type}

/-- A vector of length a viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single entry [1, 1] broadcast to [a, b] reads that entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end General

/-- The sum along the rows of a matrix: at row r, the sum over the columns. -/
theorem rowsum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ src acc h hφ hacc (ix1 r) = ∑ e : Fin b, src (ix2 r e) := by
  refine (Ideal.multiReduction_add_single src acc h hφ hacc (ix1 r)).trans ?_
  show ∑ e : Fin b, src (h.lift (ix1 r) e) = _
  refine Finset.sum_congr rfl fun e _ => congrArg src ?_
  funext c
  match c with
  | ⟨0, _⟩ => exact Fin.ext rfl
  | ⟨1, _⟩ => exact Fin.ext rfl

/-- The sum down the columns of a matrix: at column c, the sum over the rows. -/
theorem colsum_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.add.neutral .f32 hφ) (c : Fin b) :
    multiReduction .add [0] ⟨1, ![b]⟩ src acc h hφ hacc (ix1 c) = ∑ r : Fin a, src (ix2 r c) := by
  refine (Ideal.multiReduction_add_single src acc h hφ hacc (ix1 c)).trans ?_
  show ∑ r : Fin a, src (h.lift (ix1 c) r) = _
  refine Finset.sum_congr rfl fun r _ => congrArg src ?_
  funext d
  match d with
  | ⟨0, _⟩ => exact Fin.ext rfl
  | ⟨1, _⟩ => exact Fin.ext rfl

/-- Folding max from the least element is the supremum. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The maximum along the rows of a matrix, from the least element: at row r, the supremum over the columns. -/
theorem rowmax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (hbot : Ideal.ofBits .f32 acc = ⊥) (r : Fin a) :
    multiReduction .maximumf [1] ⟨1, ![a]⟩ src acc h hφ hacc (ix1 r) = Finset.univ.sup fun n : Fin b => src (ix2 r n) := by
  refine (Ideal.multiReduction_maximumf_single src acc h hφ hacc (ix1 r)).trans ?_
  have e : (FloatOps.ofBits .f32 acc : Ideal .f32) = ⊥ := hbot
  rw [e]
  refine (fold_max_bot_eq_sup _ _).trans ?_
  show (Finset.univ : Finset (Fin b)).sup (fun n => src (h.lift (ix1 r) n)) = _
  refine congrArg (Finset.univ.sup) (funext fun n => congrArg src ?_)
  funext c
  match c with
  | ⟨0, _⟩ => exact Fin.ext rfl
  | ⟨1, _⟩ => exact Fin.ext rfl

/-! ## The store and the loads through whole buffers -/

theorem hz2 : (![0, 0] : Fin 2 → Nat) = fun _ => 0 := funext fun a => by
  match a with | ⟨0, _⟩ => rfl | ⟨1, _⟩ => rfl
theorem hz3 : (![0, 0, 0] : Fin 3 → Nat) = fun _ => 0 := funext fun a => by
  match a with | ⟨0, _⟩ => rfl | ⟨1, _⟩ => rfl | ⟨2, _⟩ => rfl

/-- The body's one store covers the whole output block and its loads read whole blocks: the block it leaves is the
    stored tile of the two partial sums. -/
theorem out_eq (x0 : Vec Ideal S1024x1024 .f32) (x1 : Vec Ideal S1024x128 .f32) (x2 : Vec Ideal S1x128 .f32)
    (x3 : Vec Ideal S1024x128 .f32) (x4 : Vec Ideal S128x1024 .f32) (x5 : Vec Ideal S1024x1 .f32) :
    Gen.out1_6 (F := Ideal) x0 x1 x2 x3 x4 x5 = Gen.k1_pay1 (Gen.k1_pay3 x0 x1 x2 x3 x4 x5) (Gen.k1_pay4 x5) := by
  unfold Gen.out1_6
  rw [View.canon_unit_zero hz3]
  simp only [View.ld_unit_zero (S := S1024x1024) hz2, View.ld_unit_zero (S := S1024x128) hz2,
    View.ld_unit_zero (S := S1x128) hz2, View.ld_unit_zero (S := S128x1024) hz2, View.ld_unit_zero (S := S1024x1) hz2]

/-! ## The stored tile at its two live entries -/

/-- The mask "sublane 0 and lane 0" holds at (0, 0) … -/
theorem mask0_at00 :
    andi (cmpi .eq (iota .tc S8x128 32 [0] iota_S8x128_d0_w32) (broadcast S8x128 0#32))
      (cmpi .eq (iota .tc S8x128 32 [1] iota_S8x128_d1_w32) (broadcast S8x128 0#32)) (ix2 (0 : Fin 8) (0 : Fin 128)) = 1#1 := by
  decide
/-- … and fails at (1, 0); -/
theorem mask0_at10 :
    andi (cmpi .eq (iota .tc S8x128 32 [0] iota_S8x128_d0_w32) (broadcast S8x128 0#32))
      (cmpi .eq (iota .tc S8x128 32 [1] iota_S8x128_d1_w32) (broadcast S8x128 0#32)) (ix2 (1 : Fin 8) (0 : Fin 128)) = 0#1 := by
  decide
/-- the mask "sublane 1 and lane 0" fails at (0, 0) … -/
theorem mask1_at00 :
    andi (cmpi .eq (iota .tc S8x128 32 [0] iota_S8x128_d0_w32) (broadcast S8x128 1#32))
      (cmpi .eq (iota .tc S8x128 32 [1] iota_S8x128_d1_w32) (broadcast S8x128 0#32)) (ix2 (0 : Fin 8) (0 : Fin 128)) = 0#1 := by
  decide
/-- … and holds at (1, 0). -/
theorem mask1_at10 :
    andi (cmpi .eq (iota .tc S8x128 32 [0] iota_S8x128_d0_w32) (broadcast S8x128 1#32))
      (cmpi .eq (iota .tc S8x128 32 [1] iota_S8x128_d1_w32) (broadcast S8x128 0#32)) (ix2 (1 : Fin 8) (0 : Fin 128)) = 1#1 := by
  decide

/-- The stored tile at [0, 0, 0] is the first partial sum. -/
theorem pay1_at000 (s n : FVec Ideal S1x1 .f32) :
    Gen.k1_pay1 (F := Ideal) s n (ix3 (0 : Fin 1) (0 : Fin 8) (0 : Fin 128)) = s (ix2 (0 : Fin 1) (0 : Fin 1)) := by
  unfold Gen.k1_pay1
  refine (shapeCast_ab_1ab_apply _ _ (0 : Fin 1) (0 : Fin 8) (0 : Fin 128)).trans ?_
  refine (addf_apply _ _ _).trans ?_
  rw [select_apply, select_apply, mask0_at00, mask1_at00, select_one, select_zero, broadcastTo_11_ab_apply, shapeCast_self]
  show s (ix2 (0 : Fin 1) (0 : Fin 1)) + Ideal.ofBits .f32 0x00000000#32 = _
  rw [Ideal.ofBits_zero_f32, add_zero]

/-- The stored tile at [0, 1, 0] is the second partial sum. -/
theorem pay1_at010 (s n : FVec Ideal S1x1 .f32) :
    Gen.k1_pay1 (F := Ideal) s n (ix3 (0 : Fin 1) (1 : Fin 8) (0 : Fin 128)) = n (ix2 (0 : Fin 1) (0 : Fin 1)) := by
  unfold Gen.k1_pay1
  refine (shapeCast_ab_1ab_apply _ _ (0 : Fin 1) (1 : Fin 8) (0 : Fin 128)).trans ?_
  refine (addf_apply _ _ _).trans ?_
  rw [select_apply, select_apply, mask0_at10, mask1_at10, select_zero, select_one, broadcastTo_11_ab_apply, shapeCast_self]
  show Ideal.ofBits .f32 0x00000000#32 + n (ix2 (0 : Fin 1) (0 : Fin 1)) = _
  rw [Ideal.ofBits_zero_f32, zero_add]

/-! ## The second partial sum: the tile's sum of the validity column -/

/-- The validity column passes through a cast to its own shape. -/
theorem pay2_eq (x5 : Vec Ideal S1024x1 .f32) : Gen.k1_pay2 (F := Ideal) x5 = x5 := by
  unfold Gen.k1_pay2; exact shapeCast_self _ _

/-- The second partial sum is the sum of the validity column over the tile's rows. -/
theorem pay4_at00 (x5 : Vec Ideal S1024x1 .f32) :
    Gen.k1_pay4 (F := Ideal) x5 (ix2 (0 : Fin 1) (0 : Fin 1)) = ∑ r : Fin 1024, x5 (ix2 r (0 : Fin 1)) := by
  unfold Gen.k1_pay4
  refine (shapeCast_a_1a_apply _ _ (0 : Fin 1) (0 : Fin 1)).trans ?_
  refine (colsum_apply _ _ _ _ _ (0 : Fin 1)).trans ?_
  rw [pay2_eq]

/-! ## The first partial sum, stage by stage

The payload is cut at its intermediate arrays: the encoder's output block, the positive logit column, the negative
logit matrix, the row loss, and the weighted sum over the tile's rows. Each stage is read at an index over variable
operands; the payload is their composition. -/

/-- the encoder's output block: the weak features' rows times the weights, plus the bias row -/
def enc (x0 : Vec Ideal S1024x1024 .f32) (x1 : Vec Ideal S1024x128 .f32) (x2 : Vec Ideal S1x128 .f32) :
    FVec Ideal S1024x128 .f32 :=
  addf (matmul dot_S1024x1024_S1024x128_S1024x128_1_0_0_1_n_n none (truncf .bf16 x0 bitsLt_bf16_f32)
      (truncf .bf16 x1 bitsLt_bf16_f32) (constant S1024x128 .f32 0x00000000#32))
    (broadcastTo S1024x128 (shapeCast S1x128 x2 shapeCasts_S1x128_S1x128) broadcasts_S1x128_S1024x128)

/-- the positive logit column: each query row against its gathered key row -/
def pos (q : FVec Ideal S1024x128 .f32) (x3 : Vec Ideal S1024x128 .f32) : FVec Ideal S1024x1 .f32 :=
  shapeCast S1024x1 (multiReduction .add [1] S1024 (mulf q (shapeCast S1024x128 x3 shapeCasts_S1024x128_S1024x128))
    0x00000000#32 reduces_S1024x128_S1024 (.inl rfl) rfl) shapeCasts_S1024_S1024x1

/-- the negative logit matrix: the query rows against the re-laid queue -/
def negs (q : FVec Ideal S1024x128 .f32) (x4 : Vec Ideal S128x1024 .f32) : FVec Ideal S1024x1024 .f32 :=
  matmul dot_S1024x128_S128x1024_S1024x1024_1_0_0_1_n_n none (truncf .bf16 q bitsLt_bf16_f32)
    (truncf .bf16 (shapeCast S128x1024 x4 shapeCasts_S128x1024_S128x1024) bitsLt_bf16_f32)
    (constant S1024x1024 .f32 0x00000000#32)

/-- the column of row maxima of the negative logits, from the least element -/
def rowTop (g : FVec Ideal S1024x1024 .f32) : FVec Ideal S1024x1 .f32 :=
  shapeCast S1024x1 (multiReduction .maximumf [1] S1024 g 0xFF800000#32 reduces_S1024x1024_S1024 (.inl rfl) rfl)
    shapeCasts_S1024_S1024x1

/-- the column of the maxima over all 1 + 1024 logits of a row -/
def rowM (p : FVec Ideal S1024x1 .f32) (g : FVec Ideal S1024x1024 .f32) : FVec Ideal S1024x1 .f32 :=
  maximumf p (rowTop g)

/-- the row loss column: maximum plus log-sum-exp of the shifted logits, minus the positive logit -/
def rowLoss (p : FVec Ideal S1024x1 .f32) (g : FVec Ideal S1024x1024 .f32) : FVec Ideal S1024x1 .f32 :=
  subf (addf (rowM p g) (log (addf (exp (subf p (rowM p g)))
    (shapeCast S1024x1 (multiReduction .add [1] S1024
      (exp (subf g (broadcastTo S1024x1024 (rowM p g) broadcasts_S1024x1_S1024x1024)))
      0x00000000#32 reduces_S1024x1024_S1024 (.inl rfl) rfl) shapeCasts_S1024_S1024x1)))) p

/-- the weighted sum of a loss column over the tile's rows -/
def tileSum (l : FVec Ideal S1024x1 .f32) (x5 : Vec Ideal S1024x1 .f32) : FVec Ideal S1x1 .f32 :=
  shapeCast S1x1 (multiReduction .add [0] S1 (mulf l (Gen.k1_pay2 x5)) 0x00000000#32 reduces_S1024x1_S1 (.inl rfl) rfl)
    shapeCasts_S1_S1x1

/-- The payload is the composition of the stages. -/
theorem pay3_eq (x0 : Vec Ideal S1024x1024 .f32) (x1 : Vec Ideal S1024x128 .f32) (x2 : Vec Ideal S1x128 .f32)
    (x3 : Vec Ideal S1024x128 .f32) (x4 : Vec Ideal S128x1024 .f32) (x5 : Vec Ideal S1024x1 .f32) :
    Gen.k1_pay3 (F := Ideal) x0 x1 x2 x3 x4 x5
      = tileSum (rowLoss (pos (enc x0 x1 x2) x3) (negs (enc x0 x1 x2) x4)) x5 := rfl

/-- The encoder's output at (r, e): the row of weak features against column e of the weights, plus the bias at e. -/
theorem enc_apply (x0 : Vec Ideal S1024x1024 .f32) (x1 : Vec Ideal S1024x128 .f32) (x2 : Vec Ideal S1x128 .f32)
    (r : Fin 1024) (e : Fin 128) :
    enc x0 x1 x2 (ix2 r e) = (∑ k : Fin 1024, x0 (ix2 r k) * x1 (ix2 k e)) + x2 (ix2 (0 : Fin 1) e) := by
  unfold enc
  refine (addf_apply _ _ _).trans ?_
  refine congrArg₂ (· + ·) ?_ ?_
  · exact PlainDot.matmul_zero_apply dot_S1024x1024_S1024x128_S1024x128_1_0_0_1_n_n rfl rfl rfl rfl rfl rfl none
      (truncf .bf16 x0 bitsLt_bf16_f32) (truncf .bf16 x1 bitsLt_bf16_f32) r e
  · refine (broadcastTo_1b_ab_apply _ _ r e).trans ?_
    rw [shapeCast_self]

/-- The positive logit of row r: the query row against the key row, summed over the 128 features. -/
theorem pos_apply (q : FVec Ideal S1024x128 .f32) (x3 : Vec Ideal S1024x128 .f32) (r : Fin 1024) :
    pos q x3 (ix2 r (0 : Fin 1)) = ∑ e : Fin 128, q (ix2 r e) * x3 (ix2 r e) := by
  unfold pos
  refine (shapeCast_a_a1_apply _ _ r (0 : Fin 1)).trans ?_
  refine (rowsum_apply _ _ _ _ _ r).trans ?_
  rw [shapeCast_self]
  exact Finset.sum_congr rfl fun e _ => mulf_apply _ _ _

/-- The negative logit of row r against queue column n: summed over the 128 features. -/
theorem negs_apply (q : FVec Ideal S1024x128 .f32) (x4 : Vec Ideal S128x1024 .f32) (r : Fin 1024) (n : Fin 1024) :
    negs q x4 (ix2 r n) = ∑ e : Fin 128, q (ix2 r e) * x4 (ix2 e n) := by
  unfold negs
  rw [shapeCast_self]
  exact PlainDot.matmul_zero_apply dot_S1024x128_S128x1024_S1024x1024_1_0_0_1_n_n rfl rfl rfl rfl rfl rfl none
    (truncf .bf16 q bitsLt_bf16_f32) (truncf .bf16 x4 bitsLt_bf16_f32) r n

/-- The accumulator word of the row maximum denotes the least element. -/
theorem ofBits_neg_inf : Ideal.ofBits .f32 0xFF800000#32 = ⊥ := by simp [Ideal.ofBits, Ideal.ieee]

/-- The row maximum of the negative logits at row r is their supremum. -/
theorem rowTop_apply (g : FVec Ideal S1024x1024 .f32) (r : Fin 1024) :
    rowTop g (ix2 r (0 : Fin 1)) = Finset.univ.sup fun n : Fin 1024 => g (ix2 r n) := by
  unfold rowTop
  refine (shapeCast_a_a1_apply _ _ r (0 : Fin 1)).trans ?_
  exact rowmax_apply g _ _ _ _ ofBits_neg_inf r

/-- The maximum over all logits of row r. -/
theorem rowM_apply (p : FVec Ideal S1024x1 .f32) (g : FVec Ideal S1024x1024 .f32) (r : Fin 1024) :
    rowM p g (ix2 r (0 : Fin 1)) = max (p (ix2 r (0 : Fin 1))) (Finset.univ.sup fun n : Fin 1024 => g (ix2 r n)) := by
  unfold rowM
  refine (maximumf_apply _ _ _).trans ?_
  rw [rowTop_apply]

/-- The row loss at row r is the kernel's arrangement of the cross-entropy of that row's logits. -/
theorem rowLoss_apply (p : FVec Ideal S1024x1 .f32) (g : FVec Ideal S1024x1024 .f32) (r : Fin 1024) :
    rowLoss p g (ix2 r (0 : Fin 1)) = Spec.rowK (p (ix2 r (0 : Fin 1))) (fun n => g (ix2 r n)) := by
  have hm := rowM_apply p g r
  unfold rowLoss Spec.rowK
  refine (subf_apply _ _ _).trans ?_
  refine congrArg (· - p (ix2 r (0 : Fin 1))) ?_
  refine (addf_apply _ _ _).trans ?_
  refine congrArg₂ (· + ·) hm ?_
  refine congrArg Ideal.log ?_
  refine (addf_apply _ _ _).trans ?_
  refine congrArg₂ (· + ·) ?_ ?_
  · refine congrArg Ideal.exp ?_
    refine (subf_apply _ _ _).trans ?_
    rw [hm]
  · refine (shapeCast_a_a1_apply _ _ r (0 : Fin 1)).trans ?_
    refine (rowsum_apply _ _ _ _ _ r).trans ?_
    refine Finset.sum_congr rfl fun n _ => ?_
    refine congrArg Ideal.exp ?_
    refine (subf_apply _ _ _).trans ?_
    rw [broadcastTo_a1_ab_apply, hm]

/-- The weighted sum over the tile's rows. -/
theorem tileSum_apply (l : FVec Ideal S1024x1 .f32) (x5 : Vec Ideal S1024x1 .f32) :
    tileSum l x5 (ix2 (0 : Fin 1) (0 : Fin 1)) = ∑ r : Fin 1024, l (ix2 r (0 : Fin 1)) * x5 (ix2 r (0 : Fin 1)) := by
  unfold tileSum
  refine (shapeCast_a_1a_apply _ _ (0 : Fin 1) (0 : Fin 1)).trans ?_
  refine (colsum_apply _ _ _ _ _ (0 : Fin 1)).trans ?_
  rw [pay2_eq]
  exact Finset.sum_congr rfl fun r _ => mulf_apply _ _ _

/-- The first partial sum: the tile's rows' losses weighted by the validity column. -/
theorem pay3_at00 (x0 : Vec Ideal S1024x1024 .f32) (x1 : Vec Ideal S1024x128 .f32) (x2 : Vec Ideal S1x128 .f32)
    (x3 : Vec Ideal S1024x128 .f32) (x4 : Vec Ideal S128x1024 .f32) (x5 : Vec Ideal S1024x1 .f32) :
    Gen.k1_pay3 (F := Ideal) x0 x1 x2 x3 x4 x5 (ix2 (0 : Fin 1) (0 : Fin 1))
      = ∑ r : Fin 1024, Spec.rowK
          (Spec.lpE (fun e => (∑ k : Fin 1024, x0 (ix2 r k) * x1 (ix2 k e)) + x2 (ix2 0 e)) (fun e => x3 (ix2 r e)))
          (Spec.lnE (fun e => (∑ k : Fin 1024, x0 (ix2 r k) * x1 (ix2 k e)) + x2 (ix2 0 e)) (fun e n => x4 (ix2 e n)))
          * x5 (ix2 r 0) := by
  refine (congrFun (pay3_eq x0 x1 x2 x3 x4 x5) _).trans ?_
  refine (tileSum_apply _ _).trans ?_
  refine Finset.sum_congr rfl fun r _ => congrArg (· * x5 (ix2 r (0 : Fin 1))) ?_
  refine (rowLoss_apply _ _ r).trans ?_
  refine congrArg₂ Spec.rowK ?_ ?_
  · refine (pos_apply _ _ r).trans ?_
    unfold Spec.lpE
    exact Finset.sum_congr rfl fun e _ => by rw [enc_apply]
  · funext n
    refine (negs_apply _ _ r n).trans ?_
    unfold Spec.lnE
    exact Finset.sum_congr rfl fun e _ => by rw [enc_apply]

/-! ## The block the body leaves, at its two live entries -/

theorem out_ce (x0 : Vec Ideal S1024x1024 .f32) (x1 : Vec Ideal S1024x128 .f32) (x2 : Vec Ideal S1x128 .f32)
    (x3 : Vec Ideal S1024x128 .f32) (x4 : Vec Ideal S128x1024 .f32) (x5 : Vec Ideal S1024x1 .f32) :
    Gen.out1_6 (F := Ideal) x0 x1 x2 x3 x4 x5 (ix3 0 0 0)
      = ∑ r : Fin 1024, Spec.rowK
          (Spec.lpE (fun e => (∑ k : Fin 1024, x0 (ix2 r k) * x1 (ix2 k e)) + x2 (ix2 0 e)) (fun e => x3 (ix2 r e)))
          (Spec.lnE (fun e => (∑ k : Fin 1024, x0 (ix2 r k) * x1 (ix2 k e)) + x2 (ix2 0 e)) (fun e n => x4 (ix2 e n)))
          * x5 (ix2 r 0) := by
  rw [out_eq]
  exact (pay1_at000 _ _).trans (pay3_at00 x0 x1 x2 x3 x4 x5)

theorem out_nv (x0 : Vec Ideal S1024x1024 .f32) (x1 : Vec Ideal S1024x128 .f32) (x2 : Vec Ideal S1x128 .f32)
    (x3 : Vec Ideal S1024x128 .f32) (x4 : Vec Ideal S128x1024 .f32) (x5 : Vec Ideal S1024x1 .f32) :
    Gen.out1_6 (F := Ideal) x0 x1 x2 x3 x4 x5 (ix3 0 1 0) = ∑ r : Fin 1024, x5 (ix2 r 0) := by
  rw [out_eq]
  exact (pay1_at010 _ _).trans (pay4_at00 x5)

end Cert.KernelIdeal.KBody

end
-- ==== Proof.KLoss.lean ====
/-
  From blocks to arrays for the loss kernel call: what the two live entries of tile t of its [8, 8, 128] output hold
  after the run, as sums over the tile's 1024 rows of terms of the arrays the call reads.

  The call runs over 8 grid points. Point t reads rows 1024·t … 1024·t + 1023 of the weak features [8192, 1024], of the
  gathered key rows [8192, 128] and of the validity column [8192, 1], all of the weights [1024, 128], the bias row
  [1, 128] and the re-laid queue [128, 1024], and writes block (t, 0, 0) of the output, a whole [1, 8, 128] tile. The
  output's index map is injective on the grid, so two points' blocks share no index and tile t of the final array is
  exactly what point t wrote: the body's result on the six input blocks at t. Each input block read at inner
  coordinates is its array read at block index × block size + inner coordinate. With the body's two entries as sums
  over the block's rows, entry (t, 0, 0) is the sum over the tile's rows of the row loss times the validity weight, and
  entry (t, 1, 0) the sum of the validity weights.
-/
import proofs.«427062_j43121471652524_2_alg».proof.Proof.Gen.KernelIdeal.Frame
import proofs.«427062_j43121471652524_2_alg».proof.Proof.Spec
import proofs.«427062_j43121471652524_2_alg».proof.Proof.KBody
import Idealize.ShloMosaic.Lib.ValueIdx
import Idealize.ShloMosaic.Lib.Pipeline.Value

set_option maxRecDepth 16384

noncomputable section

namespace Cert.KernelIdeal.KLoss

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The arrays and blocks at their literal types -/

abbrev A1 (c : Dev nD) : S8192x1024.Idx → EReal := Gen.V15 (F := Ideal) m ρ c main_arg1
abbrev A4 (c : Dev nD) : S1024x128.Idx → EReal := Gen.V15 (F := Ideal) m ρ c main_arg4
abbrev A58 (c : Dev nD) : S1x128.Idx → EReal := Gen.V15 (F := Ideal) m ρ c main_v58
abbrev A54 (c : Dev nD) : S8192x128.Idx → EReal := Gen.V15 (F := Ideal) m ρ c main_v54
abbrev A57 (c : Dev nD) : S128x1024.Idx → EReal := Gen.V15 (F := Ideal) m ρ c main_v57
abbrev A56 (c : Dev nD) : S8192x1.Idx → EReal := Gen.V15 (F := Ideal) m ρ c main_v56
abbrev O59 (c : Dev nD) : S8x8x128.Idx → EReal := Gen.W16 (F := Ideal) m ρ c (Proc.devRef .tc main_v59)

abbrev B0 (c : Dev nD) (t : Fin cfg1.N) : S1024x1024.Idx → EReal := Gen.iblk1 (F := Ideal) (Gen.V15 m ρ) c 0 t
abbrev B1 (c : Dev nD) (t : Fin cfg1.N) : S1024x128.Idx → EReal := Gen.iblk1 (F := Ideal) (Gen.V15 m ρ) c 1 t
abbrev B2 (c : Dev nD) (t : Fin cfg1.N) : S1x128.Idx → EReal := Gen.iblk1 (F := Ideal) (Gen.V15 m ρ) c 2 t
abbrev B3 (c : Dev nD) (t : Fin cfg1.N) : S1024x128.Idx → EReal := Gen.iblk1 (F := Ideal) (Gen.V15 m ρ) c 3 t
abbrev B4 (c : Dev nD) (t : Fin cfg1.N) : S128x1024.Idx → EReal := Gen.iblk1 (F := Ideal) (Gen.V15 m ρ) c 4 t
abbrev B5 (c : Dev nD) (t : Fin cfg1.N) : S1024x1.Idx → EReal := Gen.iblk1 (F := Ideal) (Gen.V15 m ρ) c 5 t

/-- the grid point of tile t -/
def pt (t : Fin 8) : Fin cfg1.N := ⟨t.val, by rw [show cfg1.N = 8 from N_1]; exact t.isLt⟩

/-- The index maps over the grid: the row-blocked windows sit at block t, the whole-array windows at block 0, and
    the output at block (t, 0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 3) = t.val ∧ win1_6.index t (1 : Fin 3) = 0 ∧ win1_6.index t (2 : Fin 3) = 0 :=
  (by decide +kernel : ∀ t : Fin grid1.N, _)

/-- distinct points write distinct output blocks -/
theorem idx_inj6 : ∀ t t' : Fin cfg1.N, win1_6.index t = win1_6.index t' → t = t' :=
  (by decide +kernel : ∀ t t' : Fin grid1.N, win1_6.index t = win1_6.index t' → t = t')

theorem disjoint6 : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun h => hne (idx_inj6 t t' h)

/-- block t of the output array after the run is what point t wrote back -/
theorem blocks6 (c : Dev nD) (t : Fin cfg1.N) :
    ((cfg1.win 6).blk t).view.read (Elt Ideal) ((Gen.dat1 (F := Ideal) (Gen.V15 m ρ) c).arrAt 6 cfg1.N)
      = (Gen.dat1 (F := Ideal) (Gen.V15 m ρ) c).flushed 6 t :=
  (Gen.dat1 (F := Ideal) (Gen.V15 m ρ) c).read_blk_arrAt_eq_flushed 6 disjoint6 cfg1.N t t.isLt (flush1_6 t)

/-- an entry of tile t of the output array is the body's result on the input blocks at point t, at the same inner
    coordinates -/
theorem tile_at (c : Dev nD) (t : Fin cfg1.N) (y : S1x8x128.Idx) (i : S8x8x128.Idx)
    (h0 : (i 0).val = t.val) (h1 : (i 1).val = (y 1).val) (h2 : (i 2).val = (y 2).val) :
    O59 m ρ c i = Gen.out1_6 (F := Ideal) (B0 m ρ c t) (B1 m ρ c t) (B2 m ρ c t) (B3 m ρ c t) (B4 m ρ c t) (B5 m ρ c t) y := by
  have h := congrFun (blocks6 m ρ c t) y
  rw [View.read_apply] at h
  have e1 : (Gen.dat1 (F := Ideal) (Gen.V15 m ρ) c).flushed 6 t y
      = Gen.out1_6 (F := Ideal) (B0 m ρ c t) (B1 m ρ c t) (B2 m ρ c t) (B3 m ρ c t) (B4 m ρ c t) (B5 m ρ c t) y := by
    show (cfg1.win 6).cut (grid1.coords t) ((Gen.dat1 (F := Ideal) (Gen.V15 m ρ) c).after 6 t) y = _
    rw [after1_6]
    rfl
  have hi : i = ((cfg1.win 6).blk t).view.emb y := by
    obtain ⟨-, -, -, -, -, -, -, -, -, -, -, -, q0, q1, q2⟩ := idx_facts t
    funext a; apply Fin.ext
    match a with
    | ⟨0, _⟩ => show (i 0).val = win1_6.index t (0 : Fin 3) * 1 + 1 * (y 0).val; have hy : (y 0).val < 1 := (y 0).isLt; omega
    | ⟨1, _⟩ => show (i 1).val = win1_6.index t (1 : Fin 3) * 8 + 1 * (y 1).val; omega
    | ⟨2, _⟩ => show (i 2).val = win1_6.index t (2 : Fin 3) * 128 + 1 * (y 2).val; omega
  have e2 : O59 m ρ c i = (Gen.dat1 (F := Ideal) (Gen.V15 m ρ) c).arrAt 6 cfg1.N (((cfg1.win 6).blk t).view.emb y) := by
    rw [← hi]
    exact congrFun (W16_arr m ρ c 6) i
  rw [e2, ← e1, ← h]
  rfl

/-! ## Each input block read at its inner coordinates is the array read at block index × block size + the inner coordinate -/

theorem B0_apply (c : Dev nD) (t : Fin cfg1.N) (r k : Fin 1024) (i : Fin 8192) (hi : i.val = 1024 * t.val + r.val) :
    B0 m ρ c t (ix2 r k) = A1 m ρ c (ix2 i k) := by
  obtain ⟨q0, q1, -⟩ := idx_facts t
  show ((cfg1.win 0).blk t).view.read (Elt Ideal) (Gen.V15 (F := Ideal) m ρ c (Pipeline.arrRef spec1 0)) (ix2 r k) = _
  rw [View.read_apply]
  show Gen.V15 (F := Ideal) m ρ c main_arg1 _ = Gen.V15 (F := Ideal) m ρ c main_arg1 _
  congr 1
  funext a; apply Fin.ext
  match a with
  | ⟨0, _⟩ => show win1_0.index t (0 : Fin 2) * 1024 + 1 * r.val = i.val; omega
  | ⟨1, _⟩ => show win1_0.index t (1 : Fin 2) * 1024 + 1 * k.val = k.val; omega

theorem B1_apply (c : Dev nD) (t : Fin cfg1.N) (k : Fin 1024) (e : Fin 128) :
    B1 m ρ c t (ix2 k e) = A4 m ρ c (ix2 k e) := by
  obtain ⟨-, -, q0, q1, -⟩ := idx_facts t
  show ((cfg1.win 1).blk t).view.read (Elt Ideal) (Gen.V15 (F := Ideal) m ρ c (Pipeline.arrRef spec1 1)) (ix2 k e) = _
  rw [View.read_apply]
  show Gen.V15 (F := Ideal) m ρ c main_arg4 _ = Gen.V15 (F := Ideal) m ρ c main_arg4 _
  congr 1
  funext a; apply Fin.ext
  match a with
  | ⟨0, _⟩ => show win1_1.index t (0 : Fin 2) * 1024 + 1 * k.val = k.val; omega
  | ⟨1, _⟩ => show win1_1.index t (1 : Fin 2) * 128 + 1 * e.val = e.val; omega

theorem B2_apply (c : Dev nD) (t : Fin cfg1.N) (e : Fin 128) :
    B2 m ρ c t (ix2 0 e) = A58 m ρ c (ix2 0 e) := by
  obtain ⟨-, -, -, -, q0, q1, -⟩ := idx_facts t
  show ((cfg1.win 2).blk t).view.read (Elt Ideal) (Gen.V15 (F := Ideal) m ρ c (Pipeline.arrRef spec1 2)) (ix2 0 e) = _
  rw [View.read_apply]
  show Gen.V15 (F := Ideal) m ρ c main_v58 _ = Gen.V15 (F := Ideal) m ρ c main_v58 _
  congr 1
  funext a; apply Fin.ext
  match a with
  | ⟨0, _⟩ => show win1_2.index t (0 : Fin 2) * 1 + 1 * 0 = 0; omega
  | ⟨1, _⟩ => show win1_2.index t (1 : Fin 2) * 128 + 1 * e.val = e.val; omega

theorem B3_apply (c : Dev nD) (t : Fin cfg1.N) (r : Fin 1024) (e : Fin 128) (i : Fin 8192) (hi : i.val = 1024 * t.val + r.val) :
    B3 m ρ c t (ix2 r e) = A54 m ρ c (ix2 i e) := by
  obtain ⟨-, -, -, -, -, -, q0, q1, -⟩ := idx_facts t
  show ((cfg1.win 3).blk t).view.read (Elt Ideal) (Gen.V15 (F := Ideal) m ρ c (Pipeline.arrRef spec1 3)) (ix2 r e) = _
  rw [View.read_apply]
  show Gen.V15 (F := Ideal) m ρ c main_v54 _ = Gen.V15 (F := Ideal) m ρ c main_v54 _
  congr 1
  funext a; apply Fin.ext
  match a with
  | ⟨0, _⟩ => show win1_3.index t (0 : Fin 2) * 1024 + 1 * r.val = i.val; omega
  | ⟨1, _⟩ => show win1_3.index t (1 : Fin 2) * 128 + 1 * e.val = e.val; omega

theorem B4_apply (c : Dev nD) (t : Fin cfg1.N) (e : Fin 128) (n : Fin 1024) :
    B4 m ρ c t (ix2 e n) = A57 m ρ c (ix2 e n) := by
  obtain ⟨-, -, -, -, -, -, -, -, q0, q1, -⟩ := idx_facts t
  show ((cfg1.win 4).blk t).view.read (Elt Ideal) (Gen.V15 (F := Ideal) m ρ c (Pipeline.arrRef spec1 4)) (ix2 e n) = _
  rw [View.read_apply]
  show Gen.V15 (F := Ideal) m ρ c main_v57 _ = Gen.V15 (F := Ideal) m ρ c main_v57 _
  congr 1
  funext a; apply Fin.ext
  match a with
  | ⟨0, _⟩ => show win1_4.index t (0 : Fin 2) * 128 + 1 * e.val = e.val; omega
  | ⟨1, _⟩ => show win1_4.index t (1 : Fin 2) * 1024 + 1 * n.val = n.val; omega

theorem B5_apply (c : Dev nD) (t : Fin cfg1.N) (r : Fin 1024) (i : Fin 8192) (hi : i.val = 1024 * t.val + r.val) :
    B5 m ρ c t (ix2 r 0) = A56 m ρ c (ix2 i 0) := by
  obtain ⟨-, -, -, -, -, -, -, -, -, -, q0, q1, -⟩ := idx_facts t
  show ((cfg1.win 5).blk t).view.read (Elt Ideal) (Gen.V15 (F := Ideal) m ρ c (Pipeline.arrRef spec1 5)) (ix2 r 0) = _
  rw [View.read_apply]
  show Gen.V15 (F := Ideal) m ρ c main_v56 _ = Gen.V15 (F := Ideal) m ρ c main_v56 _
  congr 1
  funext a; apply Fin.ext
  match a with
  | ⟨0, _⟩ => show win1_5.index t (0 : Fin 2) * 1024 + 1 * r.val = i.val; omega
  | ⟨1, _⟩ => show win1_5.index t (1 : Fin 2) * 1 + 1 * 0 = 0; omega

/-! ## The two lanes of tile t of the output -/

theorem tileRow_val (t : Fin 8) (r : Fin 1024) : (Spec.tileRow t r).val = 1024 * (pt t).val + r.val := by
  show t.val * 1024 + r.val = 1024 * t.val + r.val
  omega

theorem tile_nv_arr (c : Dev nD) (t : Fin 8) :
    O59 m ρ c (ix3 t 1 0) = ∑ r : Fin 1024, A56 m ρ c (ix2 (Spec.tileRow t r) 0) := by
  rw [tile_at m ρ c (pt t) (ix3 0 1 0) (ix3 t 1 0) rfl rfl rfl]
  refine (KBody.out_nv (B0 m ρ c (pt t)) (B1 m ρ c (pt t)) (B2 m ρ c (pt t)) (B3 m ρ c (pt t)) (B4 m ρ c (pt t)) (B5 m ρ c (pt t))).trans ?_
  exact Finset.sum_congr rfl fun r _ => B5_apply m ρ c (pt t) r (Spec.tileRow t r) (tileRow_val t r)

theorem tile_ce_arr (c : Dev nD) (t : Fin 8) :
    O59 m ρ c (ix3 t 0 0)
      = ∑ r : Fin 1024,
          Spec.rowK (Spec.lpE (fun e => Spec.encE (fun i k => A1 m ρ c (ix2 i k)) (fun k e => A4 m ρ c (ix2 k e)) (fun e => A58 m ρ c (ix2 0 e)) (Spec.tileRow t r) e)
                              (fun e => A54 m ρ c (ix2 (Spec.tileRow t r) e)))
                    (Spec.lnE (fun e => Spec.encE (fun i k => A1 m ρ c (ix2 i k)) (fun k e => A4 m ρ c (ix2 k e)) (fun e => A58 m ρ c (ix2 0 e)) (Spec.tileRow t r) e)
                              (fun e n => A57 m ρ c (ix2 e n)))
            * A56 m ρ c (ix2 (Spec.tileRow t r) 0) := by
  rw [tile_at m ρ c (pt t) (ix3 0 0 0) (ix3 t 0 0) rfl rfl rfl]
  refine (KBody.out_ce (B0 m ρ c (pt t)) (B1 m ρ c (pt t)) (B2 m ρ c (pt t)) (B3 m ρ c (pt t)) (B4 m ρ c (pt t)) (B5 m ρ c (pt t))).trans ?_
  refine Finset.sum_congr rfl fun r _ => ?_
  have hq : (fun e : Fin 128 => (∑ k : Fin 1024, B0 m ρ c (pt t) (ix2 r k) * B1 m ρ c (pt t) (ix2 k e)) + B2 m ρ c (pt t) (ix2 0 e))
      = fun e => Spec.encE (fun i k => A1 m ρ c (ix2 i k)) (fun k e => A4 m ρ c (ix2 k e)) (fun e => A58 m ρ c (ix2 0 e)) (Spec.tileRow t r) e := by
    funext e
    show _ = (∑ k : Fin 1024, A1 m ρ c (ix2 (Spec.tileRow t r) k) * A4 m ρ c (ix2 k e)) + A58 m ρ c (ix2 0 e)
    rw [B2_apply m ρ c (pt t) e]
    refine congrArg (fun s : EReal => s + A58 m ρ c (ix2 0 e)) ?_
    refine Finset.sum_congr rfl fun k _ => ?_
    rw [B0_apply m ρ c (pt t) r k (Spec.tileRow t r) (tileRow_val t r), B1_apply m ρ c (pt t) k e]
  have h3 : (fun e : Fin 128 => B3 m ρ c (pt t) (ix2 r e)) = fun e => A54 m ρ c (ix2 (Spec.tileRow t r) e) :=
    funext fun e => B3_apply m ρ c (pt t) r e (Spec.tileRow t r) (tileRow_val t r)
  have h4 : (fun (e : Fin 128) (n : Fin 1024) => B4 m ρ c (pt t) (ix2 e n)) = fun e n => A57 m ρ c (ix2 e n) :=
    funext fun e => funext fun n => B4_apply m ρ c (pt t) e n
  rw [hq, h3, h4, B5_apply m ρ c (pt t) r (Spec.tileRow t r) (tileRow_val t r)]

/-- lane (0, 0) of tile t: the sum over the tile's rows of the row loss times the validity weight -/
theorem tile_ce (c : Dev nD) (t : Fin 8) :
    (Gen.W16 (F := Ideal) m ρ c (Proc.devRef .tc main_v59) : S8x8x128.Idx → EReal) (ix3 t 0 0)
      = ∑ r : Fin 1024,
          Spec.rowK (Spec.lpE (fun e => Spec.encE (fun i k => (Gen.V15 (F := Ideal) m ρ c main_arg1 : S8192x1024.Idx → EReal) (ix2 i k)) (fun k e => (Gen.V15 (F := Ideal) m ρ c main_arg4 : S1024x128.Idx → EReal) (ix2 k e)) (fun e => (Gen.V15 (F := Ideal) m ρ c main_v58 : S1x128.Idx → EReal) (ix2 0 e)) (Spec.tileRow t r) e)
                              (fun e => (Gen.V15 (F := Ideal) m ρ c main_v54 : S8192x128.Idx → EReal) (ix2 (Spec.tileRow t r) e)))
                    (Spec.lnE (fun e => Spec.encE (fun i k => (Gen.V15 (F := Ideal) m ρ c main_arg1 : S8192x1024.Idx → EReal) (ix2 i k)) (fun k e => (Gen.V15 (F := Ideal) m ρ c main_arg4 : S1024x128.Idx → EReal) (ix2 k e)) (fun e => (Gen.V15 (F := Ideal) m ρ c main_v58 : S1x128.Idx → EReal) (ix2 0 e)) (Spec.tileRow t r) e)
                              (fun e n => (Gen.V15 (F := Ideal) m ρ c main_v57 : S128x1024.Idx → EReal) (ix2 e n)))
            * (Gen.V15 (F := Ideal) m ρ c main_v56 : S8192x1.Idx → EReal) (ix2 (Spec.tileRow t r) 0) :=
  tile_ce_arr m ρ c t

/-- lane (1, 0) of tile t: the sum of the tile's validity weights -/
theorem tile_nv (c : Dev nD) (t : Fin 8) :
    (Gen.W16 (F := Ideal) m ρ c (Proc.devRef .tc main_v59) : S8x8x128.Idx → EReal) (ix3 t 1 0)
      = (∑ r : Fin 1024, (Gen.V15 (F := Ideal) m ρ c main_v56 : S8192x1.Idx → EReal) (ix2 (Spec.tileRow t r) 0) : EReal) :=
  tile_nv_arr m ρ c t

end Cert.KernelIdeal.KLoss

end
-- ==== Proof.RTerms.lean ====
/-
  The reference's @main, written as pure functions of the argument arrays: the two encoders, the label bookkeeping
  through the [8192, 8192] comparison matrices (per-row count, validity, rank among equal weak labels, selection
  offset, occurrence number of each strong row within its label, the hit matrix and its argmax), the gathered key
  rows, and the cross-entropy of target 0 by log-softmax over the concatenated logits, averaged over the valid rows.
  `a2` is the strong-label array, `a3` the weak-label array.
-/
import proofs.«427062_j43121471652524_2_alg».proof.ReferenceIdeal

noncomputable section

namespace Cert.ReferenceIdeal.T

open Idealize.ShloMosaic Cert.ReferenceIdeal

variable {F : FTy → Type} [FloatOps F] [Facts]
open Facts₀ Facts

def splat (v : BitVec 32) : IVec S8192 32 := broadcastInDim S8192 ![] bcast_S_S8192 (constantI S_ 32 v)

/-- the linear encoder: x @ w + b, the bias broadcast down the rows -/
def enc (x : FVec F S8192x1024 .f32) (w : FVec F S1024x128 .f32) (b : FVec F S128 .f32) : FVec F S8192x128 .f32 :=
  addf (Host.dotGeneral dot_S8192x1024_S1024x128_S8192x128_1_0_0_1_n_n none x w)
    (broadcastInDim S8192x128 ![0, 1] bcast_S1x128_S8192x128_0_1 (broadcastInDim S1x128 ![1] bcast_S128_S1x128_1 b))

/-- the array `a` down the rows, constant along the columns -/
def colOf (a : IVec S8192 32) : IVec S8192x8192 32 :=
  broadcastInDim S8192x8192 ![0, 1] bcast_S8192x1_S8192x8192_0_1 (broadcastInDim S8192x1 ![0] bcast_S8192_S8192x1_0 a)

/-- the array `a` along the columns, constant down the rows -/
def rowOf (a : IVec S8192 32) : IVec S8192x8192 32 :=
  broadcastInDim S8192x8192 ![0, 1] bcast_S1x8192_S8192x8192_0_1 (broadcastInDim S1x8192 ![1] bcast_S8192_S1x8192_1 a)

/-- [i, j] ↦ a i == b j -/
def eqMat (a b : IVec S8192 32) : IVec S8192x8192 1 := cmpi .eq (colOf a) (rowOf b)

def rowSum (x : IVec S8192x8192 32) : IVec S8192 32 :=
  Host.reduce IntOp.addi x (constantI S_ 32 0#32) reducesTo_S8192x8192_S8192_d1 h_S_

/-- the strictly lower triangle of a matrix (jnp.tril with k = -1) -/
def tril (x : IVec S8192x8192 32) : IVec S8192x8192 32 :=
  select (cmpi .sge (addi (iotaInDim S8192x8192 32 0) (broadcastInDim S8192x8192 ![] bcast_S_S8192x8192 (constantI S_ 32 4294967295#32)))
      (iotaInDim S8192x8192 32 1))
    x (broadcastInDim S8192x8192 ![] bcast_S_S8192x8192 (constantI S_ 32 0#32))

/-- per weak row: how many strong rows carry its label -/
def cnt (a2 a3 : IVec S8192 32) : IVec S8192 32 := rowSum (extui 32 (eqMat a3 a2) natLt_1_32)

def valid (a2 a3 : IVec S8192 32) : IVec S8192 1 := cmpi .sgt (cnt a2 a3) (splat 0#32)

/-- per row of `a`: how many earlier rows carry the same label -/
def before (a : IVec S8192 32) : IVec S8192 32 := rowSum (tril (extui 32 (eqMat a a) natLt_1_32))

/-- jnp's integer remainder (the sign of the divisor), as the outlined function computes it -/
def remainder (x y : IVec S8192 32) : IVec S8192 32 :=
  let d : IVec S8192 32 := select (cmpi .eq y (splat 0#32)) (splat 1#32) y
  let r : IVec S8192 32 := Host.remsi x d
  select (andi (cmpi .ne (cmpi .slt r (splat 0#32)) (cmpi .slt d (splat 0#32))) (cmpi .ne r (splat 0#32))) (addi r d) r

def sel (a2 a3 : IVec S8192 32) : IVec S8192 32 := remainder (before a3) (maxsi (cnt a2 a3) (splat 1#32))

/-- [i, j] ↦ weak label i == strong label j and strong row j is the sel(i)-th of its label -/
def hit (a2 a3 : IVec S8192 32) : IVec S8192x8192 1 :=
  andi (eqMat a3 a2) (cmpi .eq (rowOf (before a2)) (colOf (sel a2 a3)))

/-- the argmax along each row of a boolean matrix (the first set column, 0 when none) -/
def argmaxRow (x : IVec S8192x8192 1) : IVec S8192 32 :=
  fun j => (Host.reduce2 reducer_argmax_i1_i32 x (iotaInDim S8192x8192 32 1) (constantI S_ 1 0#1) (constantI S_ 32 0#32)
    reducesTo_S8192x8192_S8192_d1 h_S_ j).2

def idx (a2 a3 : IVec S8192 32) : IVec S8192 32 := argmaxRow (hit a2 a3)

/-- a negative index wrapped by 8192 (the index normalisation in front of the row gather) -/
def wrapIdx (ix : IVec S8192 32) : IVec S8192 32 := select (cmpi .slt ix (splat 0#32)) (addi ix (splat 8192#32)) ix

def rows (k : FVec F S8192x128 .f32) (ix : IVec S8192 32) : FVec F S8192x128 .f32 :=
  Host.gather gather_S8192x128_S8192x1_S8192x128_1_0_n_n_0_1_1128 k (broadcastInDim S8192x1 ![0] bcast_S8192_S8192x1_0 (wrapIdx ix))

/-- the logits: column 0 the positive one, columns 1..1024 the negatives against the re-laid queue -/
def logits (q kg : FVec F S8192x128 .f32) (queue : FVec F S1024x128 .f32) : FVec F S8192x1025 .f32 :=
  concatenate S8192x1025 1
    [⟨S8192x1, (broadcastInDim S8192x1 ![0] bcast_S8192_S8192x1_0
        (Host.reduceAdd (mulf q kg) (constant S_ .f32 0x00000000#32) reducesTo_S8192x128_S8192_d1 h_S_ : FVec F S8192 .f32) : FVec F S8192x1 .f32)⟩,
     ⟨S8192x1024, (Host.dotGeneral dot_S8192x128_S128x1024_S8192x1024_1_0_0_1_n_n none q
        (shapeCast S128x1024 queue shapeCasts_S1024x128_S128x1024 : FVec F S128x1024 .f32) : FVec F S8192x1024 .f32)⟩]
    concatenates_S8192x1_S8192x1024_S8192x1025_d1

/-- jax.nn.log_softmax along the columns -/
def logSoftmax (x : FVec F S8192x1025 .f32) : FVec F S8192x1025 .f32 :=
  let mx : FVec F S8192 .f32 := maximumf (broadcastInDim S8192 ![] bcast_S_S8192 (constant S_ .f32 0xFF800000#32))
    (Host.reduce FloatOps.maximumf x (constant S_ .f32 0xFF800000#32) reducesTo_S8192x1025_S8192_d1 h_S_)
  let sh : FVec F S8192x1025 .f32 := subf x (broadcastInDim S8192x1025 ![0, 1] bcast_S8192x1_S8192x1025_0_1 (broadcastInDim S8192x1 ![0] bcast_S8192_S8192x1_0 mx))
  let se : FVec F S8192 .f32 := Host.reduceAdd (Host.exp sh) (constant S_ .f32 0x00000000#32) reducesTo_S8192x1025_S8192_d1 h_S_
  subf sh (broadcastInDim S8192x1025 ![0, 1] bcast_S8192x1_S8192x1025_0_1 (Host.log (broadcastInDim S8192x1 ![0] bcast_S8192_S8192x1_0 se)))

/-- the loss from the logits and the validity bit -/
def lossOf (lg : FVec F S8192x1025 .f32) (v : IVec S8192 1) : FVec F S_ .f32 :=
  let ce : FVec F S8192 .f32 := Host.negf (shapeCast S8192 (extractStridedSlice S8192x1 ![0, 0] (logSoftmax lg) slices_S8192x1025_S8192x1_0_0 : FVec F S8192x1 .f32) shapeCasts_S8192x1_S8192)
  let m : FVec F S8192 .f32 := uitofp .f32 v
  Host.divf (Host.reduceAdd (mulf ce m) (constant S_ .f32 0x00000000#32) reducesTo_S8192_S_d0 h_S_)
    (maximumf (Host.reduceAdd m (constant S_ .f32 0x00000000#32) reducesTo_S8192_S_d0 h_S_) (constant S_ .f32 0x3F800000#32))

/-- the whole reference: feats_strong, feats_weak, strong labels, weak labels, Wq, bq, Wk, bk, queue -/
def loss (fs fw : FVec F S8192x1024 .f32) (a2 a3 : IVec S8192 32) (wq : FVec F S1024x128 .f32) (bq : FVec F S128 .f32)
    (wk : FVec F S1024x128 .f32) (bk : FVec F S128 .f32) (queue : FVec F S1024x128 .f32) : FVec F S_ .f32 :=
  lossOf (logits (enc fw wq bq) (rows (enc fs wk bk) (idx a2 a3)) queue) (valid a2 a3)

end Cert.ReferenceIdeal.T

end
-- ==== Proof.LibScatterRead.lean ====
/-
  Host scatters and gathers read at an index, at the extended reals: what `x.at[idx].add(u)` and `x[idx]` over
  rows hold at one element, as a sum over the updates that land there / as the operand's row at the clamped index.
  General lemmas over any sizes; they import no program.
-/
import Idealize.ShloMosaic.Lib.ValueIdx
import Idealize.ShloMosaic.PureOps.Ideal.Laws

noncomputable section

open scoped BigOperators

namespace Idealize.ShloMosaic.ScatterRead

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-- An update lands at operand index `i` exactly when, on every operand axis, its window's start plus its window
    coordinate is `i`'s coordinate there (the start read signed: a sum that is negative or past the axis's end is no
    coordinate of any `i`, and the update is dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show d.start j idx a + (d.window j a : ℤ) = ((d.start j idx a + (d.window j a : ℤ)).toNat : ℤ)
      omega
    · intro hi
      funext a
      apply Fin.ext
      show (d.start j idx a + (d.window j a : ℤ)).toNat = (i a).val
      have := hi a
      omega
  · next h =>
    constructor
    · intro h'
      cases h'
    · intro hi
      exfalso
      apply h
      intro a
      have := hi a
      have := (i a).isLt
      omega

/-- The dimension numbers of a row scatter: the updates' axis 1 is the window, going to the operand's axis 1; the
    operand's axis 0 is inserted and is the one the scatter index names; the index vector is the column's axis 1. -/
abbrev rowsDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where update `(v, k')` of a row scatter lands: at `(g, k)` exactly when `v`'s index, read signed, is `g` and
    `k' = k` (the window starts at row = the index, column 0, and the window coordinate is `k'` on the column axis). -/
theorem rows_resultIdx?_iff {N M D w : Nat} (wf : ScatterDims.WF ⟨2, ![N, D]⟩ ⟨2, ![M, 1]⟩ ⟨2, ![M, D]⟩ [1] [0] [0] 1)
    (idx : IVec ⟨2, ![M, 1]⟩ w) (v : Fin M) (k' : Fin D) (g : Fin N) (k : Fin D) :
    (rowsDims N M D wf).resultIdx? (ix2 v k') idx = some (ix2 g k)
      ↔ (idx (ix2 v (0 : Fin 1))).toInt = (g.val : ℤ) ∧ k' = k := by
  rw [resultIdx?_eq_some_iff]
  -- the scatter index of update `(v, k')` is read at `(v, 0)`
  have hsi : (rowsDims N M D wf).siIdx (ix2 v k') ⟨0, Nat.one_pos⟩ = ix2 v (0 : Fin 1) := by
    funext b
    match b with
    | ⟨0, _⟩ => rfl
    | ⟨1, _⟩ => rfl
  -- starts and window coordinates on the two operand axes
  have e0 : (rowsDims N M D wf).start (ix2 v k') idx 0 = (idx (ix2 v (0 : Fin 1))).toInt := by rw [← hsi]; rfl
  have e1 : (rowsDims N M D wf).start (ix2 v k') idx 1 = 0 := rfl
  have w0 : (rowsDims N M D wf).window (ix2 v k') 0 = 0 := rfl
  have w1 : (rowsDims N M D wf).window (ix2 v k') 1 = k'.val := rfl
  constructor
  · intro h
    have h0 : (rowsDims N M D wf).start (ix2 v k') idx 0 + ((rowsDims N M D wf).window (ix2 v k') 0 : ℤ) = (g.val : ℤ) := h 0
    have h1 : (rowsDims N M D wf).start (ix2 v k') idx 1 + ((rowsDims N M D wf).window (ix2 v k') 1 : ℤ) = (k.val : ℤ) := h 1
    rw [e0, w0] at h0
    rw [e1, w1] at h1
    refine ⟨by simpa using h0, Fin.ext ?_⟩
    omega
  · rintro ⟨hg, rfl⟩
    have t0 : (rowsDims N M D wf).start (ix2 v k') idx 0 + ((rowsDims N M D wf).window (ix2 v k') 0 : ℤ) = (g.val : ℤ) := by
      rw [e0, w0, hg]; simp
    have t1 : (rowsDims N M D wf).start (ix2 v k') idx 1 + ((rowsDims N M D wf).window (ix2 v k') 1 : ℤ) = (k'.val : ℤ) := by
      rw [e1, w1]; simp
    intro a
    match a with
    | ⟨0, _⟩ => exact t0
    | ⟨1, _⟩ => exact t1

/-- A row scatter-add (`x.at[idx].add(u)` over the first axis of a matrix, the indices an [M × 1] column): element
    `(g, k)` of the result is the operand's plus the sum of the updates' column-`k` entries of the rows `v` whose
    index, read signed, is `g`; a row whose index is outside `[0, N)` lands nowhere. -/
theorem scatterAdd_rows_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![M, 1]⟩ w) (upd : (⟨2, ![M, D]⟩ : Shape).Idx → EReal)
    (g : Fin N) (k : Fin D) :
    Ideal.hostScatterAdd d x idx upd (ix2 g k)
      = x (ix2 g k) + ∑ v ∈ Finset.univ.filter (fun v : Fin M => (idx (ix2 v (0 : Fin 1))).toInt = (g.val : ℤ)), upd (ix2 v k) := by
  obtain ⟨uw, iw, sd, iv, wf⟩ := d
  dsimp only at huw hiw hsd hiv
  subst huw hiw hsd hiv
  show x (ix2 g k) + ∑ j ∈ Finset.univ.filter (fun j => (rowsDims N M D wf).resultIdx? j idx = some (ix2 g k)), upd j = _
  congr 1
  -- the sum over the updates `(v, k')` that land at `(g, k)`, as a double sum over rows and columns
  rw [Finset.sum_filter, Finset.sum_filter, sum_idx2]
  refine Finset.sum_congr rfl fun v _ => ?_
  simp only [rows_resultIdx?_iff]
  by_cases hv : (idx (ix2 v (0 : Fin 1))).toInt = (g.val : ℤ)
  · simp [hv]
  · simp [hv]

/-- The dimension numbers of a flat scatter: the updates have no window axis; the operand's one axis is inserted and
    is the one the scatter index names; the index vector is the column's axis 1. -/
abbrev flatDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `v` of a flat scatter lands: at `g` exactly when `v`'s index, read signed, is `g` (the window is
    the one element at the index). -/
theorem flat_resultIdx?_iff {N M w : Nat} (wf : ScatterDims.WF ⟨1, ![N]⟩ ⟨2, ![M, 1]⟩ ⟨1, ![M]⟩ [] [0] [0] 1)
    (idx : IVec ⟨2, ![M, 1]⟩ w) (v : Fin M) (g : Fin N) :
    (flatDims N M wf).resultIdx? (ix1 v) idx = some (ix1 g) ↔ (idx (ix2 v (0 : Fin 1))).toInt = (g.val : ℤ) := by
  rw [resultIdx?_eq_some_iff]
  -- the scatter index of update `v` is read at `(v, 0)`
  have hsi : (flatDims N M wf).siIdx (ix1 v) ⟨0, Nat.one_pos⟩ = ix2 v (0 : Fin 1) := by
    funext b
    match b with
    | ⟨0, _⟩ => rfl
    | ⟨1, _⟩ => rfl
  have e0 : (flatDims N M wf).start (ix1 v) idx 0 = (idx (ix2 v (0 : Fin 1))).toInt := by rw [← hsi]; rfl
  have w0 : (flatDims N M wf).window (ix1 v) 0 = 0 := rfl
  constructor
  · intro h
    have h0 : (flatDims N M wf).start (ix1 v) idx 0 + ((flatDims N M wf).window (ix1 v) 0 : ℤ) = (g.val : ℤ) := h 0
    rw [e0, w0] at h0
    simpa using h0
  · intro hg
    have t0 : (flatDims N M wf).start (ix1 v) idx 0 + ((flatDims N M wf).window (ix1 v) 0 : ℤ) = (g.val : ℤ) := by
      rw [e0, w0, hg]; simp
    intro a
    match a with
    | ⟨0, _⟩ => exact t0

/-- A flat scatter-add (`x.at[idx].add(u)` over a vector): element `g` is the operand's plus the sum of the updates
    whose index, read signed, is `g`. -/
theorem scatterAdd_flat_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (g : Fin N) :
    Ideal.hostScatterAdd d x idx upd (ix1 g)
      = x (ix1 g) + ∑ v ∈ Finset.univ.filter (fun v : Fin M => (idx (ix2 v (0 : Fin 1))).toInt = (g.val : ℤ)), upd (ix1 v) := by
  obtain ⟨uw, iw, sd, iv, wf⟩ := d
  dsimp only at huw hiw hsd hiv
  subst huw hiw hsd hiv
  show x (ix1 g) + ∑ j ∈ Finset.univ.filter (fun j => (flatDims N M wf).resultIdx? j idx = some (ix1 g)), upd j = _
  congr 1
  -- the updates' index set is its one coordinate's range
  rw [Finset.sum_filter, Finset.sum_filter, sum_idx1]
  refine Finset.sum_congr rfl fun v _ => ?_
  simp only [flat_resultIdx?_iff]

/-- A row gather (`x[idx]` over the first axis of a matrix, the indices an [M × 1] column): row `e` of the result
    is the operand's row at `e`'s index read signed and clamped into `[0, N − 1]`. -/
theorem gather_rows_apply {α : Type} {N M D w : Nat} (hN : 0 < N) (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![M, 1]⟩ w) (e : Fin M) (k : Fin D) :
    Host.gather d x idx (ix2 e k) = x (ix2 (⟨min (idx (ix2 e (0 : Fin 1))).toInt.toNat (N - 1), by omega⟩ : Fin N) k) := by
  obtain ⟨od, cd, ob, sb, sm, iv, ss, wf⟩ := d
  dsimp only at hoff hcoll hob hsb hsim hivd hss
  subst hoff hcoll hob hsb hsim hivd hss
  unfold Host.gather
  congr 1
  funext a
  apply Fin.ext
  match a with
  | ⟨0, _⟩ =>
    -- the row axis: collapsed, start-indexed; the start index of result `(e, k)` is read at `(e, 0)`
    have hsi : (GatherDims.mk (s := ⟨2, ![N, D]⟩) (si := ⟨2, ![M, 1]⟩) (t := ⟨2, ![M, D]⟩) [1] [0] [] [] [0] 1 ![1, D] wf).siIdx
        (ix2 e k) ⟨0, Nat.one_pos⟩ = ix2 e (0 : Fin 1) := by
      funext b
      match b with
      | ⟨0, _⟩ => rfl
      | ⟨1, _⟩ => rfl
    show min (idx _).toInt.toNat (N - 1) + 0 + 0 = min (idx (ix2 e (0 : Fin 1))).toInt.toNat (N - 1)
    rw [← hsi]; rfl
  | ⟨1, _⟩ =>
    -- the column axis: kept, not start-indexed: start 0, offset coordinate `k`
    show 0 + 0 + k.val = k.val
    omega

end Idealize.ShloMosaic.ScatterRead

end
-- ==== Proof.Layout.lean ====
/-
  Both programs' layout and gather operations read at one index, on the extended reals: the reference's linear encoder
  as the sum x·W + b; the row gathers of both programs at an index array whose words are below 8192 (the negative-index
  wrap is the identity there, the clamp does nothing, and the kernel's in-range mask is all ones, so the fill is never
  taken); the queue [1024, 128] re-laid row-major as [128, 1024]; the bias as a one-row matrix; the validity bit as a
  float column; and the closing quotient of the per-tile partial sums.
-/
import proofs.«427062_j43121471652524_2_alg».proof.Proof.KTerms
import proofs.«427062_j43121471652524_2_alg».proof.Proof.RTerms
import proofs.«427062_j43121471652524_2_alg».proof.Proof.Spec
import proofs.«427062_j43121471652524_2_alg».proof.Proof.LibPlainDot
import proofs.«427062_j43121471652524_2_alg».proof.Proof.LibScatterRead
import Idealize.ShloMosaic.Lib.ValueIdx
import Idealize.ShloMosaic.Lib.Pipeline.Value
import Idealize.ShloMosaic.Lib.ReduceAll
import Idealize.ShloMosaic.PureOps.Ideal.Laws
import Idealize.ShloMosaic.Lib.IdealHost

noncomputable section

open scoped BigOperators

namespace Cert.Layout

open Idealize.ShloMosaic Idealize.ShloMosaic.ValueIdx

variable [Cert.KernelIdeal.Facts] [Cert.ReferenceIdeal.Facts]

/-! ## Words -/

/-- A word below 8192 is its natural number read signed. -/
theorem toInt_of_lt (v : BitVec 32) (h : v.toNat < 8192) : v.toInt = (v.toNat : ℤ) := by
  rw [BitVec.toInt_eq_toNat_cond]
  split <;> omega

/-- The negative-index wrap leaves a word below 8192 alone. -/
theorem wrap_word (v : BitVec 32) (h : v.toNat < 8192) :
    Scalar.select (IntOp.cmpi .slt v 0#32) (IntOp.addi v 8192#32) v = v := by
  unfold Scalar.select
  rw [if_neg]
  intro hc
  have h1 := IntOp.cmpi_slt.1 hc
  rw [toInt_of_lt v h] at h1
  have h0 : (0#32 : BitVec 32).toInt = 0 := by decide
  omega

/-- The clamped start index of a word below 8192 is the word. -/
theorem clamp_word (v : BitVec 32) (h : v.toNat < 8192) : min v.toInt.toNat (8192 - 1) = v.toNat := by
  rw [toInt_of_lt v h]
  omega

/-! ## The encoder -/

theorem renc_apply (x : FVec Ideal Cert.ReferenceIdeal.S8192x1024 .f32) (w : FVec Ideal Cert.ReferenceIdeal.S1024x128 .f32)
    (b : FVec Ideal Cert.ReferenceIdeal.S128 .f32) (i : Fin 8192) (e : Fin 128) :
    Cert.ReferenceIdeal.T.enc (F := Ideal) x w b (ix2 i e)
      = Spec.encE (fun i k => x (ix2 i k)) (fun k e => w (ix2 k e)) (fun e => b (ix1 e)) i e := by
  unfold Cert.ReferenceIdeal.T.enc Spec.encE
  rw [addf_apply]
  congr 1
  · exact PlainDot.dotGeneral_apply _ rfl rfl rfl rfl rfl rfl none .single x w i e
  · refine (broadcastInDim_apply _ _ _ (ix2 i e) (ix2 (0 : Fin 1) e) (fun a => ?_)).trans ?_
    · match a with
      | ⟨0, _⟩ => rfl
      | ⟨1, _⟩ => rfl
    · refine broadcastInDim_apply _ _ _ (ix2 (0 : Fin 1) e) (ix1 e) (fun a => ?_)
      match a with
      | ⟨0, _⟩ => rfl

/-! ## Re-layings -/

theorem kqueueR_apply (q : FVec Ideal Cert.KernelIdeal.S1024x128 .f32) (e : Fin 128) (n : Fin 1024) :
    Cert.KernelIdeal.T.queueR (F := Ideal) q (ix2 e n) = Spec.relay (fun a b => q (ix2 a b)) e n := by
  unfold Cert.KernelIdeal.T.queueR Spec.relay
  refine shapeCast_apply q _ (ix2 e n) (ix2 ⟨(e.val * 1024 + n.val) / 128, by have := e.isLt; have := n.isLt; omega⟩
    ⟨(e.val * 1024 + n.val) % 128, Nat.mod_lt _ (by decide)⟩) ?_
  rw [Shape.rowMajor_val_two, Shape.rowMajor_val_two]
  show (e.val * 1024 + n.val) / 128 * 128 + (e.val * 1024 + n.val) % 128 = e.val * 1024 + n.val
  omega

theorem krow128_apply (b : FVec Ideal Cert.KernelIdeal.S128 .f32) (e : Fin 128) :
    Cert.KernelIdeal.T.row128 (F := Ideal) b (ix2 0 e) = b (ix1 e) := by
  unfold Cert.KernelIdeal.T.row128
  refine shapeCast_apply b _ (ix2 (0 : Fin 1) e) (ix1 e) ?_
  rw [Shape.rowMajor_val_one, Shape.rowMajor_val_two]
  show e.val = 0 * 128 + e.val
  omega

/-! ## The validity bit as a number -/

theorem kvalidF_apply (a2 a3 : IVec Cert.KernelIdeal.S8192 32) (i : Fin 8192) :
    Cert.KernelIdeal.T.validF (F := Ideal) a2 a3 (ix2 i 0) = Spec.vf (Cert.KernelIdeal.T.valid a2 a3 (ix1 i) == 1#1) := by
  unfold Cert.KernelIdeal.T.validF
  refine (shapeCast_apply _ _ (ix2 i (0 : Fin 1)) (ix1 i) ?_).trans ?_
  · rw [Shape.rowMajor_val_one, Shape.rowMajor_val_two]
    show i.val = i.val * 1 + 0
    omega
  · show ((((Cert.KernelIdeal.T.valid a2 a3 (ix1 i)).toNat : ℝ)) : EReal) = _
    generalize Cert.KernelIdeal.T.valid a2 a3 (ix1 i) = c
    have hc : c = 0#1 ∨ c = 1#1 := by revert c; decide
    rcases hc with rfl | rfl
    · simp [Spec.vf]
    · simp [Spec.vf]

/-! ## Row gathers -/

/-- A column made of an array reads the array's row. -/
theorem col_apply (hb : (⟨1, ![8192]⟩ : Shape).BroadcastsInDim ⟨2, ![8192, 1]⟩ ![0]) {α : Type}
    (v : (⟨1, ![8192]⟩ : Shape).Idx → α) (i : Fin 8192) (z : Fin 1) :
    broadcastInDim ⟨2, ![8192, 1]⟩ ![0] hb v (ix2 i z) = v (ix1 i) := by
  refine broadcastInDim_apply _ _ _ (ix2 i z) (ix1 i) (fun a => ?_)
  match a with
  | ⟨0, _⟩ => rfl

/-- The reference's wrapped index of a row whose index is below 8192 is the index. -/
theorem rwrap_apply (ix : IVec Cert.ReferenceIdeal.S8192 32) (i : Fin 8192) (h : (ix (ix1 i)).toNat < 8192) :
    Cert.ReferenceIdeal.T.wrapIdx ix (ix1 i) = ix (ix1 i) :=
  wrap_word (ix (ix1 i)) h

theorem rrows_apply (k : FVec Ideal Cert.ReferenceIdeal.S8192x128 .f32) (ix : IVec Cert.ReferenceIdeal.S8192 32)
    (h : ∀ i : Fin 8192, (ix (ix1 i)).toNat < 8192) (i : Fin 8192) (e : Fin 128) :
    Cert.ReferenceIdeal.T.rows (F := Ideal) k ix (ix2 i e) = k (ix2 ⟨(ix (ix1 i)).toNat, h i⟩ e) := by
  unfold Cert.ReferenceIdeal.T.rows
  rw [ScatterRead.gather_rows_apply (by decide) _ rfl rfl rfl rfl rfl rfl rfl k _ i e]
  congr 2
  apply Fin.ext
  show min (_ : BitVec 32).toInt.toNat (8192 - 1) = (ix (ix1 i)).toNat
  rw [col_apply, rwrap_apply ix i (h i)]
  exact clamp_word _ (h i)

/-- A reduce by `and` from 1 over an array of ones is 1. -/
theorem reduce_andi_ones {s t u : Shape} {axes : List (Fin s.rank)} (x : s.Idx → BitVec 1) (init : u.Idx → BitVec 1)
    (hr : s.ReducesTo axes t) (hu : 0 < u.numel) (j : t.Idx) (hinit : init (Shape.Idx.first hu) = 1#1)
    (hx : ∀ i, x i = 1#1) : Host.reduce IntOp.andi x init hr hu j = 1#1 := by
  rw [Host.reduce_eq_foldl, hinit]
  generalize (((List.finRange s.numel).map s.rowMajor.symm).filter fun i => hr.drop i = j) = l
  induction l with
  | nil => rfl
  | cons a l ih =>
    rw [List.foldl_cons, hx a]
    exact ih

/-- The in-range mask of a column of words below 8192 (at least the zero column and at most the 8191 column,
    and-reduced from 1) is 1 everywhere. -/
theorem mask_one {s t u : Shape} {axes : List (Fin s.rank)} (c lo hi : IVec s 32) (init : u.Idx → BitVec 1)
    (hr : s.ReducesTo axes t) (hu : 0 < u.numel) (j : t.Idx) (hinit : init (Shape.Idx.first hu) = 1#1)
    (hlo : ∀ i, lo i = 0#32) (hhi : ∀ i, hi i = 8191#32) (hc : ∀ i, (c i).toNat < 8192) :
    Host.reduce IntOp.andi (andi (cmpi .sge c lo) (cmpi .sle c hi)) init hr hu j = 1#1 := by
  refine reduce_andi_ones _ _ _ _ _ hinit (fun i => ?_)
  show IntOp.andi (IntOp.cmpi .sge (c i) (lo i)) (IntOp.cmpi .sle (c i) (hi i)) = 1#1
  rw [hlo, hhi]
  refine IntOp.andi_eq_one.2 ⟨?_, ?_⟩
  · rw [IntOp.cmpi_sge, toInt_of_lt _ (hc i)]
    have h0 : (0#32 : BitVec 32).toInt = 0 := by decide
    omega
  · rw [IntOp.cmpi_sle, toInt_of_lt _ (hc i)]
    have h0 : (8191#32 : BitVec 32).toInt = 8191 := by decide
    have := hc i
    omega

/-- A select on a row mask that is 1 at row i takes the first branch along row i. -/
theorem rowmask_select {α : Type} (hb : (⟨1, ![8192]⟩ : Shape).BroadcastsInDim ⟨2, ![8192, 128]⟩ ![0])
    (m : IVec ⟨1, ![8192]⟩ 1) (A B : (⟨2, ![8192, 128]⟩ : Shape).Idx → α) (i : Fin 8192) (e : Fin 128)
    (hm : m (ix1 i) = 1#1) :
    select (broadcastInDim ⟨2, ![8192, 128]⟩ ![0] hb m) A B (ix2 i e) = A (ix2 i e) := by
  rw [select_apply, broadcastInDim_apply _ _ _ (ix2 i e) (ix1 i) (fun a => by
    match a with
    | ⟨0, _⟩ => rfl), hm, select_one]

/-- The kernel's wrapped index of a row whose index is below 8192 is the index. -/
theorem kwrap_apply (ix : IVec Cert.KernelIdeal.S8192 32) (i : Fin 8192) (h : (ix (ix1 i)).toNat < 8192) :
    select (cmpi .slt ix (Cert.KernelIdeal.T.splat 0#32)) (addi ix (Cert.KernelIdeal.T.splat 8192#32)) ix (ix1 i) = ix (ix1 i) :=
  wrap_word (ix (ix1 i)) h

theorem ktake_apply (k : FVec Ideal Cert.KernelIdeal.S8192x128 .f32) (ix : IVec Cert.KernelIdeal.S8192 32)
    (h : ∀ i : Fin 8192, (ix (ix1 i)).toNat < 8192) (i : Fin 8192) (e : Fin 128) :
    Cert.KernelIdeal.T.take (F := Ideal) k ix (ix2 i e) = k (ix2 ⟨(ix (ix1 i)).toNat, h i⟩ e) := by
  unfold Cert.KernelIdeal.T.take
  dsimp only
  have hcol : ∀ j, ((broadcastInDim Cert.KernelIdeal.S8192x1 ![0] Cert.KernelIdeal.Facts₀.bcast_S8192_S8192x1_0
      (select (cmpi .slt ix (Cert.KernelIdeal.T.splat 0#32)) (addi ix (Cert.KernelIdeal.T.splat 8192#32)) ix)) j).toNat < 8192 := by
    intro j
    obtain ⟨p, z, rfl⟩ : ∃ p z, j = ix2 p z := ⟨j 0, j 1, eq_ix2 j⟩
    rw [col_apply, kwrap_apply ix p (h p)]
    exact h p
  rw [rowmask_select]
  · rw [ScatterRead.gather_rows_apply (by decide) _ rfl rfl rfl rfl rfl rfl rfl k _ i e]
    congr 2
    apply Fin.ext
    show min (_ : BitVec 32).toInt.toNat (8192 - 1) = (ix (ix1 i)).toNat
    rw [col_apply, kwrap_apply ix i (h i)]
    exact clamp_word _ (h i)
  · refine mask_one _ _ _ _ _ _ _ ?_ ?_ ?_ hcol
    · rfl
    · intro _; rfl
    · intro _; rfl

/-! ## The closing arithmetic -/

/-- Column c of the per-tile partial sums, as the 8-vector the closing sums read: entry t is o[t, c, 0]. -/
theorem tailCol_apply (o : FVec Ideal Cert.KernelIdeal.S8x8x128 .f32) (c : ℕ) (hc8 : c < 8)
    (hs : Cert.KernelIdeal.S8x8x128.Slices ![0, c, 0] Cert.KernelIdeal.S8x1x1)
    (hc : Cert.KernelIdeal.S8x1x1.ShapeCasts Cert.KernelIdeal.S8) (t : Fin 8) :
    shapeCast Cert.KernelIdeal.S8
      (extractStridedSlice Cert.KernelIdeal.S8x1x1 ![0, c, 0] o hs : FVec Ideal Cert.KernelIdeal.S8x1x1 .f32) hc (ix1 t)
      = o (ix3 t ⟨c, hc8⟩ 0) := by
  refine (shapeCast_apply _ hc (ix1 t) (ix3 t (0 : Fin 1) (0 : Fin 1)) ?_).trans ?_
  · rw [Shape.rowMajor_val_one, Shape.rowMajor_val_three]
    show (t.val * 1 + 0) * 1 + 0 = t.val
    omega
  · refine extractStridedSlice_apply _ o hs (ix3 t (0 : Fin 1) (0 : Fin 1)) (ix3 t ⟨c, hc8⟩ 0) (fun a => ?_)
    match a with
    | ⟨0, _⟩ => show t.val = 0 + t.val; omega
    | ⟨1, _⟩ => show c = c + 0; omega
    | ⟨2, _⟩ => show 0 = 0 + 0; omega

/-- The host's sum of an 8-vector from the zero word is the sum of its entries. -/
theorem sum8_apply (x : FVec Ideal Cert.KernelIdeal.S8 .f32) (hr : Cert.KernelIdeal.S8.ReducesTo [0] Cert.KernelIdeal.S_)
    (hu : 0 < Cert.KernelIdeal.S_.numel) (j : Cert.KernelIdeal.S_.Idx) :
    Host.reduceAdd x (constant (F := Ideal) Cert.KernelIdeal.S_ .f32 0x00000000#32) hr hu j = ∑ t : Fin 8, x (ix1 t) := by
  rw [hostReduceAdd_apply, Ideal.hostReduceAdd_total hr (fun b => b.elim0), constant_apply, Ideal.ofBits_zero_f32, zero_add,
    ScatterRead.sum_idx1]

theorem ktail_eq (o : FVec Ideal Cert.KernelIdeal.S8x8x128 .f32) :
    Cert.KernelIdeal.T.tail (F := Ideal) o
      = fun _ => Ideal.div (∑ t : Fin 8, o (ix3 t 0 0)) (max (∑ t : Fin 8, o (ix3 t 1 0)) Spec.one) := by
  funext j
  unfold Cert.KernelIdeal.T.tail
  dsimp only
  rw [hostDivf_apply, maximumf_apply, sum8_apply, sum8_apply, constant_apply]
  have e0 := fun t => tailCol_apply o 0 (by decide) Cert.KernelIdeal.Facts₀.slices_S8x8x128_S8x1x1_0_0_0 Cert.KernelIdeal.Facts₀.shapeCasts_S8x1x1_S8 t
  have e1 := fun t => tailCol_apply o 1 (by decide) Cert.KernelIdeal.Facts₀.slices_S8x8x128_S8x1x1_0_1_0 Cert.KernelIdeal.Facts₀.shapeCasts_S8x1x1_S8 t
  simp only [e0, e1]
  rfl

end Cert.Layout

end
-- ==== Proof.KValue.lean ====
/-
  The kernel's result as mathematics: the per-tile partial sums of the second pallas_call, read back through the host
  operations to the argument arrays — the weak encoder inside the tile, the gathered rows of the first pallas_call's
  encoder at the paired strong row, the re-laid queue, the validity column — give the tile-wise mean, over the valid
  rows, of each row's cross-entropy of target 0.
-/
import proofs.«427062_j43121471652524_2_alg».proof.Proof.Gen.KernelIdeal.Frame
import proofs.«427062_j43121471652524_2_alg».proof.Proof.Gen.ReferenceIdeal
import proofs.«427062_j43121471652524_2_alg».proof.Proof.KTerms
import proofs.«427062_j43121471652524_2_alg».proof.Proof.Spec
import proofs.«427062_j43121471652524_2_alg».proof.Proof.Comb
import proofs.«427062_j43121471652524_2_alg».proof.Proof.KReadEnds
import proofs.«427062_j43121471652524_2_alg».proof.Proof.KReadMid
import proofs.«427062_j43121471652524_2_alg».proof.Proof.KIntA
import proofs.«427062_j43121471652524_2_alg».proof.Proof.KIntB
import proofs.«427062_j43121471652524_2_alg».proof.Proof.KEnc
import proofs.«427062_j43121471652524_2_alg».proof.Proof.KLoss
import proofs.«427062_j43121471652524_2_alg».proof.Proof.Layout

set_option maxRecDepth 16384

noncomputable section

namespace Cert.KernelIdeal.KValue

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- the argument arrays of core `c`, at their literal types -/
abbrev A0 (c : Dev nD) : FVec Ideal S8192x1024 .f32 := m ((c : Thread nD τ).loc main_arg0)
abbrev A1 (c : Dev nD) : FVec Ideal S8192x1024 .f32 := m ((c : Thread nD τ).loc main_arg1)
abbrev A2 (c : Dev nD) : IVec S8192 32 := m ((c : Thread nD τ).loc main_arg2)
abbrev A3 (c : Dev nD) : IVec S8192 32 := m ((c : Thread nD τ).loc main_arg3)
abbrev A4 (c : Dev nD) : FVec Ideal S1024x128 .f32 := m ((c : Thread nD τ).loc main_arg4)
abbrev A5 (c : Dev nD) : FVec Ideal S128 .f32 := m ((c : Thread nD τ).loc main_arg5)
abbrev A6 (c : Dev nD) : FVec Ideal S1024x128 .f32 := m ((c : Thread nD τ).loc main_arg6)
abbrev A7 (c : Dev nD) : FVec Ideal S128 .f32 := m ((c : Thread nD τ).loc main_arg7)
abbrev A8 (c : Dev nD) : FVec Ideal S1024x128 .f32 := m ((c : Thread nD τ).loc main_arg8)

/-- the labels as naturals -/
abbrev sN (c : Dev nD) : Fin 8192 → ℕ := fun j => (A2 m c (ix1 j)).toNat
abbrev wN (c : Dev nD) : Fin 8192 → ℕ := fun i => (A3 m c (ix1 i)).toNat

/-- the second region's result array, at its literal type -/
def O59 (c : Dev nD) : FVec Ideal S8x8x128 .f32 := Gen.W16 (F := Ideal) m ρ c (Proc.devRef .tc main_v59)

theorem O59_apply (c : Dev nD) (j : S8x8x128.Idx) :
    O59 m ρ c j = (Gen.W16 (F := Ideal) m ρ c (Proc.devRef .tc main_v59) : S8x8x128.Idx → EReal) j := rfl

section
variable (c : Dev nD)

/-- the strong row the kernel pairs with weak row `i`, as a row number -/
def pick (i : Fin 8192) : Fin 8192 :=
  ⟨(T.idx (A2 m c) (A3 m c) (ix1 i)).toNat % 8192, Nat.mod_lt _ (by decide)⟩

theorem pick_val (hs : ∀ j : Fin 8192, (A2 m c (ix1 j)).toNat < 80) (hw : ∀ i : Fin 8192, (A3 m c (ix1 i)).toNat < 80) (i : Fin 8192) :
    (pick m c i).val = (T.idx (A2 m c) (A3 m c) (ix1 i)).toNat := by
  unfold pick
  exact Nat.mod_eq_of_lt (Spec.IsPick.lt (KIntB.idx_isPick (A2 m c) (A3 m c) hs hw i))

theorem pick_isPick (hs : ∀ j : Fin 8192, (A2 m c (ix1 j)).toNat < 80) (hw : ∀ i : Fin 8192, (A3 m c (ix1 i)).toNat < 80) (i : Fin 8192) :
    Spec.IsPick (sN m c) (wN m c) i (pick m c i).val := by
  rw [pick_val m c hs hw i]
  exact KIntB.idx_isPick (A2 m c) (A3 m c) hs hw i

/-- the weak encoder's row, read off the second region's entry contents -/
theorem q_row (i : Fin 8192) :
    (fun e : Fin 128 => Spec.encE (fun i k => (Gen.V15 (F := Ideal) m ρ c main_arg1 : S8192x1024.Idx → EReal) (ix2 i k))
        (fun k e => (Gen.V15 (F := Ideal) m ρ c main_arg4 : S1024x128.Idx → EReal) (ix2 k e))
        (fun e => (Gen.V15 (F := Ideal) m ρ c main_v58 : S1x128.Idx → EReal) (ix2 0 e)) i e)
      = Spec.encE (fun i k => A1 m c (ix2 i k)) (fun k e => A4 m c (ix2 k e)) (fun e => A5 m c (ix1 e)) i := by
  have h1 : (Gen.V15 (F := Ideal) m ρ c main_arg1 : S8192x1024.Idx → EReal) = A1 m c := KRead.W15_arg1 m ρ c
  have h4 : (Gen.V15 (F := Ideal) m ρ c main_arg4 : S1024x128.Idx → EReal) = A4 m c := KRead.W15_arg4 m ρ c
  have h58 : (Gen.V15 (F := Ideal) m ρ c main_v58 : S1x128.Idx → EReal) = T.row128 (F := Ideal) (A5 m c) := KRead.W15_v58 m ρ c
  rw [h1, h4, h58]
  funext e
  congr 1
  funext e'
  exact Layout.krow128_apply (A5 m c) e'

/-- the gathered key row: the first region's encoder at the paired strong row -/
theorem k_row (hs : ∀ j : Fin 8192, (A2 m c (ix1 j)).toNat < 80) (hw : ∀ i : Fin 8192, (A3 m c (ix1 i)).toNat < 80) (i : Fin 8192) :
    (fun e : Fin 128 => (Gen.V15 (F := Ideal) m ρ c main_v54 : S8192x128.Idx → EReal) (ix2 i e))
      = Spec.encE (fun i k => A0 m c (ix2 i k)) (fun k e => A6 m c (ix2 k e)) (fun e => A7 m c (ix1 e)) (pick m c i) := by
  have h54 : (Gen.V15 (F := Ideal) m ρ c main_v54 : S8192x128.Idx → EReal)
      = T.take (F := Ideal) (Gen.W2 (F := Ideal) m ρ c (Proc.devRef .tc main_v1)) (T.idx (A2 m c) (A3 m c)) := KRead.W15_v54 m ρ c
  have hlt : ∀ i : Fin 8192, (T.idx (A2 m c) (A3 m c) (ix1 i)).toNat < 8192 :=
    fun i => Spec.IsPick.lt (KIntB.idx_isPick (A2 m c) (A3 m c) hs hw i)
  have h0 : (Gen.V1 (F := Ideal) m ρ c main_arg0 : S8192x1024.Idx → EReal) = A0 m c := KRead.W1_arg0 m ρ c
  have h6 : (Gen.V1 (F := Ideal) m ρ c main_arg6 : S1024x128.Idx → EReal) = A6 m c := KRead.W1_arg6 m ρ c
  have hv0 : (Gen.V1 (F := Ideal) m ρ c main_v0 : S1x128.Idx → EReal) = T.row128 (F := Ideal) (A7 m c) := KRead.W1_v0 m ρ c
  rw [h54]
  funext e
  rw [Layout.ktake_apply _ _ hlt i e]
  refine (KEnc.enc_value m ρ c _ e).trans ?_
  rw [h0, h6, hv0]
  have hp : ∀ (x : ℕ) (hx : x < 8192), x = (pick m c i).val → (⟨x, hx⟩ : Fin 8192) = pick m c i :=
    fun x hx h => Fin.ext h
  rw [hp _ (hlt i) (pick_val m c hs hw i).symm]
  congr 1
  funext e'
  exact Layout.krow128_apply (A7 m c) e'

theorem qr_eq : (fun (e : Fin 128) (n : Fin 1024) => (Gen.V15 (F := Ideal) m ρ c main_v57 : S128x1024.Idx → EReal) (ix2 e n))
    = Spec.relay (fun a b => A8 m c (ix2 a b)) := by
  have h57 : (Gen.V15 (F := Ideal) m ρ c main_v57 : S128x1024.Idx → EReal) = T.queueR (F := Ideal) (A8 m c) := KRead.W15_v57 m ρ c
  rw [h57]
  funext e n
  exact Layout.kqueueR_apply (A8 m c) e n

theorem vv_eq (hw : ∀ i : Fin 8192, (A3 m c (ix1 i)).toNat < 80) (i : Fin 8192) : (Gen.V15 (F := Ideal) m ρ c main_v56 : S8192x1.Idx → EReal) (ix2 i 0)
    = Spec.vf (decide (0 < Spec.cnt (sN m c) (wN m c) i)) := by
  have h56 : (Gen.V15 (F := Ideal) m ρ c main_v56 : S8192x1.Idx → EReal) = T.validF (F := Ideal) (A2 m c) (A3 m c) := KRead.W15_v56 m ρ c
  rw [h56, Layout.kvalidF_apply, KIntA.valid_apply (A2 m c) (A3 m c) hw i]
  by_cases h : 0 < Spec.cnt (sN m c) (wN m c) i
  · simp [h]
  · simp [h]

/-- the kernel's result -/
theorem kernel_value (hs : ∀ j : Fin 8192, (A2 m c (ix1 j)).toNat < 80) (hw : ∀ i : Fin 8192, (A3 m c (ix1 i)).toNat < 80) :
    Gen.W17 (F := Ideal) m ρ c (Proc.devRef .tc main_v67) = fun _ =>
      Spec.totalK
        (fun i => Spec.rowK
          (Spec.lpE (Spec.encE (fun i k => A1 m c (ix2 i k)) (fun k e => A4 m c (ix2 k e)) (fun e => A5 m c (ix1 e)) i)
                    (Spec.encE (fun i k => A0 m c (ix2 i k)) (fun k e => A6 m c (ix2 k e)) (fun e => A7 m c (ix1 e)) (pick m c i)))
          (Spec.lnE (Spec.encE (fun i k => A1 m c (ix2 i k)) (fun k e => A4 m c (ix2 k e)) (fun e => A5 m c (ix1 e)) i)
                    (Spec.relay fun a b => A8 m c (ix2 a b))))
        (fun i => decide (0 < Spec.cnt (sN m c) (wN m c) i)) := by
  have hW : Gen.W17 (F := Ideal) m ρ c (Proc.devRef .tc main_v67) = T.tail (F := Ideal) (O59 m ρ c) := KRead.W17_v67 m ρ c
  rw [hW, Layout.ktail_eq (O59 m ρ c)]
  funext _
  unfold Spec.totalK
  congr 1
  · refine Finset.sum_congr rfl fun t _ => ?_
    refine ((O59_apply m ρ c _).trans (KLoss.tile_ce m ρ c t)).trans ?_
    refine Finset.sum_congr rfl fun r _ => ?_
    rw [q_row m ρ c (Spec.tileRow t r), k_row m ρ c hs hw (Spec.tileRow t r), qr_eq m ρ c, vv_eq m ρ c hw (Spec.tileRow t r)]
  · congr 1
    refine Finset.sum_congr rfl fun t _ => ?_
    refine ((O59_apply m ρ c _).trans (KLoss.tile_nv m ρ c t)).trans ?_
    refine Finset.sum_congr rfl fun r _ => ?_
    exact vv_eq m ρ c hw (Spec.tileRow t r)

end

end Cert.KernelIdeal.KValue

end
-- ==== Proof.LibTRef.lean ====
/-
  A typed reference's two transports — contents at the value's type to contents of the buffer and back — cancel.
-/
import Idealize.ShloMosaic.Lib.StableHlo

namespace Idealize.ShloMosaic.StableHlo.TRef

variable {sig : RefSig} {Val : EltTy → Type} {T : BufTy}

/-- Reading back through a typed reference what was put through it is the identity: both are the transport along
    the one equation `ref.ty = T`, in opposite directions. -/
theorem ofBuf_toBuf (x : TRef sig T) (v : T.Contents Val) : x.ofBuf (x.toBuf v) = v := by
  unfold TRef.ofBuf TRef.toBuf
  simp

/-- The other way round. -/
theorem toBuf_ofBuf (x : TRef sig T) (v : x.ref.ty.Contents Val) : x.toBuf (x.ofBuf v) = v := by
  unfold TRef.ofBuf TRef.toBuf
  simp

end Idealize.ShloMosaic.StableHlo.TRef
-- ==== Proof.RRun.lean ====
/-
  The reference's @main as one straight line of its host operations, the outlined functions (the strict lower
  triangle, the integer remainder with its select, the row argmax, the log-softmax) listed at their call sites over
  each call's buffers, and its run read back: every weakly fair execution terminates with the result buffer at the
  composed pure function of the nine argument arrays and the arguments unchanged. The line is read in two stretches
  (the statements up to the positive logit's row sum, then the rest): the first leaves the query rows, the validity
  bits and the positive logit as functions of the arguments, the second is the loss as a function of those.
-/
import proofs.«427062_j43121471652524_2_alg».proof.ReferenceIdeal
import proofs.«427062_j43121471652524_2_alg».proof.Proof.Gen.ReferenceIdeal
import proofs.«427062_j43121471652524_2_alg».proof.Proof.RTerms
import proofs.«427062_j43121471652524_2_alg».proof.Proof.LibTRef
import Idealize.ShloMosaic.Lib.StableHlo.Run

set_option synthInstance.maxSize 4096
-- one declaration at a time: each read-back below walks the whole line
set_option Elab.async false

noncomputable section

namespace Cert.ReferenceIdeal.RRun

open Cert.ReferenceIdeal Idealize.ShloMosaic Idealize.ShloMosaic.TcCoe Idealize.SL.Sem Idealize.ShloMosaic.StableHlo

variable {F : FTy → Type} [FloatOps F] [Facts]
open Facts₀ Facts

/-- the positive column beside the 1024 negative ones, as a function of the two pieces -/
def cat2 (a : FVec F S8192x1 .f32) (b : FVec F S8192x1024 .f32) : FVec F S8192x1025 .f32 :=
  concatenate S8192x1025 1 [⟨S8192x1, a⟩, ⟨S8192x1024, b⟩] concatenates_S8192x1_S8192x1024_S8192x1025_d1

/-- the first stretch: statements 1 … 60 of @main, the calls unfolded (99 operations) -/
abbrev ops0 : List (HloOp τ sig (Elt F)) :=
  [ StableHlo.binary main_arg1 main_arg4 main_v0 ((fun l r => Host.dotGeneral dot_S8192x1024_S1024x128_S8192x128_1_0_0_1_n_n none l r) : (⟨S8192x1024, .f32⟩ : BufTy).Contents (Elt F) → (⟨S1024x128, .f32⟩ : BufTy).Contents (Elt F) → (⟨S8192x128, .f32⟩ : BufTy).Contents (Elt F)),
    StableHlo.unary main_arg5 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S8192x128 ![0, 1] bcast_S1x128_S8192x128_0_1 : (⟨S1x128, .f32⟩ : BufTy).Contents (Elt F) → (⟨S8192x128, .f32⟩ : BufTy).Contents (Elt F)),
    StableHlo.binary main_v0 main_v2 main_v3 (addf : (⟨S8192x128, .f32⟩ : BufTy).Contents (Elt F) → (⟨S8192x128, .f32⟩ : BufTy).Contents (Elt F) → (⟨S8192x128, .f32⟩ : BufTy).Contents (Elt F)),
    StableHlo.binary main_arg0 main_arg6 main_v4 ((fun l r => Host.dotGeneral dot_S8192x1024_S1024x128_S8192x128_1_0_0_1_n_n none l r) : (⟨S8192x1024, .f32⟩ : BufTy).Contents (Elt F) → (⟨S1024x128, .f32⟩ : BufTy).Contents (Elt F) → (⟨S8192x128, .f32⟩ : BufTy).Contents (Elt F)),
    StableHlo.unary main_arg7 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S8192x128 ![0, 1] bcast_S1x128_S8192x128_0_1 : (⟨S1x128, .f32⟩ : BufTy).Contents (Elt F) → (⟨S8192x128, .f32⟩ : BufTy).Contents (Elt F)),
    StableHlo.binary main_v4 main_v6 main_v7 (addf : (⟨S8192x128, .f32⟩ : BufTy).Contents (Elt F) → (⟨S8192x128, .f32⟩ : BufTy).Contents (Elt F) → (⟨S8192x128, .f32⟩ : BufTy).Contents (Elt F)),
    StableHlo.unary main_arg3 main_v8 (broadcastInDim S8192x1 ![0] bcast_S8192_S8192x1_0 : (⟨S8192, .i32⟩ : BufTy).Contents (Elt F) → (⟨S8192x1, .i32⟩ : BufTy).Contents (Elt F)),
    StableHlo.unary main_arg2 main_v9 (broadcastInDim S1x8192 ![1] bcast_S8192_S1x8192_1 : (⟨S8192, .i32⟩ : BufTy).Contents (Elt F) → (⟨S1x8192, .i32⟩ : BufTy).Contents (Elt F)),
    StableHlo.unary main_v8 main_v10 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v9 main_v11 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v10 main_v11 main_v12 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v12 main_v13 ((extui 32 · natLt_1_32) : (⟨S8192x8192, .i1⟩ : BufTy).Contents (Elt F) → (⟨S8192x8192, .i32⟩ : BufTy).Contents (Elt F)),
    StableHlo.nullary main_c (constantI S_ 32 0#32),
    StableHlo.binary main_v13 main_c main_v14 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    StableHlo.nullary main_c_0 (constantI S_ 32 0#32),
    StableHlo.unary main_c_0 main_v15 (broadcastInDim S8192 ![] bcast_S_S8192 : (⟨S_, .i32⟩ : BufTy).Contents (Elt F) → (⟨S8192, .i32⟩ : BufTy).Contents (Elt F)),
    StableHlo.binary main_v14 main_v15 main_v16 (cmpi .sgt : (⟨S8192, .i32⟩ : BufTy).Contents (Elt F) → (⟨S8192, .i32⟩ : BufTy).Contents (Elt F) → (⟨S8192, .i1⟩ : BufTy).Contents (Elt F)),
    StableHlo.unary main_arg3 main_v17 (broadcastInDim S8192x1 ![0] bcast_S8192_S8192x1_0 : (⟨S8192, .i32⟩ : BufTy).Contents (Elt F) → (⟨S8192x1, .i32⟩ : BufTy).Contents (Elt F)),
    StableHlo.unary main_arg3 main_v18 (broadcastInDim S1x8192 ![1] bcast_S8192_S1x8192_1 : (⟨S8192, .i32⟩ : BufTy).Contents (Elt F) → (⟨S1x8192, .i32⟩ : BufTy).Contents (Elt F)),
    StableHlo.unary main_v17 main_v19 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v18 main_v20 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v19 main_v20 main_v21 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v21 main_v22 ((extui 32 · natLt_1_32) : (⟨S8192x8192, .i1⟩ : BufTy).Contents (Elt F) → (⟨S8192x8192, .i32⟩ : BufTy).Contents (Elt F)),
    StableHlo.TRef.nullary main_call0.v0 (iotaInDim S8192x8192 32 0),
    StableHlo.TRef.nullary main_call0.c (constantI S_ 32 4294967295#32),
    StableHlo.TRef.unary main_call0.c main_call0.v1 (broadcastInDim S8192x8192 ![] bcast_S_S8192x8192),
    StableHlo.TRef.binary main_call0.v0 main_call0.v1 main_call0.v2 addi,
    StableHlo.TRef.nullary main_call0.v3 (iotaInDim S8192x8192 32 1),
    StableHlo.TRef.binary main_call0.v2 main_call0.v3 main_call0.v4 (cmpi .sge),
    StableHlo.TRef.nullary main_call0.c_0 (constantI S_ 32 0#32),
    StableHlo.TRef.unary main_call0.c_0 main_call0.v5 (broadcastInDim S8192x8192 ![] bcast_S_S8192x8192),
    StableHlo.TRef.ternary main_call0.v4 (.of main_v22 : TRef sig ⟨S8192x8192, .i32⟩) main_call0.v5 main_call0.v6 select,
    StableHlo.nullary main_c_1 (constantI S_ 32 0#32),
    StableHlo.binary main_v23 main_c_1 main_v24 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    StableHlo.nullary main_c_2 (constantI S_ 32 1#32),
    StableHlo.unary main_c_2 main_v25 (broadcastInDim S8192 ![] bcast_S_S8192 : (⟨S_, .i32⟩ : BufTy).Contents (Elt F) → (⟨S8192, .i32⟩ : BufTy).Contents (Elt F)),
    StableHlo.binary main_v14 main_v25 main_v26 (maxsi : (⟨S8192, .i32⟩ : BufTy).Contents (Elt F) → (⟨S8192, .i32⟩ : BufTy).Contents (Elt F) → (⟨S8192, .i32⟩ : BufTy).Contents (Elt F)),
    StableHlo.TRef.nullary main_call1.c (constantI S_ 32 0#32),
    StableHlo.TRef.unary main_call1.c main_call1.v0 (broadcastInDim S8192 ![] bcast_S_S8192),
    StableHlo.TRef.binary (.of main_v26 : TRef sig ⟨S8192, .i32⟩) main_call1.v0 main_call1.v1 (cmpi .eq),
    StableHlo.TRef.nullary main_call1.c_0 (constantI S_ 32 1#32),
    StableHlo.TRef.unary main_call1.c_0 main_call1.v2 (broadcastInDim S8192 ![] bcast_S_S8192),
    StableHlo.TRef.ternary main_call1.v1 main_call1.v2 (.of main_v26 : TRef sig ⟨S8192, .i32⟩) main_call1.call0.v0 select,
    StableHlo.TRef.binary (.of main_v24 : TRef sig ⟨S8192, .i32⟩) main_call1.call0.v0 main_call1.v4 Host.remsi,
    StableHlo.TRef.nullary main_call1.c_1 (constantI S_ 32 0#32),
    StableHlo.TRef.unary main_call1.c_1 main_call1.v5 (broadcastInDim S8192 ![] bcast_S_S8192),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S8192 ![] bcast_S_S8192),
    StableHlo.TRef.binary main_call1.v4 main_call1.v7 main_call1.v8 (cmpi .slt),
    StableHlo.TRef.nullary main_call1.c_3 (constantI S_ 32 0#32),
    StableHlo.TRef.unary main_call1.c_3 main_call1.v9 (broadcastInDim S8192 ![] bcast_S_S8192),
    StableHlo.TRef.binary main_call1.call0.v0 main_call1.v9 main_call1.v10 (cmpi .slt),
    StableHlo.TRef.binary main_call1.v8 main_call1.v10 main_call1.v11 (cmpi .ne),
    StableHlo.TRef.binary main_call1.v11 main_call1.v6 main_call1.v12 andi,
    StableHlo.TRef.binary main_call1.v4 main_call1.call0.v0 main_call1.v13 addi,
    StableHlo.TRef.ternary main_call1.v12 main_call1.v13 main_call1.v4 main_call1.v14 select,
    StableHlo.unary main_arg2 main_v28 (broadcastInDim S8192x1 ![0] bcast_S8192_S8192x1_0 : (⟨S8192, .i32⟩ : BufTy).Contents (Elt F) → (⟨S8192x1, .i32⟩ : BufTy).Contents (Elt F)),
    StableHlo.unary main_arg2 main_v29 (broadcastInDim S1x8192 ![1] bcast_S8192_S1x8192_1 : (⟨S8192, .i32⟩ : BufTy).Contents (Elt F) → (⟨S1x8192, .i32⟩ : BufTy).Contents (Elt F)),
    StableHlo.unary main_v28 main_v30 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v29 main_v31 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v30 main_v31 main_v32 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v32 main_v33 ((extui 32 · natLt_1_32) : (⟨S8192x8192, .i1⟩ : BufTy).Contents (Elt F) → (⟨S8192x8192, .i32⟩ : BufTy).Contents (Elt F)),
    StableHlo.TRef.nullary main_call2.v0 (iotaInDim S8192x8192 32 0),
    StableHlo.TRef.nullary main_call2.c (constantI S_ 32 4294967295#32),
    StableHlo.TRef.unary main_call2.c main_call2.v1 (broadcastInDim S8192x8192 ![] bcast_S_S8192x8192),
    StableHlo.TRef.binary main_call2.v0 main_call2.v1 main_call2.v2 addi,
    StableHlo.TRef.nullary main_call2.v3 (iotaInDim S8192x8192 32 1),
    StableHlo.TRef.binary main_call2.v2 main_call2.v3 main_call2.v4 (cmpi .sge),
    StableHlo.TRef.nullary main_call2.c_0 (constantI S_ 32 0#32),
    StableHlo.TRef.unary main_call2.c_0 main_call2.v5 (broadcastInDim S8192x8192 ![] bcast_S_S8192x8192),
    StableHlo.TRef.ternary main_call2.v4 (.of main_v33 : TRef sig ⟨S8192x8192, .i32⟩) main_call2.v5 main_call2.v6 select,
    StableHlo.nullary main_c_3 (constantI S_ 32 0#32),
    StableHlo.binary main_v34 main_c_3 main_v35 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    StableHlo.unary main_v35 main_v36 (broadcastInDim S1x8192 ![1] bcast_S8192_S1x8192_1 : (⟨S8192, .i32⟩ : BufTy).Contents (Elt F) → (⟨S1x8192, .i32⟩ : BufTy).Contents (Elt F)),
    StableHlo.unary main_v27 main_v37 (broadcastInDim S8192x1 ![0] bcast_S8192_S8192x1_0 : (⟨S8192, .i32⟩ : BufTy).Contents (Elt F) → (⟨S8192x1, .i32⟩ : BufTy).Contents (Elt F)),
    StableHlo.unary main_v36 main_v38 (broadcastInDim S8192x8192 ![0, 1] bcast_S1x8192_S8192x8192_0_1 : (⟨S1x8192, .i32⟩ : BufTy).Contents (Elt F) → (⟨S8192x8192, .i32⟩ : BufTy).Contents (Elt F)),
    StableHlo.unary main_v37 main_v39 (broadcastInDim S8192x8192 ![0, 1] bcast_S8192x1_S8192x8192_0_1 : (⟨S8192x1, .i32⟩ : BufTy).Contents (Elt F) → (⟨S8192x8192, .i32⟩ : BufTy).Contents (Elt F)),
    StableHlo.binary main_v38 main_v39 main_v40 (cmpi .eq : (⟨S8192x8192, .i32⟩ : BufTy).Contents (Elt F) → (⟨S8192x8192, .i32⟩ : BufTy).Contents (Elt F) → (⟨S8192x8192, .i1⟩ : BufTy).Contents (Elt F)),
    StableHlo.binary main_v12 main_v40 main_v41 (andi : (⟨S8192x8192, .i1⟩ : BufTy).Contents (Elt F) → (⟨S8192x8192, .i1⟩ : BufTy).Contents (Elt F) → (⟨S8192x8192, .i1⟩ : BufTy).Contents (Elt F)),
    StableHlo.TRef.nullary main_call3.v0 (iotaInDim S8192x8192 32 1),
    StableHlo.TRef.nullary main_call3.c (constantI S_ 1 0#1),
    StableHlo.TRef.nullary main_call3.c_0 (constantI S_ 32 0#32),
    StableHlo.TRef.quaternary (.of main_v41 : TRef sig ⟨S8192x8192, .i1⟩) main_call3.v0 main_call3.c main_call3.c_0 main_call3.v1_0 (fun x y u v j => (Host.reduce2 reducer_argmax_i1_i32 x y u v reducesTo_S8192x8192_S8192_d1 h_S_ j).1),
    StableHlo.TRef.quaternary (.of main_v41 : TRef sig ⟨S8192x8192, .i1⟩) main_call3.v0 main_call3.c main_call3.c_0 main_call3.v1_1 (fun x y u v j => (Host.reduce2 reducer_argmax_i1_i32 x y u v reducesTo_S8192x8192_S8192_d1 h_S_ j).2),
    StableHlo.nullary main_c_4 (constantI S_ 32 0#32),
    StableHlo.unary main_c_4 main_v43 (broadcastInDim S8192 ![] bcast_S_S8192 : (⟨S_, .i32⟩ : BufTy).Contents (Elt F) → (⟨S8192, .i32⟩ : BufTy).Contents (Elt F)),
    StableHlo.binary main_v42 main_v43 main_v44 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 8192#32),
    StableHlo.unary main_c_5 main_v45 (broadcastInDim S8192 ![] bcast_S_S8192 : (⟨S_, .i32⟩ : BufTy).Contents (Elt F) → (⟨S8192, .i32⟩ : BufTy).Contents (Elt F)),
    StableHlo.binary main_v42 main_v45 main_v46 (addi : (⟨S8192, .i32⟩ : BufTy).Contents (Elt F) → (⟨S8192, .i32⟩ : BufTy).Contents (Elt F) → (⟨S8192, .i32⟩ : BufTy).Contents (Elt F)),
    StableHlo.ternary main_v44 main_v46 main_v42 main_v47 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v47 main_v48 (broadcastInDim S8192x1 ![0] bcast_S8192_S8192x1_0 : (⟨S8192, .i32⟩ : BufTy).Contents (Elt F) → (⟨S8192x1, .i32⟩ : BufTy).Contents (Elt F)),
    StableHlo.binary main_v7 main_v48 main_v49 ((fun x i => Host.gather gather_S8192x128_S8192x1_S8192x128_1_0_n_n_0_1_1128 x i) : (⟨S8192x128, .f32⟩ : BufTy).Contents (Elt F) → (⟨S8192x1, .i32⟩ : BufTy).Contents (Elt F) → (⟨S8192x128, .f32⟩ : BufTy).Contents (Elt F)),
    StableHlo.binary main_v3 main_v49 main_v50 (mulf : (⟨S8192x128, .f32⟩ : BufTy).Contents (Elt F) → (⟨S8192x128, .f32⟩ : BufTy).Contents (Elt F) → (⟨S8192x128, .f32⟩ : BufTy).Contents (Elt F)),
    StableHlo.nullary main_cst (constant S_ .f32 0x00000000#32),
    StableHlo.binary main_v50 main_cst main_v51 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)) ]

/-- the second stretch: statements 61 … 78 of @main, the call unfolded (31 operations) -/
abbrev ops1 : List (HloOp τ sig (Elt F)) :=
  [ StableHlo.unary main_v51 main_v52 (broadcastInDim S8192x1 ![0] bcast_S8192_S8192x1_0 : (⟨S8192, .f32⟩ : BufTy).Contents (Elt F) → (⟨S8192x1, .f32⟩ : BufTy).Contents (Elt F)),
    StableHlo.reshape main_arg8 main_v53 rfl shapeCasts_S1024x128_S128x1024,
    StableHlo.binary main_v3 main_v53 main_v54 ((fun l r => Host.dotGeneral dot_S8192x128_S128x1024_S8192x1024_1_0_0_1_n_n none l r) : (⟨S8192x128, .f32⟩ : BufTy).Contents (Elt F) → (⟨S128x1024, .f32⟩ : BufTy).Contents (Elt F) → (⟨S8192x1024, .f32⟩ : BufTy).Contents (Elt F)),
    StableHlo.binary main_v52 main_v54 main_v55 (cat2 : (⟨S8192x1, .f32⟩ : BufTy).Contents (Elt F) → (⟨S8192x1024, .f32⟩ : BufTy).Contents (Elt F) → (⟨S8192x1025, .f32⟩ : BufTy).Contents (Elt F)),
    StableHlo.TRef.nullary main_call4.cst (constant S_ .f32 0xFF800000#32),
    StableHlo.TRef.binary (.of main_v55 : TRef sig ⟨S8192x1025, .f32⟩) main_call4.cst main_call4.v0 (fun x v => Host.reduce FloatOps.maximumf x v reducesTo_S8192x1025_S8192_d1 h_S_),
    StableHlo.TRef.nullary main_call4.cst_0 (constant S_ .f32 0xFF800000#32),
    StableHlo.TRef.unary main_call4.cst_0 main_call4.v1 (broadcastInDim S8192 ![] bcast_S_S8192),
    StableHlo.TRef.binary main_call4.v1 main_call4.v0 main_call4.v2 maximumf,
    StableHlo.TRef.unary main_call4.v2 main_call4.v3 (broadcastInDim S8192x1 ![0] bcast_S8192_S8192x1_0),
    StableHlo.TRef.unary main_call4.v3 main_call4.v4 (broadcastInDim S8192x1025 ![0, 1] bcast_S8192x1_S8192x1025_0_1),
    StableHlo.TRef.binary (.of main_v55 : TRef sig ⟨S8192x1025, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S8192x1025_S8192_d1 h_S_),
    StableHlo.TRef.unary main_call4.v7 main_call4.v8 (broadcastInDim S8192x1 ![0] bcast_S8192_S8192x1_0),
    StableHlo.TRef.unary main_call4.v8 main_call4.v9 Host.log,
    StableHlo.TRef.unary main_call4.v9 main_call4.v10 (broadcastInDim S8192x1025 ![0, 1] bcast_S8192x1_S8192x1025_0_1),
    StableHlo.TRef.binary main_call4.v5 main_call4.v10 main_call4.v11 subf,
    StableHlo.unary main_v56 main_v57 ((extractStridedSlice S8192x1 ![0, 0] · slices_S8192x1025_S8192x1_0_0) : (⟨S8192x1025, .f32⟩ : BufTy).Contents (Elt F) → (⟨S8192x1, .f32⟩ : BufTy).Contents (Elt F)),
    StableHlo.reshape main_v57 main_v58 rfl shapeCasts_S8192x1_S8192,
    StableHlo.unary main_v58 main_v59 (Host.negf : (⟨S8192, .f32⟩ : BufTy).Contents (Elt F) → (⟨S8192, .f32⟩ : BufTy).Contents (Elt F)),
    StableHlo.unary main_v16 main_v60 (uitofp .f32 : (⟨S8192, .i1⟩ : BufTy).Contents (Elt F) → (⟨S8192, .f32⟩ : BufTy).Contents (Elt F)),
    StableHlo.binary main_v59 main_v60 main_v61 (mulf : (⟨S8192, .f32⟩ : BufTy).Contents (Elt F) → (⟨S8192, .f32⟩ : BufTy).Contents (Elt F) → (⟨S8192, .f32⟩ : BufTy).Contents (Elt F)),
    StableHlo.nullary main_cst_6 (constant S_ .f32 0x00000000#32),
    StableHlo.binary main_v61 main_cst_6 main_v62 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_7 (constant S_ .f32 0x00000000#32),
    StableHlo.binary main_v60 main_cst_7 main_v63 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_8 (constant S_ .f32 0x3F800000#32),
    StableHlo.binary main_v63 main_cst_8 main_v64 (maximumf : (⟨S_, .f32⟩ : BufTy).Contents (Elt F) → (⟨S_, .f32⟩ : BufTy).Contents (Elt F) → (⟨S_, .f32⟩ : BufTy).Contents (Elt F)),
    StableHlo.binary main_v62 main_v64 main_v65 (Host.divf : (⟨S_, .f32⟩ : BufTy).Contents (Elt F) → (⟨S_, .f32⟩ : BufTy).Contents (Elt F) → (⟨S_, .f32⟩ : BufTy).Contents (Elt F)) ]

/-- @main's 130 operations, in order -/
abbrev ops : List (HloOp τ sig (Elt F)) := ops0 ++ ops1

/-- the contents after two lines run one after the other -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 4096 in
set_option maxHeartbeats 400000 in
theorem part0_eq (c : Dev nD) : main_part0 (F := F) c = seq ops0 := by
  simp only [main_part0, fn_tril.body, fn_remainder.body, fn_where.body, fn_argmax.body, seq, bind_assoc, pure_bind]
  rfl

set_option maxRecDepth 4096 in
set_option maxHeartbeats 400000 in
theorem part1_eq (c : Dev nD) : main_part1 (F := F) c = seq ops1 := by
  simp only [main_part1, fn_log_softmax.body, seq, bind_assoc, pure_bind]
  rfl

theorem main_eq (c : Dev nD) : main (F := F) c = seq ops := by
  show (main_part0 (F := F) c >>= fun _ => main_part1 (F := F) c) = seq (ops0 ++ ops1)
  rw [seq_append, part0_eq, part1_eq]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub .., unary_bufs_sub .., unary_bufs_sub .., unary_bufs_sub .., unary_bufs_sub ..,
    binary_bufs_sub .., unary_bufs_sub .., nullary_bufs_sub .., binary_bufs_sub .., nullary_bufs_sub .., unary_bufs_sub ..,
    binary_bufs_sub .., unary_bufs_sub .., unary_bufs_sub .., unary_bufs_sub .., unary_bufs_sub .., binary_bufs_sub ..,
    unary_bufs_sub .., nullary_bufs_sub .., nullary_bufs_sub .., unary_bufs_sub .., binary_bufs_sub .., nullary_bufs_sub ..,
    binary_bufs_sub .., nullary_bufs_sub .., unary_bufs_sub .., ternary_bufs_sub .., nullary_bufs_sub .., binary_bufs_sub ..,
    nullary_bufs_sub .., unary_bufs_sub .., binary_bufs_sub .., nullary_bufs_sub .., unary_bufs_sub .., binary_bufs_sub ..,
    nullary_bufs_sub .., unary_bufs_sub .., ternary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., binary_bufs_sub .., binary_bufs_sub .., binary_bufs_sub .., ternary_bufs_sub .., unary_bufs_sub ..,
    unary_bufs_sub .., unary_bufs_sub .., unary_bufs_sub .., binary_bufs_sub .., unary_bufs_sub .., nullary_bufs_sub ..,
    nullary_bufs_sub .., unary_bufs_sub .., binary_bufs_sub .., nullary_bufs_sub .., binary_bufs_sub .., nullary_bufs_sub ..,
    unary_bufs_sub .., ternary_bufs_sub .., nullary_bufs_sub .., binary_bufs_sub .., unary_bufs_sub .., unary_bufs_sub ..,
    unary_bufs_sub .., unary_bufs_sub .., binary_bufs_sub .., binary_bufs_sub .., nullary_bufs_sub .., nullary_bufs_sub ..,
    nullary_bufs_sub .., quaternary_bufs_sub .., quaternary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., binary_bufs_sub ..⟩

theorem ops1_sub : (ops1 : List (HloOp τ sig (Elt F))).Forall fun op => op.bufs ⊆ tcRefs τ sig :=
  ⟨unary_bufs_sub .., reshape_bufs_sub .., binary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., unary_bufs_sub ..,
    binary_bufs_sub .., unary_bufs_sub .., reshape_bufs_sub .., unary_bufs_sub .., unary_bufs_sub .., binary_bufs_sub ..,
    nullary_bufs_sub .., binary_bufs_sub .., nullary_bufs_sub .., binary_bufs_sub .., nullary_bufs_sub .., binary_bufs_sub ..,
    binary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

/-! ## Reading a buffer at its value's type

A call's operations read and write their buffers at the type of the tensor value each holds; at a literal buffer
that transport is the identity (for an operand of a call, and for a call's result read by @main). -/

theorem ofBuf_v22 (p1 p2 p3) (v : (⟨S8192x8192, .i32⟩ : BufTy).Contents (Elt F)) :
    (TRef.of main_v22 p1 p2 p3 : TRef sig ⟨S8192x8192, .i32⟩).ofBuf (Val := Elt F) v = v := rfl
theorem ofBuf_v24 (p1 p2 p3) (v : (⟨S8192, .i32⟩ : BufTy).Contents (Elt F)) :
    (TRef.of main_v24 p1 p2 p3 : TRef sig ⟨S8192, .i32⟩).ofBuf (Val := Elt F) v = v := rfl
theorem ofBuf_v26 (p1 p2 p3) (v : (⟨S8192, .i32⟩ : BufTy).Contents (Elt F)) :
    (TRef.of main_v26 p1 p2 p3 : TRef sig ⟨S8192, .i32⟩).ofBuf (Val := Elt F) v = v := rfl
theorem ofBuf_v33 (p1 p2 p3) (v : (⟨S8192x8192, .i32⟩ : BufTy).Contents (Elt F)) :
    (TRef.of main_v33 p1 p2 p3 : TRef sig ⟨S8192x8192, .i32⟩).ofBuf (Val := Elt F) v = v := rfl
theorem ofBuf_v41 (p1 p2 p3) (v : (⟨S8192x8192, .i1⟩ : BufTy).Contents (Elt F)) :
    (TRef.of main_v41 p1 p2 p3 : TRef sig ⟨S8192x8192, .i1⟩).ofBuf (Val := Elt F) v = v := rfl
theorem ofBuf_v55 (p1 p2 p3) (v : (⟨S8192x1025, .f32⟩ : BufTy).Contents (Elt F)) :
    (TRef.of main_v55 p1 p2 p3 : TRef sig ⟨S8192x1025, .f32⟩).ofBuf (Val := Elt F) v = v := rfl
theorem toBuf_v23 (p1 p2 p3) (v : (⟨S8192x8192, .i32⟩ : BufTy).Contents (Elt F)) :
    (TRef.of main_v23 p1 p2 p3 : TRef sig ⟨S8192x8192, .i32⟩).toBuf (Val := Elt F) v = v := rfl
theorem toBuf_v27 (p1 p2 p3) (v : (⟨S8192, .i32⟩ : BufTy).Contents (Elt F)) :
    (TRef.of main_v27 p1 p2 p3 : TRef sig ⟨S8192, .i32⟩).toBuf (Val := Elt F) v = v := rfl
theorem toBuf_v34 (p1 p2 p3) (v : (⟨S8192x8192, .i32⟩ : BufTy).Contents (Elt F)) :
    (TRef.of main_v34 p1 p2 p3 : TRef sig ⟨S8192x8192, .i32⟩).toBuf (Val := Elt F) v = v := rfl
theorem toBuf_v42 (p1 p2 p3) (v : (⟨S8192, .i32⟩ : BufTy).Contents (Elt F)) :
    (TRef.of main_v42 p1 p2 p3 : TRef sig ⟨S8192, .i32⟩).toBuf (Val := Elt F) v = v := rfl
theorem toBuf_v56 (p1 p2 p3) (v : (⟨S8192x1025, .f32⟩ : BufTy).Contents (Elt F)) :
    (TRef.of main_v56 p1 p2 p3 : TRef sig ⟨S8192x1025, .f32⟩).toBuf (Val := Elt F) v = v := rfl

/-! ## The first stretch read back -/

attribute [local irreducible] Host.reduce Host.reduce2 Host.gather Host.reduceAdd Host.remsi Host.exp Host.log Host.negf Host.divf
  broadcastInDim extractStridedSlice shapeCast concatenate subf mulf addf maximumf uitofp constant constantI iotaInDim cmpi select addi andi maxsi extui in
set_option maxRecDepth 8192 in
set_option maxHeartbeats 400000 in
/-- the query rows: the weak features through the query encoder -/
theorem q_eq (V : Valuation τ sig (Elt F)) :
    after ops0 V (main_v3 : DevRef τ sig) = T.enc (V (main_arg1 : DevRef τ sig)) (V (main_arg4 : DevRef τ sig)) (V (main_arg5 : DevRef τ sig)) := by
  after_results_simp
  rfl

attribute [local irreducible] Host.reduce Host.reduce2 Host.gather Host.reduceAdd Host.remsi Host.exp Host.log Host.negf Host.divf
  broadcastInDim extractStridedSlice shapeCast concatenate subf mulf addf maximumf uitofp constant constantI iotaInDim cmpi select addi andi maxsi extui in
set_option maxRecDepth 8192 in
set_option maxHeartbeats 400000 in
/-- the validity bit of each weak row: some strong row carries its label -/
theorem valid_eq (V : Valuation τ sig (Elt F)) :
    after ops0 V (main_v16 : DevRef τ sig) = T.valid (V (main_arg2 : DevRef τ sig)) (V (main_arg3 : DevRef τ sig)) := by
  after_results_simp
  rfl

attribute [local irreducible] Host.reduce Host.reduce2 Host.gather Host.reduceAdd Host.remsi Host.exp Host.log Host.negf Host.divf
  broadcastInDim extractStridedSlice shapeCast concatenate subf mulf addf maximumf uitofp constant constantI iotaInDim cmpi select addi andi maxsi extui in
set_option maxRecDepth 8192 in
set_option maxHeartbeats 400000 in
/-- the positive logit: each query row against the key row its label selects -/
theorem pos_eq (V : Valuation τ sig (Elt F)) :
    after ops0 V (main_v51 : DevRef τ sig)
      = Host.reduceAdd (mulf (T.enc (V (main_arg1 : DevRef τ sig)) (V (main_arg4 : DevRef τ sig)) (V (main_arg5 : DevRef τ sig)))
          (T.rows (T.enc (V (main_arg0 : DevRef τ sig)) (V (main_arg6 : DevRef τ sig)) (V (main_arg7 : DevRef τ sig))) (T.idx (V (main_arg2 : DevRef τ sig)) (V (main_arg3 : DevRef τ sig)))))
          (constant S_ .f32 0x00000000#32) reducesTo_S8192x128_S8192_d1 h_S_ := by
  after_results_simp
  simp only [TRef.ofBuf_toBuf, ofBuf_v22, ofBuf_v24, ofBuf_v26, ofBuf_v33, ofBuf_v41, toBuf_v23, toBuf_v27, toBuf_v34, toBuf_v42]
  rfl

set_option maxRecDepth 8192 in
set_option maxHeartbeats 400000 in
theorem arg0_0 (V : Valuation τ sig (Elt F)) : after ops0 V (main_arg0 : DevRef τ sig) = (V (main_arg0 : DevRef τ sig)) := by
  after_results_simp

set_option maxRecDepth 8192 in
set_option maxHeartbeats 400000 in
theorem arg1_0 (V : Valuation τ sig (Elt F)) : after ops0 V (main_arg1 : DevRef τ sig) = (V (main_arg1 : DevRef τ sig)) := by
  after_results_simp

set_option maxRecDepth 8192 in
set_option maxHeartbeats 400000 in
theorem arg2_0 (V : Valuation τ sig (Elt F)) : after ops0 V (main_arg2 : DevRef τ sig) = (V (main_arg2 : DevRef τ sig)) := by
  after_results_simp

set_option maxRecDepth 8192 in
set_option maxHeartbeats 400000 in
theorem arg3_0 (V : Valuation τ sig (Elt F)) : after ops0 V (main_arg3 : DevRef τ sig) = (V (main_arg3 : DevRef τ sig)) := by
  after_results_simp

set_option maxRecDepth 8192 in
set_option maxHeartbeats 400000 in
theorem arg4_0 (V : Valuation τ sig (Elt F)) : after ops0 V (main_arg4 : DevRef τ sig) = (V (main_arg4 : DevRef τ sig)) := by
  after_results_simp

set_option maxRecDepth 8192 in
set_option maxHeartbeats 400000 in
theorem arg5_0 (V : Valuation τ sig (Elt F)) : after ops0 V (main_arg5 : DevRef τ sig) = (V (main_arg5 : DevRef τ sig)) := by
  after_results_simp

set_option maxRecDepth 8192 in
set_option maxHeartbeats 400000 in
theorem arg6_0 (V : Valuation τ sig (Elt F)) : after ops0 V (main_arg6 : DevRef τ sig) = (V (main_arg6 : DevRef τ sig)) := by
  after_results_simp

set_option maxRecDepth 8192 in
set_option maxHeartbeats 400000 in
theorem arg7_0 (V : Valuation τ sig (Elt F)) : after ops0 V (main_arg7 : DevRef τ sig) = (V (main_arg7 : DevRef τ sig)) := by
  after_results_simp

set_option maxRecDepth 8192 in
set_option maxHeartbeats 400000 in
theorem arg8_0 (V : Valuation τ sig (Elt F)) : after ops0 V (main_arg8 : DevRef τ sig) = (V (main_arg8 : DevRef τ sig)) := by
  after_results_simp

/-! ## The second stretch read back -/

attribute [local irreducible] Host.reduce Host.reduce2 Host.gather Host.reduceAdd Host.remsi Host.exp Host.log Host.negf Host.divf
  broadcastInDim extractStridedSlice shapeCast concatenate subf mulf addf maximumf uitofp constant constantI iotaInDim cmpi select addi andi maxsi extui in
set_option maxRecDepth 8192 in
set_option maxHeartbeats 400000 in
/-- the loss from the query rows, the positive logit, the queue and the validity bits -/
theorem loss_eq (W : Valuation τ sig (Elt F)) :
    after ops1 W (main_v65 : DevRef τ sig)
      = T.lossOf (cat2 (broadcastInDim S8192x1 ![0] bcast_S8192_S8192x1_0 (W (main_v51 : DevRef τ sig)))
          (Host.dotGeneral dot_S8192x128_S128x1024_S8192x1024_1_0_0_1_n_n none (W (main_v3 : DevRef τ sig))
            (shapeCast S128x1024 (W (main_arg8 : DevRef τ sig)) shapeCasts_S1024x128_S128x1024)))
          (W (main_v16 : DevRef τ sig)) := by
  after_results_simp
  simp only [TRef.ofBuf_toBuf, ofBuf_v55, toBuf_v56]
  rfl

set_option maxRecDepth 8192 in
set_option maxHeartbeats 400000 in
theorem arg0_1 (W : Valuation τ sig (Elt F)) : after ops1 W (main_arg0 : DevRef τ sig) = (W (main_arg0 : DevRef τ sig)) := by
  after_results_simp

set_option maxRecDepth 8192 in
set_option maxHeartbeats 400000 in
theorem arg1_1 (W : Valuation τ sig (Elt F)) : after ops1 W (main_arg1 : DevRef τ sig) = (W (main_arg1 : DevRef τ sig)) := by
  after_results_simp

set_option maxRecDepth 8192 in
set_option maxHeartbeats 400000 in
theorem arg2_1 (W : Valuation τ sig (Elt F)) : after ops1 W (main_arg2 : DevRef τ sig) = (W (main_arg2 : DevRef τ sig)) := by
  after_results_simp

set_option maxRecDepth 8192 in
set_option maxHeartbeats 400000 in
theorem arg3_1 (W : Valuation τ sig (Elt F)) : after ops1 W (main_arg3 : DevRef τ sig) = (W (main_arg3 : DevRef τ sig)) := by
  after_results_simp

set_option maxRecDepth 8192 in
set_option maxHeartbeats 400000 in
theorem arg4_1 (W : Valuation τ sig (Elt F)) : after ops1 W (main_arg4 : DevRef τ sig) = (W (main_arg4 : DevRef τ sig)) := by
  after_results_simp

set_option maxRecDepth 8192 in
set_option maxHeartbeats 400000 in
theorem arg5_1 (W : Valuation τ sig (Elt F)) : after ops1 W (main_arg5 : DevRef τ sig) = (W (main_arg5 : DevRef τ sig)) := by
  after_results_simp

set_option maxRecDepth 8192 in
set_option maxHeartbeats 400000 in
theorem arg6_1 (W : Valuation τ sig (Elt F)) : after ops1 W (main_arg6 : DevRef τ sig) = (W (main_arg6 : DevRef τ sig)) := by
  after_results_simp

set_option maxRecDepth 8192 in
set_option maxHeartbeats 400000 in
theorem arg7_1 (W : Valuation τ sig (Elt F)) : after ops1 W (main_arg7 : DevRef τ sig) = (W (main_arg7 : DevRef τ sig)) := by
  after_results_simp

set_option maxRecDepth 8192 in
set_option maxHeartbeats 400000 in
theorem arg8_1 (W : Valuation τ sig (Elt F)) : after ops1 W (main_arg8 : DevRef τ sig) = (W (main_arg8 : DevRef τ sig)) := by
  after_results_simp

/-! ## The whole line -/

attribute [local irreducible] Host.reduce Host.reduce2 Host.gather Host.reduceAdd Host.remsi Host.exp Host.log Host.negf Host.divf
  broadcastInDim extractStridedSlice shapeCast concatenate subf mulf addf maximumf uitofp constant constantI iotaInDim cmpi select addi andi maxsi extui in
set_option maxRecDepth 8192 in
set_option maxHeartbeats 400000 in
/-- the result buffer after the whole line: the reference's loss of the nine arguments -/
theorem out_eq (V : Valuation τ sig (Elt F)) :
    after ops V (main_v65 : DevRef τ sig) = T.loss (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  show after (ops0 ++ ops1) V _ = _
  rw [after_app, loss_eq, pos_eq, q_eq, valid_eq, arg8_0]
  rfl

theorem arg0_eq (V : Valuation τ sig (Elt F)) : after ops V (main_arg0 : DevRef τ sig) = (V (main_arg0 : DevRef τ sig)) := by
  show after (ops0 ++ ops1) V _ = _
  rw [after_app, arg0_1, arg0_0]

theorem arg1_eq (V : Valuation τ sig (Elt F)) : after ops V (main_arg1 : DevRef τ sig) = (V (main_arg1 : DevRef τ sig)) := by
  show after (ops0 ++ ops1) V _ = _
  rw [after_app, arg1_1, arg1_0]

theorem arg2_eq (V : Valuation τ sig (Elt F)) : after ops V (main_arg2 : DevRef τ sig) = (V (main_arg2 : DevRef τ sig)) := by
  show after (ops0 ++ ops1) V _ = _
  rw [after_app, arg2_1, arg2_0]

theorem arg3_eq (V : Valuation τ sig (Elt F)) : after ops V (main_arg3 : DevRef τ sig) = (V (main_arg3 : DevRef τ sig)) := by
  show after (ops0 ++ ops1) V _ = _
  rw [after_app, arg3_1, arg3_0]

theorem arg4_eq (V : Valuation τ sig (Elt F)) : after ops V (main_arg4 : DevRef τ sig) = (V (main_arg4 : DevRef τ sig)) := by
  show after (ops0 ++ ops1) V _ = _
  rw [after_app, arg4_1, arg4_0]

theorem arg5_eq (V : Valuation τ sig (Elt F)) : after ops V (main_arg5 : DevRef τ sig) = (V (main_arg5 : DevRef τ sig)) := by
  show after (ops0 ++ ops1) V _ = _
  rw [after_app, arg5_1, arg5_0]

theorem arg6_eq (V : Valuation τ sig (Elt F)) : after ops V (main_arg6 : DevRef τ sig) = (V (main_arg6 : DevRef τ sig)) := by
  show after (ops0 ++ ops1) V _ = _
  rw [after_app, arg6_1, arg6_0]

theorem arg7_eq (V : Valuation τ sig (Elt F)) : after ops V (main_arg7 : DevRef τ sig) = (V (main_arg7 : DevRef τ sig)) := by
  show after (ops0 ++ ops1) V _ = _
  rw [after_app, arg7_1, arg7_0]

theorem arg8_eq (V : Valuation τ sig (Elt F)) : after ops V (main_arg8 : DevRef τ sig) = (V (main_arg8 : DevRef τ sig)) := by
  show after (ops0 ++ ops1) V _ = _
  rw [after_app, arg8_1, arg8_0]

/-- On every device, for any float values, from any memory with zero counters: every weakly fair execution of
    @main terminates with the result at the reference's loss of the nine arguments and the arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v65) = T.loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v65).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.ReferenceIdeal.RRun

end
-- ==== Proof.RFloat.lean ====
/-
  The reference's float chain read as mathematics on the extended reals.

  Row i of the logits is the positive logit ∑_e q[i,e]·kg[i,e] followed by the 1024 negatives ∑_e q[i,e]·Q[e,n], where Q
  is the queue [1024, 128] re-laid row-major as [128, 1024] (entry (e, n) is the flat position e·1024 + n). The
  log-softmax along the columns takes each entry less the row's supremum, less the log of the row's sum of exponentials
  of the shifted entries; the loss is minus its column 0, averaged over the rows whose validity bit is set (the divisor
  is the number of valid rows, or one when there is none).

  The lemmas first read each reduction as a plain sum or supremum over the reduced coordinate (a sum from the zero word
  is the sum; a maximum from minus infinity is the supremum, minus infinity being the bottom element), then each layout
  operation at an index (a vector laid down as a column, a column stretched along the columns, the slice of column 0, a
  column re-laid as a vector, the re-laid queue, the two pieces of the concatenation), and then compose them: the logits'
  row is `Fin.cons` of the positive logit and the negatives, the log-softmax is the shifted entry less the log-sum-exp,
  and the loss is `Spec.totalR` of `Spec.rowR` over the rows.
-/
import proofs.«427062_j43121471652524_2_alg».proof.Proof.RTerms
import proofs.«427062_j43121471652524_2_alg».proof.Proof.Spec
import proofs.«427062_j43121471652524_2_alg».proof.Proof.LibPlainDot
import Idealize.ShloMosaic.Lib.ValueIdx
import Idealize.ShloMosaic.Lib.Pipeline.Value
import Idealize.ShloMosaic.Lib.IdealHost
import Idealize.ShloMosaic.PureOps.Ideal.Laws
import Idealize.ShloMosaic.PureOps.Reduce

noncomputable section

namespace Cert.ReferenceIdeal.RFloat

open Finset Idealize.ShloMosaic Idealize.ShloMosaic.ValueIdx Cert.ReferenceIdeal

variable [Facts]
open Facts₀ Facts

/-- the row index over result row `i` with column `k` inserted is `(i, k)` -/
theorem lift_row {n0 n1 : Nat} (h : (⟨2, ![n0, n1]⟩ : Shape).Reduces [1] ⟨1, ![n0]⟩) (i : Fin n0) (k : Fin n1) :
    h.lift (ix1 i) k = ix2 i k := by
  funext c
  apply Fin.ext
  match c with
  | ⟨0, _⟩ => rfl
  | ⟨1, _⟩ => rfl

/-- a sum along axis 1 of a rank-2 array, from the zero word: the plain sum of the row -/
theorem rowSum_apply {n0 n1 : Nat} (x : FVec Ideal ⟨2, ![n0, n1]⟩ .f32)
    (h' : (⟨2, ![n0, n1]⟩ : Shape).ReducesTo [1] ⟨1, ![n0]⟩) (h : (⟨2, ![n0, n1]⟩ : Shape).Reduces [1] ⟨1, ![n0]⟩)
    (hu : 0 < (⟨0, ![]⟩ : Shape).numel) (i : Fin n0) :
    Host.reduceAdd (F := Ideal) x (constant (F := Ideal) ⟨0, ![]⟩ .f32 0x00000000#32) h' hu (ix1 i) = ∑ k : Fin n1, x (ix2 i k) := by
  rw [hostReduceAdd_apply, Ideal.hostReduceAdd_single h' h, constant_apply, Ideal.ofBits_zero_f32, zero_add]
  exact Finset.sum_congr rfl fun k _ => congrArg x (lift_row h i k)

/-- the word of minus infinity is the bottom element -/
theorem ofBits_neg_inf : Ideal.ofBits .f32 0xFF800000#32 = (⊥ : EReal) := by simp [Ideal.ofBits, Ideal.ieee]

/-- a maximum along axis 1 of a rank-2 array, from minus infinity: the supremum of the row -/
theorem rowMax_apply {n0 n1 : Nat} (x : FVec Ideal ⟨2, ![n0, n1]⟩ .f32)
    (h' : (⟨2, ![n0, n1]⟩ : Shape).ReducesTo [1] ⟨1, ![n0]⟩) (h : (⟨2, ![n0, n1]⟩ : Shape).Reduces [1] ⟨1, ![n0]⟩)
    (hu : 0 < (⟨0, ![]⟩ : Shape).numel) (i : Fin n0) :
    Host.reduce (FloatOps.maximumf (F := Ideal) (φ := .f32)) x (constant (F := Ideal) ⟨0, ![]⟩ .f32 0xFF800000#32) h' hu (ix1 i)
      = univ.sup fun k : Fin n1 => x (ix2 i k) := by
  rw [Host.reduce_eq_fold_single _ x _ h' h hu]
  have hf : (x ∘ h.lift (ix1 i)) = fun k : Fin n1 => x (ix2 i k) := funext fun k => congrArg x (lift_row h i k)
  rw [hf, constant_apply, ofBits_neg_inf]
  rfl

/-- the indices of a rank-1 array are its coordinates -/
def idxEquiv1 {n : Nat} : (⟨1, ![n]⟩ : Shape).Idx ≃ Fin n where
  toFun i := i 0
  invFun := ix1
  left_inv i := (eq_ix1 i).symm
  right_inv _ := rfl

/-- a sum of a rank-1 array into the scalar, from the zero word: the plain sum -/
theorem total_apply {n : Nat} (x : FVec Ideal ⟨1, ![n]⟩ .f32)
    (h' : (⟨1, ![n]⟩ : Shape).ReducesTo [0] ⟨0, ![]⟩) (hu : 0 < (⟨0, ![]⟩ : Shape).numel) (j : (⟨0, ![]⟩ : Shape).Idx) :
    Host.reduceAdd (F := Ideal) x (constant (F := Ideal) ⟨0, ![]⟩ .f32 0x00000000#32) h' hu j = ∑ i : Fin n, x (ix1 i) := by
  rw [hostReduceAdd_apply, Ideal.hostReduceAdd_total h' (fun b => b.elim0), constant_apply, Ideal.ofBits_zero_f32, zero_add]
  exact (Equiv.sum_comp (idxEquiv1 (n := n)).symm x).symm

/-! ## Layout operations at an index -/

section Layout
variable {α : Type}

/-- a vector laid down as a column reads its entry -/
theorem col_apply (x : S8192.Idx → α) (i : Fin 8192) (z : Fin 1) :
    broadcastInDim S8192x1 ![0] bcast_S8192_S8192x1_0 x (ix2 i z) = x (ix1 i) :=
  broadcastInDim_apply _ _ x _ _ fun a => by match a with | ⟨0, _⟩ => rfl

/-- a column stretched along 1025 columns reads the column's entry -/
theorem stretch_apply (y : S8192x1.Idx → α) (i : Fin 8192) (k : Fin 1025) :
    broadcastInDim S8192x1025 ![0, 1] bcast_S8192x1_S8192x1025_0_1 y (ix2 i k) = y (ix2 i 0) :=
  broadcastInDim_apply _ _ y _ _ fun a => by match a with | ⟨0, _⟩ => rfl | ⟨1, _⟩ => rfl

/-- the slice of column 0 -/
theorem col0_apply (x : S8192x1025.Idx → α) (i : Fin 8192) (z : Fin 1) :
    extractStridedSlice S8192x1 ![0, 0] x slices_S8192x1025_S8192x1_0_0 (ix2 i z) = x (ix2 i 0) :=
  extractStridedSlice_apply _ x _ _ _ fun a => by
    match a with
    | ⟨0, _⟩ => show i.val = 0 + i.val; omega
    | ⟨1, _⟩ => show 0 = 0 + z.val; omega

/-- a column re-laid as a vector -/
theorem uncol_apply (y : S8192x1.Idx → α) (i : Fin 8192) :
    shapeCast S8192 y shapeCasts_S8192x1_S8192 (ix1 i) = y (ix2 i 0) :=
  shapeCast_apply y _ _ _ (by rw [Shape.rowMajor_val_two, Shape.rowMajor_val_one]; show i.val * 1 + 0 = i.val; omega)

/-- the queue re-laid as [128, 1024] reads the flat position e·1024 + n -/
theorem relaid_apply (queue : S1024x128.Idx → α) (e : Fin 128) (n : Fin 1024) :
    shapeCast S128x1024 queue shapeCasts_S1024x128_S128x1024 (ix2 e n)
      = queue (ix2 (⟨(e.val * 1024 + n.val) / 128, by have := e.isLt; have := n.isLt; omega⟩ : Fin 1024)
                   (⟨(e.val * 1024 + n.val) % 128, Nat.mod_lt _ (by decide)⟩ : Fin 128)) :=
  shapeCast_apply queue _ _ _ (by
    rw [Shape.rowMajor_val_two, Shape.rowMajor_val_two]
    show (e.val * 1024 + n.val) / 128 * 128 + (e.val * 1024 + n.val) % 128 = e.val * 1024 + n.val
    omega)

/-- the concatenation along the columns at column 0 reads the first piece -/
theorem concat_zero (A : S8192x1.Idx → α) (B : S8192x1024.Idx → α) (i : Fin 8192) :
    concatenate S8192x1025 1 [⟨S8192x1, A⟩, ⟨S8192x1024, B⟩] concatenates_S8192x1_S8192x1024_S8192x1025_d1 (ix2 i 0)
      = A (ix2 i 0) :=
  concatenate_pair_apply_left (t := S8192x1025) 1 A B concatenates_S8192x1_S8192x1024_S8192x1025_d1 (ix2 i 0)
    (rfl : S8192x1.rank = S8192x1025.rank) (ix2 i 0) fun b => by match b with | ⟨0, _⟩ => rfl | ⟨1, _⟩ => rfl

/-- … and at column n + 1 the second piece at column n -/
theorem concat_succ (A : S8192x1.Idx → α) (B : S8192x1024.Idx → α) (i : Fin 8192) (n : Fin 1024) :
    concatenate S8192x1025 1 [⟨S8192x1, A⟩, ⟨S8192x1024, B⟩] concatenates_S8192x1_S8192x1024_S8192x1025_d1 (ix2 i n.succ)
      = B (ix2 i n) :=
  concatenate_pair_apply_right (t := S8192x1025) 1 A B concatenates_S8192x1_S8192x1024_S8192x1025_d1 (ix2 i n.succ)
    (rfl : S8192x1.rank = S8192x1025.rank) (rfl : S8192x1024.rank = S8192x1025.rank) (ix2 i n)
    (fun b hb => by match b with | ⟨0, _⟩ => rfl | ⟨1, _⟩ => exact absurd rfl hb)
    (by show n.val + 1 = n.val + 1; rfl)

end Layout

/-- a validity bit converted to a float is 1 or 0 -/
theorem uitofp_bit (b : BitVec 1) : (FloatOps.uitofp (F := Ideal) .f32 b : EReal) = Spec.vf (b == 1#1) := by
  rcases BitVec.eq_zero_or_eq_one b with h | h <;> subst h
  · show (((0#1 : BitVec 1).toNat : ℝ) : EReal) = _; simp [Spec.vf]
  · show (((1#1 : BitVec 1).toNat : ℝ) : EReal) = _; simp [Spec.vf]

/-! ## The logits -/

/-- row `i` of the logits as a function of the column: the positive logit, then the 1024 negatives -/
theorem logits_apply (q kg : FVec Ideal S8192x128 .f32) (queue : FVec Ideal S1024x128 .f32) (i : Fin 8192) (k : Fin 1025) :
    T.logits (F := Ideal) q kg queue (ix2 i k)
      = (Fin.cons (Spec.lpE (fun e => q (ix2 i e)) (fun e => kg (ix2 i e)))
          (Spec.lnE (fun e => q (ix2 i e)) (Spec.relay fun a b => queue (ix2 a b))) : Fin 1025 → EReal) k := by
  unfold T.logits
  refine Fin.cases ?_ (fun n => ?_) k
  · rw [concat_zero, col_apply, rowSum_apply _ _ (by decide), Fin.cons_zero]
    rfl
  · rw [concat_succ, Fin.cons_succ]
    refine (PlainDot.dotGeneral_apply _ rfl rfl rfl rfl rfl rfl none _ q _ i n).trans ?_
    unfold Spec.lnE
    refine Finset.sum_congr rfl fun e _ => ?_
    rw [relaid_apply]
    rfl

/-! ## The log-softmax -/

/-- the row maximum, joined with minus infinity once more: the supremum of the row -/
theorem mx_apply (x : FVec Ideal S8192x1025 .f32) (i : Fin 8192) :
    (maximumf (broadcastInDim S8192 ![] bcast_S_S8192 (constant (F := Ideal) S_ .f32 0xFF800000#32))
      (Host.reduce FloatOps.maximumf x (constant (F := Ideal) S_ .f32 0xFF800000#32) reducesTo_S8192x1025_S8192_d1 h_S_)
        : FVec Ideal S8192 .f32) (ix1 i)
      = univ.sup fun k : Fin 1025 => x (ix2 i k) := by
  rw [maximumf_apply, rowMax_apply x _ (by decide), broadcastInDim_scalar_apply, constant_apply, ofBits_neg_inf]
  exact max_eq_right bot_le

/-- an array less a per-row value stretched along the columns -/
theorem shift_apply (x : FVec Ideal S8192x1025 .f32) (m : FVec Ideal S8192 .f32) (i : Fin 8192) (k : Fin 1025) :
    subf x (broadcastInDim S8192x1025 ![0, 1] bcast_S8192x1_S8192x1025_0_1 (broadcastInDim S8192x1 ![0] bcast_S8192_S8192x1_0 m))
      (ix2 i k) = x (ix2 i k) - m (ix1 i) := by
  rw [subf_apply, stretch_apply, col_apply]

/-- the log of the row sum of exponentials, laid down as a column -/
theorem lse_apply (y : FVec Ideal S8192x1025 .f32) (i : Fin 8192) (z : Fin 1) :
    Host.log (broadcastInDim S8192x1 ![0] bcast_S8192_S8192x1_0
      (Host.reduceAdd (Host.exp y) (constant (F := Ideal) S_ .f32 0x00000000#32) reducesTo_S8192x1025_S8192_d1 h_S_ : FVec Ideal S8192 .f32))
      (ix2 i z) = Ideal.log (∑ k : Fin 1025, Ideal.exp (y (ix2 i k))) := by
  show Ideal.log _ = Ideal.log _
  refine congrArg Ideal.log ?_
  rw [col_apply, rowSum_apply _ _ (by decide)]
  rfl

/-- the log-softmax along the columns at an index: the entry less the row's supremum, less the log of the row's sum of
    exponentials of the shifted entries -/
theorem logSoftmax_apply (x : FVec Ideal S8192x1025 .f32) (i : Fin 8192) (k : Fin 1025) :
    T.logSoftmax (F := Ideal) x (ix2 i k)
      = (x (ix2 i k) - univ.sup fun k' : Fin 1025 => x (ix2 i k'))
        - Ideal.log (∑ k' : Fin 1025, Ideal.exp (x (ix2 i k') - univ.sup fun k'' : Fin 1025 => x (ix2 i k''))) := by
  unfold T.logSoftmax
  dsimp only
  rw [subf_apply, stretch_apply, lse_apply, shift_apply, mx_apply]
  refine congrArg (fun s : EReal => _ - Ideal.log s) (Finset.sum_congr rfl fun k' _ => ?_)
  rw [shift_apply, mx_apply]

/-! ## The loss -/

/-- the loss from the logits: the mean over the valid rows of minus the log-softmax at column 0 -/
theorem lossOf_eq (lg : FVec Ideal S8192x1025 .f32) (v : IVec S8192 1) :
    T.lossOf (F := Ideal) lg v
      = fun _ => Spec.totalR (fun i : Fin 8192 => -(T.logSoftmax (F := Ideal) lg (ix2 i 0))) (fun i : Fin 8192 => v (ix1 i) == 1#1) := by
  funext j
  unfold T.lossOf Spec.totalR
  dsimp only
  rw [hostDivf_apply, maximumf_apply, total_apply, total_apply, constant_apply]
  refine congrArg₂ Ideal.div (Finset.sum_congr rfl fun i _ => ?_)
    (congrArg (fun s : EReal => max s Spec.one) (Finset.sum_congr rfl fun i _ => ?_))
  · rw [mulf_apply]
    refine congrArg₂ (· * ·) ?_ (uitofp_bit _)
    show -(shapeCast S8192 _ shapeCasts_S8192x1_S8192 (ix1 i)) = _
    rw [uncol_apply, col0_apply]
  · exact uitofp_bit _

/-- THE REFERENCE'S FLOAT CHAIN: the loss of the logits built from the query rows, the gathered key rows and the queue
    is the mean over the valid rows of the cross-entropy of target 0 over the 1 + 1024 logits of each row -/
theorem lossOf_logits (q kg : FVec Ideal S8192x128 .f32) (queue : FVec Ideal S1024x128 .f32) (v : IVec S8192 1) :
    T.lossOf (F := Ideal) (T.logits (F := Ideal) q kg queue) v
      = fun _ => Spec.totalR (fun i : Fin 8192 => Spec.rowR (Spec.lpE (fun e => q (ix2 i e)) (fun e => kg (ix2 i e)))
                                                            (Spec.lnE (fun e => q (ix2 i e)) (Spec.relay fun a b => queue (ix2 a b))))
                             (fun i : Fin 8192 => v (ix1 i) == 1#1) := by
  rw [lossOf_eq]
  funext _
  refine congrArg (fun ce : Fin 8192 → EReal => Spec.totalR ce _) (funext fun i => ?_)
  rw [logSoftmax_apply]
  unfold Spec.rowR
  simp only [logits_apply, Fin.cons_zero]

end Cert.ReferenceIdeal.RFloat

end
-- ==== Proof.RArgmax.lean ====
/-
  The argmax along the rows of a boolean matrix, as the reference computes it: a left fold, along each row in column
  order, of the pair reducer (greater value first; on equal values the smaller index) from the pair (0, 0), over the
  pairs (entry, column number). The fold ends at the first set column of the row, or at 0 when the row has none.
-/
import proofs.«427062_j43121471652524_2_alg».proof.Proof.RTerms
import Idealize.ShloMosaic.Lib.ValueIdx
import Idealize.ShloMosaic.PureOps.Reduce
import Mathlib.Data.List.Sort

namespace Cert.ReferenceIdeal.RArgmax

open Idealize.ShloMosaic Idealize.ShloMosaic.ValueIdx Cert.ReferenceIdeal

/-! ## The reducer on one pair of pairs -/

/-- a bit is 0 or 1 -/
theorem bit_cases : ∀ v : BitVec 1, v = 0#1 ∨ v = 1#1 := by decide

/-- equal values 0: the smaller index is kept -/
theorem red_00 (a2 b2 : BitVec 32) :
    reducer_argmax_i1_i32 (0#1, a2) (0#1, b2) = (0#1, if a2.slt b2 then a2 else b2) := by
  unfold reducer_argmax_i1_i32
  cases h : a2.slt b2 <;> simp [IntOp.cmpi, IntOp.ori, IntOp.andi, Scalar.select, h]

/-- value 0 against value 1: the operand wins -/
theorem red_01 (a2 b2 : BitVec 32) : reducer_argmax_i1_i32 (0#1, a2) (1#1, b2) = (1#1, b2) := by
  unfold reducer_argmax_i1_i32
  cases h : a2.slt b2 <;> simp [IntOp.cmpi, IntOp.ori, IntOp.andi, Scalar.select, h]

/-- value 1 against value 0: the accumulator stays -/
theorem red_10 (a2 b2 : BitVec 32) : reducer_argmax_i1_i32 (1#1, a2) (0#1, b2) = (1#1, a2) := by
  unfold reducer_argmax_i1_i32
  cases h : a2.slt b2 <;> simp [IntOp.cmpi, IntOp.ori, IntOp.andi, Scalar.select, h]

/-- equal values 1: the smaller index is kept -/
theorem red_11 (a2 b2 : BitVec 32) :
    reducer_argmax_i1_i32 (1#1, a2) (1#1, b2) = (1#1, if a2.slt b2 then a2 else b2) := by
  unfold reducer_argmax_i1_i32
  cases h : a2.slt b2 <;> simp [IntOp.cmpi, IntOp.ori, IntOp.andi, Scalar.select, h]

/-- a number below 2^31, as a 32-bit word read signed, is itself -/
theorem toInt_ofNat_small (k : Nat) (hk : k < 2 ^ 31) : (BitVec.ofNat 32 k).toInt = (k : Int) := by
  rw [BitVec.toInt_eq_toNat_cond, BitVec.toNat_ofNat, Nat.mod_eq_of_lt (by omega)]
  split <;> omega

/-- on numbers below 2^31 the signed comparison of the words is the comparison of the numbers -/
theorem slt_ofNat_small (j k : Nat) (hj : j < 2 ^ 31) (hk : k < 2 ^ 31) :
    (BitVec.ofNat 32 j).slt (BitVec.ofNat 32 k) = decide (j < k) := by
  rw [BitVec.slt, toInt_ofNat_small j hj, toInt_ofNat_small k hk]
  simp

/-! ## The fold over the columns 0, 1, …, n − 1 -/

/-- The left fold of the reducer from (0, 0) over the pairs (b k, k), k = 0 … n − 1, for n ≤ 2^31: the pair
    (1, first k with b k = 1) when some b k is 1, else (0, 0). The invariant after n steps: while no bit is set the
    accumulator is (0, 0); at the first set bit k it becomes (1, k); afterwards it stays. -/
theorem foldl_range (b : Nat → BitVec 1) (n : Nat) (hn : n ≤ 2 ^ 31) :
    (∃ j, j < n ∧ b j = 1#1 ∧ (∀ j', j' < j → b j' = 0#1) ∧
        (List.range n).foldl (fun r k => reducer_argmax_i1_i32 r (b k, BitVec.ofNat 32 k)) (0#1, 0#32)
          = (1#1, BitVec.ofNat 32 j))
      ∨ ((∀ j, j < n → b j = 0#1) ∧
        (List.range n).foldl (fun r k => reducer_argmax_i1_i32 r (b k, BitVec.ofNat 32 k)) (0#1, 0#32)
          = (0#1, 0#32)) := by
  induction n with
  | zero => exact Or.inr ⟨fun j hj => absurd hj (Nat.not_lt_zero j), rfl⟩
  | succ n ih =>
    rw [List.range_succ, List.foldl_append, List.foldl_cons, List.foldl_nil]
    rcases ih (by omega) with ⟨j, hj, hb, hlt, hacc⟩ | ⟨hz, hacc⟩
    · refine Or.inl ⟨j, by omega, hb, hlt, ?_⟩
      rw [hacc]
      rcases bit_cases (b n) with h0 | h1
      · rw [h0, red_10]
      · rw [h1, red_11, slt_ofNat_small j n (by omega) (by omega), decide_eq_true hj, if_pos rfl]
    · rw [hacc]
      rcases bit_cases (b n) with h0 | h1
      · refine Or.inr ⟨fun j hj => ?_, ?_⟩
        · rcases Nat.lt_succ_iff_lt_or_eq.1 hj with h | rfl
          · exact hz j h
          · exact h0
        · rw [h0, red_00]
          have h00 : (0#32 : BitVec 32) = BitVec.ofNat 32 0 := rfl
          rw [h00, slt_ofNat_small 0 n (by omega) (by omega)]
          by_cases hp : 0 < n
          · rw [decide_eq_true hp, if_pos rfl]
          · have : n = 0 := by omega
            subst this; rfl
      · exact Or.inl ⟨n, by omega, h1, hz, by rw [h1, red_01]⟩

/-- The same fold over the coordinates `Fin n` of a row, the bits given on the coordinates. -/
theorem foldl_finRange (n : Nat) (hn : n ≤ 2 ^ 31) (b : Fin n → BitVec 1) :
    (∃ j : Fin n, b j = 1#1 ∧ (∀ j' : Fin n, j' < j → b j' = 0#1) ∧
        (List.finRange n).foldl (fun r c => reducer_argmax_i1_i32 r (b c, BitVec.ofNat 32 c.val)) (0#1, 0#32)
          = (1#1, BitVec.ofNat 32 j.val))
      ∨ ((∀ j : Fin n, b j = 0#1) ∧
        (List.finRange n).foldl (fun r c => reducer_argmax_i1_i32 r (b c, BitVec.ofNat 32 c.val)) (0#1, 0#32)
          = (0#1, 0#32)) := by
  let b' : Nat → BitVec 1 := fun k => if h : k < n then b ⟨k, h⟩ else 0#1
  have hb' : ∀ c : Fin n, b' c.val = b c := fun c => by simp [b']
  have hfold : (List.finRange n).foldl (fun r c => reducer_argmax_i1_i32 r (b c, BitVec.ofNat 32 c.val)) (0#1, 0#32)
      = (List.range n).foldl (fun r k => reducer_argmax_i1_i32 r (b' k, BitVec.ofNat 32 k)) (0#1, 0#32) := by
    rw [← List.map_coe_finRange_eq_range, List.foldl_map]
    simp only [hb']
  rw [hfold]
  rcases foldl_range b' n hn with ⟨j, hj, hb, hlt, hacc⟩ | ⟨hz, hacc⟩
  · refine Or.inl ⟨⟨j, hj⟩, ?_, fun j' hj' => ?_, hacc⟩
    · rw [← hb' ⟨j, hj⟩]; exact hb
    · rw [← hb' j']; exact hlt j'.val hj'
  · exact Or.inr ⟨fun j => by rw [← hb' j]; exact hz j.val j.isLt, hacc⟩

/-! ## The reduction along the rows of a rank-2 array -/

section Row
variable {α β : Type} {n0 n1 : Nat} {u : Shape}

/-- dropping the column coordinate of an index keeps its row -/
theorem drop_val (h : (⟨2, ![n0, n1]⟩ : Shape).ReducesTo [1] ⟨1, ![n0]⟩) (p : (⟨2, ![n0, n1]⟩ : Shape).Idx)
    (b : Fin 1) : (h.drop p b).val = (p 0).val := by
  have hb : b = 0 := Subsingleton.elim _ _
  subst hb
  exact Shape.ReducesTo.drop_apply_val_of_eq h p 0 0 (show (0 : ℕ) < 1 from Nat.zero_lt_one) rfl

/-- an index drops to row `i` exactly when its row coordinate is `i` -/
theorem drop_eq_iff (h : (⟨2, ![n0, n1]⟩ : Shape).ReducesTo [1] ⟨1, ![n0]⟩) (p : (⟨2, ![n0, n1]⟩ : Shape).Idx)
    (i : Fin n0) : h.drop p = ix1 i ↔ (p 0).val = i.val := by
  constructor
  · intro e
    rw [← drop_val h p 0, e]
  · intro e
    funext b
    apply Fin.ext
    rw [drop_val h p b, e]
    have hb : b = 0 := Subsingleton.elim _ _
    subst hb; rfl

/-- The row-major positions whose index drops to row `i` are, in order, those of (i, 0), (i, 1), …, (i, n1 − 1). -/
theorem filter_row (h : (⟨2, ![n0, n1]⟩ : Shape).ReducesTo [1] ⟨1, ![n0]⟩) (i : Fin n0) :
    (List.finRange (⟨2, ![n0, n1]⟩ : Shape).numel).filter
        (fun n => decide (h.drop ((⟨2, ![n0, n1]⟩ : Shape).rowMajor.symm n) = ix1 i))
      = (List.finRange n1).map fun c => (⟨2, ![n0, n1]⟩ : Shape).rowMajor (ix2 i c) := by
  apply List.Pairwise.eq_of_mem_iff (r := (· < ·)) ((List.pairwise_lt_finRange _).filter _)
  · rw [List.pairwise_map]
    refine (List.pairwise_lt_finRange _).imp fun {c c'} hc => ?_
    show (_ : Fin _).val < (_ : Fin _).val
    rw [Shape.rowMajor_val_two, Shape.rowMajor_val_two]
    show i.val * n1 + c.val < i.val * n1 + c'.val
    exact Nat.add_lt_add_left hc _
  · intro n
    simp only [List.mem_filter, List.mem_finRange, true_and, decide_eq_true_eq, List.mem_map]
    rw [drop_eq_iff]
    constructor
    · intro hn
      refine ⟨(⟨2, ![n0, n1]⟩ : Shape).rowMajor.symm n 1, ?_⟩
      have hc : ix2 i ((⟨2, ![n0, n1]⟩ : Shape).rowMajor.symm n 1) = (⟨2, ![n0, n1]⟩ : Shape).rowMajor.symm n := by
        funext a
        match a with
        | ⟨0, _⟩ => exact Fin.ext hn.symm
        | ⟨1, _⟩ => rfl
      exact (congrArg _ hc).trans (Equiv.apply_symm_apply _ n)
    · rintro ⟨c, rfl⟩
      rw [Equiv.symm_apply_apply]
      rfl

/-- A two-operand reduction along the rows of a rank-2 array, at row `i`: the left fold of the body along the row,
    column 0 first, from the pair of initial values. -/
theorem reduce2_row (f : α × β → α × β → α × β) (x : (⟨2, ![n0, n1]⟩ : Shape).Idx → α)
    (y : (⟨2, ![n0, n1]⟩ : Shape).Idx → β) (ia : u.Idx → α) (ib : u.Idx → β)
    (h : (⟨2, ![n0, n1]⟩ : Shape).ReducesTo [1] ⟨1, ![n0]⟩) (hu : 0 < u.numel) (i : Fin n0) :
    Host.reduce2 f x y ia ib h hu (ix1 i)
      = (List.finRange n1).foldl (fun r c => f r (x (ix2 i c), y (ix2 i c)))
          (ia (Shape.Idx.first hu), ib (Shape.Idx.first hu)) := by
  unfold Host.reduce2
  rw [filter_row h i, List.foldl_map]
  simp only [Equiv.symm_apply_apply]

end Row

/-! ## The reference's argmax along a row -/

/-- two left folds over one list agree when their steps and their starting values do -/
theorem foldl_congr_step {ι γ : Type} (l : List ι) (f g : γ → ι → γ) (a b : γ) (hf : ∀ r c, f r c = g r c)
    (hab : a = b) : l.foldl f a = l.foldl g b := by
  have hfg : f = g := funext fun r => funext fun c => hf r c
  rw [hfg, hab]

section Argmax
variable [Facts]
open Facts₀ Facts

/-- the reference's row argmax, as a function of the row: the index component of the two-operand reduction of the
    matrix and its column numbers -/
theorem argmaxRow_fun (x : IVec S8192x8192 1) :
    T.argmaxRow x
      = fun j => (Host.reduce2 reducer_argmax_i1_i32 x (iotaInDim S8192x8192 32 1) (constantI S_ 1 0#1)
          (constantI S_ 32 0#32) reducesTo_S8192x8192_S8192_d1 h_S_ j).2 := rfl

/-- that reduction at row `i`: the fold of the reducer along the row over the pairs (entry, column number), from (0, 0) -/
theorem reduce2_argmax_row (x : IVec S8192x8192 1) (i : Fin 8192) :
    Host.reduce2 reducer_argmax_i1_i32 x (iotaInDim S8192x8192 32 1) (constantI S_ 1 0#1) (constantI S_ 32 0#32)
        reducesTo_S8192x8192_S8192_d1 h_S_ (ix1 i)
      = (List.finRange 8192).foldl (fun r c => reducer_argmax_i1_i32 r (x (ix2 i c), BitVec.ofNat 32 c.val))
          (0#1, 0#32) :=
  (reduce2_row reducer_argmax_i1_i32 x (iotaInDim S8192x8192 32 1) (constantI S_ 1 0#1) (constantI S_ 32 0#32)
      reducesTo_S8192x8192_S8192_d1 h_S_ i).trans
    (foldl_congr_step _ _ _ _ _ (fun _ _ => rfl) rfl)

/-- The reference's row argmax at row `i` is the index component of the fold along the row. -/
theorem argmaxRow_eq_foldl (x : IVec S8192x8192 1) (i : Fin 8192) :
    T.argmaxRow x (ix1 i)
      = ((List.finRange 8192).foldl (fun r c => reducer_argmax_i1_i32 r (x (ix2 i c), BitVec.ofNat 32 c.val))
          (0#1, 0#32)).2 :=
  (congrFun (argmaxRow_fun x) (ix1 i)).trans (congrArg Prod.snd (reduce2_argmax_row x i))

/-- The reference's row argmax: the first set column of row `i`, or 0 when the row is all zero. -/
theorem argmaxRow_apply (x : IVec S8192x8192 1) (i : Fin 8192) :
    (∃ j : Fin 8192, x (ix2 i j) = 1#1 ∧ (∀ j' : Fin 8192, j' < j → x (ix2 i j') = 0#1) ∧
        T.argmaxRow x (ix1 i) = BitVec.ofNat 32 j.val)
      ∨ ((∀ j : Fin 8192, x (ix2 i j) = 0#1) ∧ T.argmaxRow x (ix1 i) = 0#32) := by
  have h8 : 8192 ≤ 2 ^ 31 := by decide
  rcases foldl_finRange 8192 h8 (fun c => x (ix2 i c)) with ⟨j, hb, hlt, hacc⟩ | ⟨hz, hacc⟩
  · exact Or.inl ⟨j, hb, hlt, (argmaxRow_eq_foldl x i).trans (congrArg Prod.snd hacc)⟩
  · exact Or.inr ⟨hz, (argmaxRow_eq_foldl x i).trans (congrArg Prod.snd hacc)⟩

end Argmax

end Cert.ReferenceIdeal.RArgmax
-- ==== Proof.RInt.lean ====
/-
  The reference's label bookkeeping read at the level of words. For a strong-label array `a2` and a weak-label array
  `a3`, with `s j` and `w i` the labels as natural numbers: the comparison matrix holds the bit "label i equals
  label j"; the per-row count is the number of strong rows carrying weak row i's label; the validity bit says that
  count is positive; the rank of a row is the number of earlier rows of the same array carrying its label (the strict
  lower triangle of the comparison matrix, summed along each row); the selection offset is the weak row's rank modulo
  the count, the count raised to one; strong row j is a hit for weak row i when it carries i's label and its rank is
  that offset; the picked index is the first hit of the row, 0 when the row has none. Labels are only compared here,
  so no bound on them is assumed; the counts and ranks are at most 8192, so no sum of bits wraps and every signed
  comparison and the signed remainder act on small non-negative words as on their values.
-/
import proofs.«427062_j43121471652524_2_alg».proof.Proof.RTerms
import proofs.«427062_j43121471652524_2_alg».proof.Proof.Spec
import proofs.«427062_j43121471652524_2_alg».proof.Proof.RArgmax
import Idealize.ShloMosaic.Lib.ValueIdx
import Idealize.ShloMosaic.Lib.IndicatorCount
import Idealize.ShloMosaic.Lib.StableHlo.Predicate
import Idealize.ShloMosaic.PureOps.Reduce

noncomputable section

namespace Cert.ReferenceIdeal.RInt

open Idealize.ShloMosaic Idealize.ShloMosaic.ValueIdx Idealize.ShloMosaic.StableHlo.Predicate Cert.ReferenceIdeal

variable [Facts]
open Facts₀ Facts

/-! ## Indices -/

theorem ij_eq_ix2 {n m : Nat} (p : Fin n) (q : Fin m) : ij p q = ix2 p q := by
  funext d; match d with | ⟨0, _⟩ => rfl | ⟨1, _⟩ => rfl

theorem ofFin_eq_ix1 {n : Nat} (p : Fin n) : Shape.Idx.ofFin p = ix1 p := by
  funext d; match d with | ⟨0, _⟩ => rfl

/-! ## The two layouts of a label array, and the comparison matrix -/

theorem colOf_apply (a : IVec S8192 32) (i j : Fin 8192) : T.colOf a (ix2 i j) = a (ix1 i) := by
  have h := bcast_rows (n := 8192) (m := 8192) bcast_S8192_S8192x1_0 bcast_S8192x1_S8192x8192_0_1 a i j
  rw [ij_eq_ix2, ofFin_eq_ix1] at h
  exact h

theorem rowOf_apply (a : IVec S8192 32) (i j : Fin 8192) : T.rowOf a (ix2 i j) = a (ix1 j) := by
  have h := bcast_cols (n := 8192) (m := 8192) bcast_S8192_S1x8192_1 bcast_S1x8192_S8192x8192_0_1 a i j
  rw [ij_eq_ix2, ofFin_eq_ix1] at h
  exact h

theorem splat_apply (v : BitVec 32) (j : S8192.Idx) : T.splat v j = v :=
  bcast_scalar bcast_S_S8192 h_S_ (constantI S_ 32 v) j

theorem eqMat_apply (a b : IVec S8192 32) (i j : Fin 8192) :
    T.eqMat a b (ix2 i j) = if (a (ix1 i)).toNat = (b (ix1 j)).toNat then 1#1 else 0#1 := by
  show IntOp.cmpi .eq (T.colOf a (ix2 i j)) (T.rowOf b (ix2 i j)) = _
  rw [colOf_apply, rowOf_apply]
  by_cases h : (a (ix1 i)).toNat = (b (ix1 j)).toNat
  · rw [if_pos h]; exact cmpi_eq_iff.2 (BitVec.eq_of_toNat_eq h)
  · rw [if_neg h]; exact eq_zero_of_ne_one (fun e => h (congrArg BitVec.toNat (cmpi_eq_iff.1 e)))

theorem eqMat_eq_one_iff (a b : IVec S8192 32) (i j : Fin 8192) :
    T.eqMat a b (ix2 i j) = 1#1 ↔ (a (ix1 i)).toNat = (b (ix1 j)).toNat := by
  rw [eqMat_apply]
  by_cases h : (a (ix1 i)).toNat = (b (ix1 j)).toNat
  · simp [h]
  · simp [h]

/-! ## Counts -/

theorem cnt_apply (a2 a3 : IVec S8192 32) (i : Fin 8192) :
    (T.cnt a2 a3 (ix1 i)).toNat
      = Spec.cnt (fun j : Fin 8192 => (a2 (ix1 j)).toNat) (fun i : Fin 8192 => (a3 (ix1 i)).toNat) i := by
  have h := toNat_reduce_count_cols (n := 8192) (m := 8192) (by norm_num) (T.eqMat a3 a2) natLt_1_32
    reducesTo_S8192x8192_S8192_d1 h_S_ (ix1 i)
  refine h.trans ?_
  show _ = (Finset.univ.filter fun j : Fin 8192 => (a2 (ix1 j)).toNat = (a3 (ix1 i)).toNat).card
  refine congrArg Finset.card (Finset.filter_congr (fun q _ => ?_))
  rw [ij_eq_ix2]
  show T.eqMat a3 a2 (ix2 i q) = 1#1 ↔ _
  rw [eqMat_eq_one_iff]
  exact eq_comm

theorem cnt_le (a2 a3 : IVec S8192 32) (i : Fin 8192) : (T.cnt a2 a3 (ix1 i)).toNat ≤ 8192 := by
  rw [cnt_apply]
  exact (Finset.card_le_univ _).trans (by simp)

theorem valid_apply (a2 a3 : IVec S8192 32) (i : Fin 8192) :
    T.valid a2 a3 (ix1 i)
      = if 0 < Spec.cnt (fun j : Fin 8192 => (a2 (ix1 j)).toNat) (fun i : Fin 8192 => (a3 (ix1 i)).toNat) i
          then 1#1 else 0#1 := by
  show IntOp.cmpi .sgt (T.cnt a2 a3 (ix1 i)) (T.splat 0#32 (ix1 i)) = _
  rw [splat_apply, ← cnt_apply]
  have hc := cnt_le a2 a3 i
  have hiff := sgt_iff_toNat (a := T.cnt a2 a3 (ix1 i)) (b := 0#32) (by omega) (by decide)
  by_cases h : 0 < (T.cnt a2 a3 (ix1 i)).toNat
  · rw [if_pos h]; exact hiff.2 h
  · rw [if_neg h]; exact eq_zero_of_ne_one (fun e => h (hiff.1 e))

/-! ## The strict lower triangle -/

/-- the bit of the triangle: row number minus one, at least the column number, signed -/
def trilC : IVec S8192x8192 1 :=
  cmpi .sge (addi (iotaInDim S8192x8192 32 0) (broadcastInDim S8192x8192 ![] bcast_S_S8192x8192 (constantI S_ 32 4294967295#32)))
    (iotaInDim S8192x8192 32 1)

theorem trilC_apply (i j : Fin 8192) : trilC (ix2 i j) = 1#1 ↔ j < i := by
  show IntOp.cmpi .sge (IntOp.addi (BitVec.ofNat 32 i.val)
      (broadcastInDim S8192x8192 ![] bcast_S_S8192x8192 (constantI S_ 32 4294967295#32) (ix2 i j))) (BitVec.ofNat 32 j.val) = 1#1 ↔ _
  rw [bcast_scalar bcast_S_S8192x8192 h_S_]
  show IntOp.cmpi .sge (BitVec.ofNat 32 i.val + 4294967295#32) (BitVec.ofNat 32 j.val) = 1#1 ↔ _
  have hi := i.isLt
  have hj := j.isLt
  generalize hA : BitVec.ofNat 32 i.val + 4294967295#32 = A
  generalize hB : BitVec.ofNat 32 j.val = B
  have hAn : A.toNat = (i.val + 4294967295) % 4294967296 := by
    rw [← hA, BitVec.toNat_add, BitVec.toNat_ofNat, BitVec.toNat_ofNat]; omega
  have hBn : B.toNat = j.val := by
    rw [← hB, BitVec.toNat_ofNat]; omega
  have eA := BitVec.toInt_eq_toNat_cond A
  have eB := BitVec.toInt_eq_toNat_cond B
  unfold IntOp.cmpi
  simp only [ofBool_eq_one_iff, BitVec.sle, decide_eq_true_eq]
  rw [Fin.lt_def]
  omega

theorem tril_extui (m : IVec S8192x8192 1) :
    T.tril (extui 32 m natLt_1_32) = extui 32 (fun k => Scalar.select (trilC k) (m k) 0#1) natLt_1_32 := by
  funext k
  show Scalar.select (trilC k) ((m k).setWidth 32)
      (broadcastInDim S8192x8192 ![] bcast_S_S8192x8192 (constantI S_ 32 0#32) k) = (Scalar.select (trilC k) (m k) 0#1).setWidth 32
  rw [bcast_scalar bcast_S_S8192x8192 h_S_]
  show Scalar.select (trilC k) ((m k).setWidth 32) 0#32 = _
  unfold Scalar.select
  split <;> rfl

theorem before_apply (a : IVec S8192 32) (i : Fin 8192) :
    (T.before a (ix1 i)).toNat = Spec.before (fun j : Fin 8192 => (a (ix1 j)).toNat) i := by
  show (T.rowSum (T.tril (extui 32 (T.eqMat a a) natLt_1_32)) (ix1 i)).toNat = _
  rw [tril_extui]
  have h := toNat_reduce_count_cols (n := 8192) (m := 8192) (by norm_num)
    (fun k => Scalar.select (trilC k) (T.eqMat a a k) 0#1) natLt_1_32 reducesTo_S8192x8192_S8192_d1 h_S_ (ix1 i)
  refine h.trans ?_
  show _ = (Finset.univ.filter fun i' : Fin 8192 => i' < i ∧ (a (ix1 i')).toNat = (a (ix1 i)).toNat).card
  refine congrArg Finset.card (Finset.filter_congr (fun q _ => ?_))
  rw [ij_eq_ix2]
  show Scalar.select (trilC (ix2 i q)) (T.eqMat a a (ix2 i q)) 0#1 = 1#1 ↔ _
  by_cases hq : q < i
  · rw [(trilC_apply i q).2 hq, select_one, eqMat_eq_one_iff]
    exact ⟨fun e => ⟨hq, e.symm⟩, fun e => e.2.symm⟩
  · rw [eq_zero_of_ne_one (fun e => hq ((trilC_apply i q).1 e)), select_zero]
    exact ⟨fun e => absurd e (by decide), fun e => absurd e.1 hq⟩

theorem before_le (a : IVec S8192 32) (i : Fin 8192) : (T.before a (ix1 i)).toNat ≤ 8192 := by
  rw [before_apply]
  exact (Finset.card_le_univ _).trans (by simp)

/-! ## The remainder on small non-negative words -/

theorem slt_zero_of_small (R : BitVec 32) (h : R.toNat < 2 ^ 31) : IntOp.cmpi .slt R 0#32 = 0#1 :=
  eq_zero_of_ne_one (fun e => by
    have := (slt_iff_toNat (a := R) (b := 0#32) h (by decide)).1 e
    exact absurd this (Nat.not_lt_zero _))

theorem srem_toNat_of_small (X Y : BitVec 32) (hx : X.toNat < 2 ^ 31) (hy : Y.toNat < 2 ^ 31) :
    (X.srem Y).toNat = X.toNat % Y.toNat := by
  have mx : X.msb = false := BitVec.msb_eq_false_iff_two_mul_lt.mpr (by omega)
  have my : Y.msb = false := BitVec.msb_eq_false_iff_two_mul_lt.mpr (by omega)
  rw [BitVec.srem_eq, mx, my]
  exact BitVec.toNat_umod

theorem rem_word (X Y : BitVec 32) (hx : X.toNat < 2 ^ 30) (hy0 : 0 < Y.toNat) (hy : Y.toNat < 2 ^ 30) :
    (Scalar.select
        (IntOp.andi
          (IntOp.cmpi .ne
            (IntOp.cmpi .slt (IntOp.remsi .host X (Scalar.select (IntOp.cmpi .eq Y 0#32) 1#32 Y)) 0#32)
            (IntOp.cmpi .slt (Scalar.select (IntOp.cmpi .eq Y 0#32) 1#32 Y) 0#32))
          (IntOp.cmpi .ne (IntOp.remsi .host X (Scalar.select (IntOp.cmpi .eq Y 0#32) 1#32 Y)) 0#32))
        (IntOp.addi (IntOp.remsi .host X (Scalar.select (IntOp.cmpi .eq Y 0#32) 1#32 Y))
          (Scalar.select (IntOp.cmpi .eq Y 0#32) 1#32 Y))
        (IntOp.remsi .host X (Scalar.select (IntOp.cmpi .eq Y 0#32) 1#32 Y))).toNat
      = X.toNat % Y.toNat := by
  have hc0 : IntOp.cmpi .eq Y 0#32 = 0#1 := eq_zero_of_ne_one (fun e => by
    have h0 : Y = 0#32 := cmpi_eq_iff.1 e
    rw [h0] at hy0
    exact absurd hy0 (by decide))
  have hD : Scalar.select (IntOp.cmpi .eq Y 0#32) 1#32 Y = Y := by
    rw [hc0, select_zero]
  rw [hD]
  have hnc : ¬ IntOp.SDivCorner X Y := by
    rintro (h | ⟨_, h⟩)
    · rw [h] at hy0; exact absurd hy0 (by decide)
    · rw [h] at hy; exact absurd hy (by decide)
  have hR : IntOp.remsi .host X Y = X.srem Y := by
    unfold IntOp.remsi
    rw [if_neg hnc]
  rw [hR]
  have hRn : (X.srem Y).toNat = X.toNat % Y.toNat := srem_toNat_of_small X Y (by omega) (by omega)
  have hRlt : (X.srem Y).toNat < 2 ^ 31 := by
    rw [hRn]
    have := Nat.mod_lt X.toNat hy0
    omega
  rw [slt_zero_of_small _ hRlt, slt_zero_of_small Y (by omega)]
  have hz : IntOp.andi (IntOp.cmpi .ne 0#1 0#1) (IntOp.cmpi .ne (X.srem Y) 0#32) = 0#1 := by
    show (IntOp.cmpi .ne 0#1 0#1) &&& _ = 0#1
    rw [show IntOp.cmpi .ne 0#1 0#1 = 0#1 from by decide, BitVec.zero_and]
  rw [hz, select_zero, hRn]

theorem remainder_apply (x y : IVec S8192 32) (j : S8192.Idx) (hx : (x j).toNat < 2 ^ 30)
    (hy : 0 < (y j).toNat ∧ (y j).toNat < 2 ^ 30) : (T.remainder x y j).toNat = (x j).toNat % (y j).toNat := by
  have e := rem_word (x j) (y j) hx hy.1 hy.2
  rw [← splat_apply 0#32 j, ← splat_apply 1#32 j] at e
  exact e

/-! ## The selection offset, the hit matrix, the picked row -/

theorem maxsi_one_toNat (c : BitVec 32) (hc : c.toNat < 2 ^ 31) : (IntOp.maxsi c 1#32).toNat = max c.toNat 1 := by
  have h := slt_bool_iff_toNat (a := 1#32) (b := c) (by decide) hc
  rw [ofBool_eq_one_iff] at h
  unfold IntOp.maxsi
  split
  · next hs => have := h.1 hs; rw [show (1#32 : BitVec 32).toNat = 1 from rfl] at this; omega
  · next hs =>
    have : ¬ (1#32 : BitVec 32).toNat < c.toNat := fun hh => hs (h.2 hh)
    rw [show (1#32 : BitVec 32).toNat = 1 from rfl] at this ⊢
    omega

theorem sel_apply (a2 a3 : IVec S8192 32) (i : Fin 8192) :
    (T.sel a2 a3 (ix1 i)).toNat
      = Spec.sel (fun j : Fin 8192 => (a2 (ix1 j)).toNat) (fun i : Fin 8192 => (a3 (ix1 i)).toNat) i := by
  have hc := cnt_le a2 a3 i
  have hb := before_le a3 i
  have hm : (maxsi (T.cnt a2 a3) (T.splat 1#32) (ix1 i)).toNat = max (T.cnt a2 a3 (ix1 i)).toNat 1 := by
    show (IntOp.maxsi (T.cnt a2 a3 (ix1 i)) (T.splat 1#32 (ix1 i))).toNat = _
    rw [splat_apply]
    exact maxsi_one_toNat _ (by omega)
  show (T.remainder (T.before a3) (maxsi (T.cnt a2 a3) (T.splat 1#32)) (ix1 i)).toNat = _
  rw [remainder_apply _ _ _ (by omega) (by rw [hm]; constructor <;> omega), hm, before_apply, cnt_apply]
  rfl

theorem andi_eq_one_iff (p q : BitVec 1) : IntOp.andi p q = 1#1 ↔ p = 1#1 ∧ q = 1#1 := by
  rcases BitVec.eq_zero_or_eq_one p with rfl | rfl <;> rcases BitVec.eq_zero_or_eq_one q with rfl | rfl <;> decide

theorem hit_apply (a2 a3 : IVec S8192 32) (i j : Fin 8192) :
    T.hit a2 a3 (ix2 i j) = 1#1
      ↔ Spec.Hit (fun j : Fin 8192 => (a2 (ix1 j)).toNat) (fun i : Fin 8192 => (a3 (ix1 i)).toNat) i j := by
  show IntOp.andi (T.eqMat a3 a2 (ix2 i j))
      (IntOp.cmpi .eq (T.rowOf (T.before a2) (ix2 i j)) (T.colOf (T.sel a2 a3) (ix2 i j))) = 1#1 ↔ _
  rw [rowOf_apply, colOf_apply, andi_eq_one_iff, eqMat_eq_one_iff, cmpi_eq_iff, ← BitVec.toNat_inj, before_apply, sel_apply]
  exact ⟨fun h => ⟨h.1.symm, h.2⟩, fun h => ⟨h.1.symm, h.2⟩⟩

theorem idx_isPick (a2 a3 : IVec S8192 32) (i : Fin 8192) :
    Spec.IsPick (fun j : Fin 8192 => (a2 (ix1 j)).toNat) (fun i : Fin 8192 => (a3 (ix1 i)).toNat) i
      (T.idx a2 a3 (ix1 i)).toNat := by
  rcases RArgmax.argmaxRow_apply (T.hit a2 a3) i with ⟨j, h1, hlt, he⟩ | ⟨h0, he⟩
  · refine Or.inl ⟨j, ?_, (hit_apply a2 a3 i j).1 h1, fun j' hj' => ?_⟩
    · show j.val = (T.argmaxRow (T.hit a2 a3) (ix1 i)).toNat
      rw [he, BitVec.toNat_ofNat]
      have := j.isLt
      omega
    · by_contra hn
      have hz := hlt j' (not_le.1 hn)
      rw [(hit_apply a2 a3 i j').2 hj'] at hz
      exact absurd hz (by decide)
  · refine Or.inr ⟨fun j hj => ?_, ?_⟩
    · have hz := h0 j
      rw [(hit_apply a2 a3 i j).2 hj] at hz
      exact absurd hz (by decide)
    · show (T.argmaxRow (T.hit a2 a3) (ix1 i)).toNat = 0
      rw [he]
      rfl

end Cert.ReferenceIdeal.RInt

end
-- ==== Proof.RValue.lean ====
/-
  The reference's result as mathematics: the mean, over the valid rows, of each row's cross-entropy of target 0, every
  array read entry by entry — the two encoders as x·W + b, the paired strong row as the first hit, the queue re-laid.
-/
import proofs.«427062_j43121471652524_2_alg».proof.Proof.Gen.ReferenceIdeal
import proofs.«427062_j43121471652524_2_alg».proof.Proof.Gen.KernelIdeal
import proofs.«427062_j43121471652524_2_alg».proof.Proof.RTerms
import proofs.«427062_j43121471652524_2_alg».proof.Proof.Spec
import proofs.«427062_j43121471652524_2_alg».proof.Proof.Comb
import proofs.«427062_j43121471652524_2_alg».proof.Proof.RFloat
import proofs.«427062_j43121471652524_2_alg».proof.Proof.Layout
import proofs.«427062_j43121471652524_2_alg».proof.Proof.RInt

set_option maxRecDepth 16384

noncomputable section

namespace Cert.ReferenceIdeal.RValue

open Idealize.ShloMosaic Idealize.ShloMosaic.ValueIdx Cert.ReferenceIdeal

variable [Cert.ReferenceIdeal.Facts]

/-- an index array's entry as a row number -/
def rowOfIdx (ix : IVec S8192 32) (i : Fin 8192) : Fin 8192 :=
  ⟨(ix (ix1 i)).toNat % 8192, Nat.mod_lt _ (by decide)⟩

theorem rowOfIdx_val (ix : IVec S8192 32) (i : Fin 8192) (h : (ix (ix1 i)).toNat < 8192) :
    (rowOfIdx ix i).val = (ix (ix1 i)).toNat := by
  unfold rowOfIdx
  exact Nat.mod_eq_of_lt h

/-- the loss for ANY in-range index array and any validity array: every array read entry by entry -/
theorem loss_of_idx (a0 a1 : FVec Ideal S8192x1024 .f32) (a4 : FVec Ideal S1024x128 .f32)
    (a5 : FVec Ideal S128 .f32) (a6 : FVec Ideal S1024x128 .f32) (a7 : FVec Ideal S128 .f32) (a8 : FVec Ideal S1024x128 .f32)
    (ix : IVec S8192 32) (v : IVec S8192 1) (hlt : ∀ i : Fin 8192, (ix (ix1 i)).toNat < 8192) :
    T.lossOf (F := Ideal) (T.logits (F := Ideal) (T.enc (F := Ideal) a1 a4 a5) (T.rows (F := Ideal) (T.enc (F := Ideal) a0 a6 a7) ix) a8) v
      = fun _ => Spec.totalR
        (fun i => Spec.rowR
          (Spec.lpE (Spec.encE (fun i k => a1 (ix2 i k)) (fun k e => a4 (ix2 k e)) (fun e => a5 (ix1 e)) i)
                    (Spec.encE (fun i k => a0 (ix2 i k)) (fun k e => a6 (ix2 k e)) (fun e => a7 (ix1 e)) (rowOfIdx ix i)))
          (Spec.lnE (Spec.encE (fun i k => a1 (ix2 i k)) (fun k e => a4 (ix2 k e)) (fun e => a5 (ix1 e)) i)
                    (Spec.relay fun a b => a8 (ix2 a b))))
        (fun i => v (ix1 i) == 1#1) := by
  rw [RFloat.lossOf_logits]
  funext _
  refine congrArg (fun f => Spec.totalR f (fun i => v (ix1 i) == 1#1)) (funext fun i => ?_)
  have hq : (fun e : Fin 128 => T.enc (F := Ideal) a1 a4 a5 (ix2 i e))
      = Spec.encE (fun i k => a1 (ix2 i k)) (fun k e => a4 (ix2 k e)) (fun e => a5 (ix1 e)) i :=
    funext fun e => Layout.renc_apply a1 a4 a5 i e
  have hk : (fun e : Fin 128 => T.rows (F := Ideal) (T.enc (F := Ideal) a0 a6 a7) ix (ix2 i e))
      = Spec.encE (fun i k => a0 (ix2 i k)) (fun k e => a6 (ix2 k e)) (fun e => a7 (ix1 e)) (rowOfIdx ix i) :=
    funext fun e => by
      have hp : ∀ (x : ℕ) (hx : x < 8192), x = (rowOfIdx ix i).val → (⟨x, hx⟩ : Fin 8192) = rowOfIdx ix i :=
        fun x hx h => Fin.ext h
      rw [Layout.rrows_apply _ _ hlt i e, hp _ (hlt i) (rowOfIdx_val ix i (hlt i)).symm]
      exact Layout.renc_apply a0 a6 a7 _ e
  rw [hq, hk]

/-- the strong row the reference pairs with weak row `i`, as a row number -/
def pick (a2 a3 : IVec S8192 32) (i : Fin 8192) : Fin 8192 := rowOfIdx (T.idx a2 a3) i

theorem pick_isPick (a2 a3 : IVec S8192 32) (i : Fin 8192) :
    Spec.IsPick (fun j : Fin 8192 => (a2 (ix1 j)).toNat) (fun i : Fin 8192 => (a3 (ix1 i)).toNat) i (pick a2 a3 i).val := by
  have h := RInt.idx_isPick a2 a3 i
  unfold pick
  rw [rowOfIdx_val _ i (Spec.IsPick.lt h)]
  exact h

/-- the validity column as a Boolean: the row's label occurs among the strong labels -/
theorem valid_bool (a2 a3 : IVec S8192 32) :
    (fun i : Fin 8192 => T.valid a2 a3 (ix1 i) == 1#1)
      = fun i => decide (0 < Spec.cnt (fun j : Fin 8192 => (a2 (ix1 j)).toNat) (fun i : Fin 8192 => (a3 (ix1 i)).toNat) i) := by
  funext i
  rw [RInt.valid_apply a2 a3 i]
  by_cases h : 0 < Spec.cnt (fun j : Fin 8192 => (a2 (ix1 j)).toNat) (fun i : Fin 8192 => (a3 (ix1 i)).toNat) i
  · simp [h]
  · simp [h]

theorem ref_value (a0 a1 : FVec Ideal S8192x1024 .f32) (a2 a3 : IVec S8192 32) (a4 : FVec Ideal S1024x128 .f32)
    (a5 : FVec Ideal S128 .f32) (a6 : FVec Ideal S1024x128 .f32) (a7 : FVec Ideal S128 .f32) (a8 : FVec Ideal S1024x128 .f32) :
    T.loss (F := Ideal) a0 a1 a2 a3 a4 a5 a6 a7 a8 = fun _ =>
      Spec.totalR
        (fun i => Spec.rowR
          (Spec.lpE (Spec.encE (fun i k => a1 (ix2 i k)) (fun k e => a4 (ix2 k e)) (fun e => a5 (ix1 e)) i)
                    (Spec.encE (fun i k => a0 (ix2 i k)) (fun k e => a6 (ix2 k e)) (fun e => a7 (ix1 e)) (pick a2 a3 i)))
          (Spec.lnE (Spec.encE (fun i k => a1 (ix2 i k)) (fun k e => a4 (ix2 k e)) (fun e => a5 (ix1 e)) i)
                    (Spec.relay fun a b => a8 (ix2 a b))))
        (fun i => decide (0 < Spec.cnt (fun j : Fin 8192 => (a2 (ix1 j)).toNat) (fun i : Fin 8192 => (a3 (ix1 i)).toNat) i)) := by
  have hlt : ∀ i : Fin 8192, (T.idx a2 a3 (ix1 i)).toNat < 8192 := fun i => Spec.IsPick.lt (RInt.idx_isPick a2 a3 i)
  have h := loss_of_idx a0 a1 a4 a5 a6 a7 a8 (T.idx a2 a3) (T.valid a2 a3) hlt
  rw [valid_bool a2 a3] at h
  exact h

end Cert.ReferenceIdeal.RValue

end
-- ==== Proof.LossAlg.lean ====
import proofs.«427062_j43121471652524_2_alg».proof.Proof.Spec
import Idealize.ShloMosaic.PureOps.Ideal
import Mathlib.Data.EReal.Basic
import Mathlib.Data.Finset.Lattice.Fold
import Mathlib.Data.Fintype.BigOperators
import Mathlib.Algebra.BigOperators.Fin
import Mathlib.Analysis.Complex.Exponential

/-
  Extended-real algebra of the row loss and of the tiled mean.

  On real operands every quantity of the row loss is real: the maximum M of the 1 + 1024 logits is real, each
  exponential of a shifted logit is a positive real, so their sum S is a positive real and log S is real; the two
  arrangements (M + log S) − p and −((p − M) − log S) are then the same real number. The sum over the 8 tiles of
  1024 rows is the sum over all 8192 rows, because (t, r) ↦ 1024·t + r is a bijection.
-/

noncomputable section

namespace Cert.Spec

open Finset Idealize.ShloMosaic

/-! ## Reals inside the extended reals -/

theorem fin_coe (r : ℝ) : Fin' (r : EReal) := ⟨EReal.coe_ne_top r, EReal.coe_ne_bot r⟩

theorem exists_real {x : EReal} (h : Fin' x) : ∃ r : ℝ, x = (r : EReal) :=
  ⟨x.toReal, (EReal.coe_toReal h.1 h.2).symm⟩

theorem exists_real_fun {ι : Type*} {f : ι → EReal} (h : ∀ i, Fin' (f i)) : ∃ f' : ι → ℝ, f = fun i => (f' i : EReal) :=
  ⟨fun i => (f i).toReal, funext fun i => (EReal.coe_toReal (h i).1 (h i).2).symm⟩

theorem fin_mul {a b : EReal} (ha : Fin' a) (hb : Fin' b) : Fin' (a * b) := by
  obtain ⟨ra, rfl⟩ := exists_real ha
  obtain ⟨rb, rfl⟩ := exists_real hb
  rw [← EReal.coe_mul]
  exact fin_coe _

theorem fin_add {a b : EReal} (ha : Fin' a) (hb : Fin' b) : Fin' (a + b) := by
  obtain ⟨ra, rfl⟩ := exists_real ha
  obtain ⟨rb, rfl⟩ := exists_real hb
  rw [← EReal.coe_add]
  exact fin_coe _

theorem fin_sum {ι : Type*} (s : Finset ι) (f : ι → EReal) (h : ∀ i ∈ s, Fin' (f i)) : Fin' (∑ i ∈ s, f i) := by
  classical
  induction s using Finset.induction_on with
  | empty =>
    rw [Finset.sum_empty, ← EReal.coe_zero]
    exact fin_coe 0
  | insert a s ha ih =>
    rw [Finset.sum_insert ha]
    exact fin_add (h a (Finset.mem_insert_self _ _)) (ih fun i hi => h i (Finset.mem_insert_of_mem hi))

/-- the coercion of a finite sum of reals -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem exp_coe (r : ℝ) : Ideal.exp (r : EReal) = ((Real.exp r : ℝ) : EReal) := rfl

theorem log_coe_pos {r : ℝ} (h : 0 < r) : Ideal.log (r : EReal) = ((Real.log r : ℝ) : EReal) := by
  show (if r ≤ 0 then (⊥ : EReal) else ((Real.log r : ℝ) : EReal)) = _
  rw [if_neg (not_le.mpr h)]

/-! ## The finiteness of the encoder, the logits and the re-laid queue -/

theorem fin_encE {X : Fin 8192 → Fin 1024 → EReal} {W : Fin 1024 → Fin 128 → EReal} {b : Fin 128 → EReal}
    (hX : ∀ i k, Fin' (X i k)) (hW : ∀ k e, Fin' (W k e)) (hb : ∀ e, Fin' (b e)) (i : Fin 8192) (e : Fin 128) :
    Fin' (encE X W b i e) :=
  fin_add (fin_sum _ _ fun k _ => fin_mul (hX i k) (hW k e)) (hb e)

theorem fin_lpE {q kg : Fin 128 → EReal} (hq : ∀ e, Fin' (q e)) (hk : ∀ e, Fin' (kg e)) : Fin' (lpE q kg) :=
  fin_sum _ _ fun e _ => fin_mul (hq e) (hk e)

theorem fin_lnE {q : Fin 128 → EReal} {Qr : Fin 128 → Fin 1024 → EReal} (hq : ∀ e, Fin' (q e))
    (hQ : ∀ e n, Fin' (Qr e n)) (n : Fin 1024) : Fin' (lnE q Qr n) :=
  fin_sum _ _ fun e _ => fin_mul (hq e) (hQ e n)

theorem fin_relay {queue : Fin 1024 → Fin 128 → EReal} (h : ∀ a b, Fin' (queue a b)) (e : Fin 128) (n : Fin 1024) :
    Fin' (relay queue e n) :=
  h _ _

/-! ## The two arrangements of the row loss -/

/-- the supremum over the concatenated logits is the maximum of the head and the supremum of the tail -/
theorem sup_cons_fin {n : ℕ} (p : EReal) (g : Fin n → EReal) :
    univ.sup (Fin.cons p g : Fin (n + 1) → EReal) = max p (univ.sup g) := by
  rw [Fin.univ_succ, Finset.sup_cons, Finset.sup_map]
  simp [Function.comp_def]

/-- the reference's arrangement, with the head logit split off the concatenation -/
theorem rowR_split (p : EReal) (g : Fin 1024 → EReal) :
    rowR p g = -((p - max p (univ.sup g))
      - Ideal.log (Ideal.exp (p - max p (univ.sup g)) + ∑ n, Ideal.exp (g n - max p (univ.sup g)))) := by
  unfold rowR
  rw [sup_cons_fin, Fin.sum_univ_succ]
  simp only [Fin.cons_zero, Fin.cons_succ]

theorem rowK_eq_rowR {p : EReal} {g : Fin 1024 → EReal} (hp : Fin' p) (hg : ∀ n, Fin' (g n)) : rowK p g = rowR p g := by
  -- the maximum of the logits is real
  have hM : Fin' (max p (univ.sup g)) := by
    constructor
    · apply ne_of_lt
      rw [max_lt_iff]
      refine ⟨lt_top_iff_ne_top.mpr hp.1, ?_⟩
      rw [Finset.sup_lt_iff bot_lt_top]
      intro n _
      exact lt_top_iff_ne_top.mpr (hg n).1
    · apply ne_of_gt
      exact lt_of_lt_of_le (bot_lt_iff_ne_bot.mpr hp.2) (le_max_left _ _)
  obtain ⟨M, hMeq⟩ := exists_real hM
  obtain ⟨p', rfl⟩ := exists_real hp
  obtain ⟨g', rfl⟩ := exists_real_fun hg
  rw [rowR_split]
  unfold rowK
  rw [hMeq]
  -- the exponential of each shifted logit is a positive real, so their sum is a positive real
  have hterm : ∀ x : ℝ, Ideal.exp ((x : EReal) - (M : EReal)) = ((Real.exp (x - M) : ℝ) : EReal) := fun x => by
    rw [← EReal.coe_sub, exp_coe]
  have hpos : 0 < Real.exp (p' - M) + ∑ n, Real.exp (g' n - M) :=
    add_pos_of_pos_of_nonneg (Real.exp_pos _) (Finset.sum_nonneg fun n _ => (Real.exp_pos _).le)
  simp only [hterm]
  rw [coe_sum, ← EReal.coe_add, log_coe_pos hpos]
  -- both sides are the same real number
  rw [← EReal.coe_add, ← EReal.coe_sub, ← EReal.coe_sub, ← EReal.coe_sub, ← EReal.coe_neg]
  congr 1
  ring

/-! ## The mean over the valid rows, tile by tile or all at once -/

/-- the rows of the 8 tiles of 1024 rows are all 8192 rows, each once -/
def tileEquiv : Fin 8 × Fin 1024 ≃ Fin 8192 where
  toFun x := tileRow x.1 x.2
  invFun i := (⟨i.val / 1024, by have := i.isLt; omega⟩, ⟨i.val % 1024, Nat.mod_lt _ (by decide)⟩)
  left_inv := by
    rintro ⟨t, r⟩
    have := t.isLt; have := r.isLt
    ext <;> simp [tileRow] <;> omega
  right_inv := by
    intro i
    ext
    simp [tileRow]
    omega

theorem sum_tiles (f : Fin 8192 → EReal) : (∑ t : Fin 8, ∑ r : Fin 1024, f (tileRow t r)) = ∑ i, f i := by
  rw [← Fintype.sum_prod_type' (f := fun t r => f (tileRow t r))]
  exact Fintype.sum_equiv tileEquiv _ _ (fun _ => rfl)

theorem totalK_eq_totalR (ceK ceR : Fin 8192 → EReal) (v : Fin 8192 → Bool) (h : ∀ i, ceK i = ceR i) :
    totalK ceK v = totalR ceR v := by
  have hce : ceK = ceR := funext h
  subst hce
  unfold totalK totalR
  rw [sum_tiles (fun i => ceK i * vf (v i)), sum_tiles (fun i => vf (v i))]

end Cert.Spec

end
-- ==== Proof.Meet.lean ====
/-
  Where the two programs meet. Both end at the mean, over the valid rows, of the cross-entropy of target 0 of each row's
  1 + 1024 logits; the kernel arranges each row's loss as max + log-sum-exp − positive and sums tile by tile, the
  reference as −(shifted positive − log-sum-exp of the shifted logits) and sums all rows at once. With every input a
  real number every logit is a real number, so the two arrangements of a row's loss agree, and the tile-wise sums are
  the whole sums. The strong row paired with a weak row is the same on both sides because the first hit is unique.
-/
import proofs.«427062_j43121471652524_2_alg».proof.Proof.Spec
import proofs.«427062_j43121471652524_2_alg».proof.Proof.Comb
import proofs.«427062_j43121471652524_2_alg».proof.Proof.LossAlg

noncomputable section

namespace Cert.Spec

open Finset

/-- the row loss of weak row `i` in either arrangement, from the encoders' inputs and the paired strong row -/
theorem meet (fs fw : Fin 8192 → Fin 1024 → EReal) (wq wk : Fin 1024 → Fin 128 → EReal) (bq bk : Fin 128 → EReal)
    (queue : Fin 1024 → Fin 128 → EReal) (s w : Fin 8192 → ℕ) (v : Fin 8192 → Bool)
    (hfs : ∀ i k, Fin' (fs i k)) (hfw : ∀ i k, Fin' (fw i k)) (hwq : ∀ k e, Fin' (wq k e)) (hwk : ∀ k e, Fin' (wk k e))
    (hbq : ∀ e, Fin' (bq e)) (hbk : ∀ e, Fin' (bk e)) (hqu : ∀ a b, Fin' (queue a b))
    (pK pR : Fin 8192 → Fin 8192) (hK : ∀ i, IsPick s w i (pK i).val) (hR : ∀ i, IsPick s w i (pR i).val) :
    totalK (fun i => rowK (lpE (encE fw wq bq i) (encE fs wk bk (pK i))) (lnE (encE fw wq bq i) (relay queue))) v
      = totalR (fun i => rowR (lpE (encE fw wq bq i) (encE fs wk bk (pR i))) (lnE (encE fw wq bq i) (relay queue))) v := by
  refine totalK_eq_totalR _ _ v (fun i => ?_)
  have hp : pK i = pR i := Fin.ext (IsPick.unique (hK i) (hR i))
  rw [hp]
  have hq : ∀ e, Fin' (encE fw wq bq i e) := fun e => fin_encE hfw hwq hbq i e
  have hk : ∀ e, Fin' (encE fs wk bk (pR i) e) := fun e => fin_encE hfs hwk hbk (pR i) e
  exact rowK_eq_rowR (fin_lpE hq hk) (fun n => fin_lnE hq (fun e n => fin_relay hqu e n) n)

end Cert.Spec

end
-- ==== Proof.PreFacts.lean ====
/-
  The printed precondition, decoded. It is the conjunction of nine tests, each reduced by "and" over a whole argument:
  seven say every entry x of a float argument has |x| < +∞, two say every label a has 0 ≤ a and a < 80 as signed words.
  A conjunction of bits that is 1 has every bit 1; an all-reduction by "and" that is 1 met only 1s; |x| < +∞ on the
  extended reals says x is neither infinity; a 32-bit word in [0, 80) signed has value below 80.
-/
import proofs.«427062_j43121471652524_2_alg».proof.Pre_finite_inputs
import proofs.«427062_j43121471652524_2_alg».proof.Proof.Gen.Pre_finite_inputs
import proofs.«427062_j43121471652524_2_alg».proof.Proof.Spec
import Idealize.ShloMosaic.Lib.ReduceAll
import Idealize.ShloMosaic.Lib.StableHlo.Predicate

noncomputable section

namespace Cert.PreFacts

open Idealize.ShloMosaic Idealize.ShloMosaic.ValueIdx
open Cert.Pre_finite_inputs

variable [Cert.Pre_finite_inputs.Facts]

/-- The scalar shape has one index. -/
instance subsingleton_S_ : Subsingleton S_.Idx := ⟨fun a b => funext fun d => d.elim0⟩

/-! ## One element -/

/-- The pattern 0x7F800000 denotes +∞. -/
theorem inf_eq : Ideal.ofBits .f32 0x7F800000#32 = (⊤ : EReal) := by simp [Ideal.ofBits, Ideal.ieee]

/-- |x| < +∞ says x is a real. -/
theorem fin_of_lt (x : EReal) (h : Ideal.cmp .olt (max x (-x)) (Ideal.ofBits .f32 0x7F800000#32) = 1#1) : Spec.Fin' x := by
  rw [inf_eq] at h
  simp only [Ideal.cmp, StableHlo.Predicate.ofBool_eq_one_iff, decide_eq_true_eq] at h
  have h1 : x < ⊤ := lt_of_le_of_lt (le_max_left _ _) h
  have h2 : -x < ⊤ := lt_of_le_of_lt (le_max_right _ _) h
  refine ⟨ne_of_lt h1, fun e => ?_⟩
  rw [e, EReal.neg_bot] at h2
  exact lt_irrefl _ h2

/-- A 32-bit word that is ≥ 0 and < 80 as a signed word has value below 80. -/
theorem word_lt (w : BitVec 32) (h0 : IntOp.cmpi .sge w 0#32 = 1#1) (h8 : IntOp.cmpi .slt w 80#32 = 1#1) : w.toNat < 80 := by
  unfold IntOp.cmpi at h0 h8
  rw [StableHlo.Predicate.ofBool_eq_one_iff] at h0 h8
  simp only [BitVec.slt, BitVec.sle, decide_eq_true_eq] at h0 h8
  have z : (0#32 : BitVec 32).toInt = 0 := by decide
  have e : (80#32 : BitVec 32).toInt = 80 := by decide
  rw [z] at h0
  rw [e] at h8
  rw [BitVec.toInt_eq_toNat_cond] at h0 h8
  have h32 := w.isLt
  split at h0 <;> omega

/-- The two bits of a conjunction at the scalar shape. -/
theorem and_split {x y : IVec S_ 1} (h : andi x y ix0 = 1#1) : x ix0 = 1#1 ∧ y ix0 = 1#1 := IntOp.andi_eq_one.1 h

/-! ## One argument -/

/-- "every entry has |x| < +∞", all-reduced, says every entry is a real. -/
theorem finite_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) (j : s.Idx) : Spec.Fin' (x j) := by
  have h := Host.reduce_andi_all _ _ hr hu ix0 e j
  exact fin_of_lt (x j) h

/-- "every label a has 0 ≤ a and a < 80", all-reduced, says every label is below 80. -/
theorem range_all (a : IVec S8192 32) (hb : S_.BroadcastsInDim S8192 (![] : Fin 0 → Fin S8192.rank))
    (hr : S8192.ReducesTo [0] S_) (hu : 0 < S_.numel)
    (e : Host.reduce IntOp.andi
          (andi (cmpi .sge a (broadcastInDim S8192 ![] hb (constantI S_ 32 0#32)))
                (cmpi .slt a (broadcastInDim S8192 ![] hb (constantI S_ 32 80#32))))
          (constantI S_ 1 1#1) hr hu ix0 = 1#1) (j : S8192.Idx) : (a j).toNat < 80 := by
  have h := Host.reduce_andi_all _ _ hr hu ix0 e j
  obtain ⟨h0, h8⟩ := IntOp.andi_eq_one.1 h
  exact word_lt (a j) h0 h8

/-! ## The precondition -/

theorem decode (a0 a1 : FVec Ideal S8192x1024 .f32) (a2 a3 : IVec S8192 32) (a4 : FVec Ideal S1024x128 .f32)
    (a5 : FVec Ideal S128 .f32) (a6 : FVec Ideal S1024x128 .f32) (a7 : FVec Ideal S128 .f32) (a8 : FVec Ideal S1024x128 .f32)
    (h : Cert.Pre_finite_inputs.fn (F := Ideal) a0 a1 a2 a3 a4 a5 a6 a7 a8 = fun _ => 1#1) :
    (∀ j, Spec.Fin' (a0 j)) ∧ (∀ j, Spec.Fin' (a1 j)) ∧ (∀ j, (a2 j).toNat < 80) ∧ (∀ j, (a3 j).toNat < 80)
      ∧ (∀ j, Spec.Fin' (a4 j)) ∧ (∀ j, Spec.Fin' (a5 j)) ∧ (∀ j, Spec.Fin' (a6 j)) ∧ (∀ j, Spec.Fin' (a7 j))
      ∧ (∀ j, Spec.Fin' (a8 j)) := by
  have e := congrFun h ix0
  dsimp only [fn, fn_part1, fn_part2] at e
  obtain ⟨e, t3⟩ := and_split e
  obtain ⟨e, t2⟩ := and_split e
  obtain ⟨e, t8⟩ := and_split e
  obtain ⟨e, t7⟩ := and_split e
  obtain ⟨e, t6⟩ := and_split e
  obtain ⟨e, t5⟩ := and_split e
  obtain ⟨e, t4⟩ := and_split e
  obtain ⟨t0, t1⟩ := and_split e
  exact ⟨finite_all a0 _ _ _ t0, finite_all a1 _ _ _ t1, range_all a2 _ _ _ t2, range_all a3 _ _ _ t3,
    finite_all a4 _ _ _ t4, finite_all a5 _ _ _ t5, finite_all a6 _ _ _ t6, finite_all a7 _ _ _ t7, finite_all a8 _ _ _ t8⟩

end Cert.PreFacts

end
-- ==== Proof.lean ====
/-
  The proof of `Cert.Claim`: the three frames, `preserves` (the ideal pass rewrote nothing, so it is `True`) and `algebraic`.

  Both programs compute the contrastive loss of a batch of 8192 weak rows against a queue of 1024 negatives: every weak
  row is encoded (x·Wq + bq), paired with one strong row of its own label — the (rank mod count)-th strong row of that
  label, rank being the row's position among the weak rows of the label — whose encoding (x·Wk + bk) is the positive key,
  and the row's loss is the cross-entropy of target 0 over the positive logit and the 1024 negative logits; the result is
  the mean over the rows whose label occurs among the strong rows.

  The reference finds the paired row by an argmax over an [8192, 8192] hit matrix; the kernel by a class histogram, its
  exclusive running sum and a stable argsort of the strong labels. With the labels in the class range 0..79 both find the
  first hit, which is unique. The kernel computes the row losses tile by tile inside its second pallas_call, as
  max + log-sum-exp − positive, and sums the tiles' partial sums on the host; the reference computes −log-softmax at
  column 0 over the concatenated logits and sums all rows. With every float input finite all logits are real numbers and
  the two arrangements agree.
-/
import proofs.«427062_j43121471652524_2_alg».proof.Defs
import proofs.«427062_j43121471652524_2_alg».proof.Proof.Gen.Kernel
import proofs.«427062_j43121471652524_2_alg».proof.Proof.Gen.Kernel.Frame
import proofs.«427062_j43121471652524_2_alg».proof.Proof.Gen.KernelIdeal
import proofs.«427062_j43121471652524_2_alg».proof.Proof.Gen.KernelIdeal.Frame
import proofs.«427062_j43121471652524_2_alg».proof.Proof.Gen.ReferenceIdeal
import proofs.«427062_j43121471652524_2_alg».proof.Proof.Gen.Pre_finite_inputs
import proofs.«427062_j43121471652524_2_alg».proof.Proof.KRun
import proofs.«427062_j43121471652524_2_alg».proof.Proof.KValue
import proofs.«427062_j43121471652524_2_alg».proof.Proof.RRun
import proofs.«427062_j43121471652524_2_alg».proof.Proof.RValue
import proofs.«427062_j43121471652524_2_alg».proof.Proof.Meet
import proofs.«427062_j43121471652524_2_alg».proof.Proof.PreFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- Under the precondition the kernel's result buffer ends at the reference's function of the kernel's own argument
    arrays: both are the mean cross-entropy over the valid rows, in two arrangements. -/
theorem value_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (h : Cert.Pre_finite_inputs.fn (F := Ideal) (Cert.KernelIdeal.KValue.A0 m c) (Cert.KernelIdeal.KValue.A1 m c)
      (Cert.KernelIdeal.KValue.A2 m c) (Cert.KernelIdeal.KValue.A3 m c) (Cert.KernelIdeal.KValue.A4 m c)
      (Cert.KernelIdeal.KValue.A5 m c) (Cert.KernelIdeal.KValue.A6 m c) (Cert.KernelIdeal.KValue.A7 m c)
      (Cert.KernelIdeal.KValue.A8 m c) = fun _ => 1#1) :
    Cert.KernelIdeal.Gen.W17 (F := Ideal) m ρ c (Proc.devRef .tc Cert.KernelIdeal.main_v67)
      = Cert.ReferenceIdeal.T.loss (F := Ideal) (Cert.KernelIdeal.KValue.A0 m c) (Cert.KernelIdeal.KValue.A1 m c)
          (Cert.KernelIdeal.KValue.A2 m c) (Cert.KernelIdeal.KValue.A3 m c) (Cert.KernelIdeal.KValue.A4 m c)
          (Cert.KernelIdeal.KValue.A5 m c) (Cert.KernelIdeal.KValue.A6 m c) (Cert.KernelIdeal.KValue.A7 m c)
          (Cert.KernelIdeal.KValue.A8 m c) := by
  obtain ⟨f0, f1, r2, r3, f4, f5, f6, f7, f8⟩ := Cert.PreFacts.decode _ _ _ _ _ _ _ _ _ h
  have hs : ∀ j : Fin 8192, (Cert.KernelIdeal.KValue.A2 m c (ix1 j)).toNat < 80 := fun j => r2 (ix1 j)
  have hw : ∀ i : Fin 8192, (Cert.KernelIdeal.KValue.A3 m c (ix1 i)).toNat < 80 := fun i => r3 (ix1 i)
  rw [Cert.KernelIdeal.KValue.kernel_value m ρ c hs hw, Cert.ReferenceIdeal.RValue.ref_value]
  funext _
  exact Cert.Spec.meet _ _ _ _ _ _ _ _ _ _
    (fun i k => f0 (ix2 i k)) (fun i k => f1 (ix2 i k)) (fun k e => f4 (ix2 k e)) (fun k e => f6 (ix2 k e))
    (fun e => f5 (ix1 e)) (fun e => f7 (ix1 e)) (fun a b => f8 (ix2 a b))
    (Cert.KernelIdeal.KValue.pick m c) (Cert.ReferenceIdeal.RValue.pick (Cert.KernelIdeal.KValue.A2 m c) (Cert.KernelIdeal.KValue.A3 m c))
    (fun i => Cert.KernelIdeal.KValue.pick_isPick m c hs hw i)
    (fun i => Cert.ReferenceIdeal.RValue.pick_isPick _ _ i)

theorem frame_k : Cert.frame_Kernel := fun m ρ _ => Cert.Kernel.Gen.frame m ρ

theorem frame_ki : Cert.frame_KernelIdeal := fun m ρ _ => Cert.KernelIdeal.Gen.frame m ρ

/-- the reference's frame is its run with the result dropped -/
theorem frame_ri : Cert.frame_ReferenceIdeal := fun m ρ _ =>
  (θ_run Cert.ReferenceIdeal.defs _ _).mono (fun _ h c => (h c).2) (Cert.ReferenceIdeal.RRun.run (F := Ideal) m ρ)

theorem preserves : Cert.preserves_Kernel_KernelIdeal := trivial

/-- both programs run, and from memories agreeing on the arguments they end with the same result -/
theorem algebraic : Cert.algebraic_KernelIdeal_ReferenceIdeal := by
  intro m ρ m' ρ' hpre hagree
  refine ⟨fun c => Cert.KernelIdeal.Gen.W17 (F := Ideal) m ρ c (Proc.devRef .tc Cert.KernelIdeal.main_v67),
    Cert.KernelIdeal.KRun.run_val m ρ, ?_⟩
  refine (θ_run Cert.ReferenceIdeal.defs _ _).mono (fun _ h c => ⟨(h c).1.trans ?_, (h c).2⟩)
    (Cert.ReferenceIdeal.RRun.run (F := Ideal) m' ρ')
  obtain ⟨h0, h1, h2, h3, h4, h5, h6, h7, h8⟩ := hagree c
  rw [h0, h1, h2, h3, h4, h5, h6, h7, h8]
  exact (value_eq m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
